-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x640000 : S_.BroadcastsInDim S2x640000 (![] : Fin 0 → Fin S2x640000.rank)
  reducesTo_S2x640000_S_d0_1 : S2x640000.ReducesTo [0, 1] S_

variable [Facts]

def fn_part1 {F : FTy → Type} [FloatOps F] (main_arg1 : IVec S2x640000 32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S2x640000 32 := broadcastInDim S2x640000 ![] bcast_S_S2x640000 main_c_8
  let main_v25 : IVec S2x640000 1 := cmpi .sge main_arg1 main_v24
  let main_c_9 : IVec S_ 32 := constantI S_ 32 10000#32
  let main_v26 : IVec S2x640000 32 := broadcastInDim S2x640000 ![] bcast_S_S2x640000 main_c_9
  let main_v27 : IVec S2x640000 1 := cmpi .slt main_arg1 main_v26
  let main_v28 : IVec S2x640000 1 := andi main_v25 main_v27
  let main_c_10 : IVec S_ 1 := constantI S_ 1 1#1
  let main_v29 : IVec S_ 1 := (fun x v => Host.reduce IntOp.andi x v reducesTo_S2x640000_S_d0_1 h_S_) main_v28 main_c_10
  let main_v30 : IVec S_ 1 := andi main_v23 main_v29
  main_v30

def fn {F : FTy → Type} [FloatOps F] (main_arg0 : FVec F S10000x128 .f32) (main_arg1 : IVec S2x640000 32) (main_arg2 : FVec F S128x128 .f32) (main_arg3 : FVec F S128 .f32) (main_arg4 : FVec F S128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_v13 main_v16
-- ==== Kernel.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S10000 : Shape := ⟨1, ![10000]⟩
abbrev S1x640000 : Shape := ⟨2, ![1, 640000]⟩
abbrev S640000 : Shape := ⟨1, ![640000]⟩
abbrev S650000 : Shape := ⟨1, ![650000]⟩
abbrev S_ : Shape := ⟨0, ![]⟩
abbrev S650000x1 : Shape := ⟨2, ![650000, 1]⟩
abbrev S10000x1 : Shape := ⟨2, ![10000, 1]⟩
abbrev S10000x10240 : Shape := ⟨2, ![10000, 10240]⟩
abbrev S650000x2 : Shape := ⟨2, ![650000, 2]⟩
abbrev S1000x128 : Shape := ⟨2, ![1000, 128]⟩
abbrev S1000x1 : Shape := ⟨2, ![1000, 1]⟩
abbrev S10240x128 : Shape := ⟨2, ![10240, 128]⟩
abbrev S1x128 : Shape := ⟨2, ![1, 128]⟩
abbrev S1000x5120 : Shape := ⟨2, ![1000, 5120]⟩
abbrev S5120x128 : Shape := ⟨2, ![5120, 128]⟩
abbrev S1000 : Shape := ⟨1, ![1000]⟩

abbrev nBuf : Space → Nat
  | .hbm => 59
  | .vmem => 17
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S10000, .i32⟩
  | .hbm, ⟨7, _⟩ => ⟨S1x640000, .i32⟩
  | .hbm, ⟨8, _⟩ => ⟨S640000, .i32⟩
  | .hbm, ⟨9, _⟩ => ⟨S650000, .i32⟩
  | .hbm, ⟨10, _⟩ => ⟨S1x640000, .i32⟩
  | .hbm, ⟨11, _⟩ => ⟨S640000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S10000, .f32⟩
  | .hbm, ⟨17, _⟩ => ⟨S650000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .i1⟩
  | .hbm, ⟨22, _⟩ => ⟨S10000, .f32⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S10000x1, .f32⟩
  | .hbm, ⟨28, _⟩ => ⟨S_, .i32⟩
  | .hbm, ⟨29, _⟩ => ⟨S650000, .i32⟩
  | .hbm, ⟨30, _⟩ => ⟨S_, .i32⟩
  | .hbm, ⟨31, _⟩ => ⟨S10000x10240, .i32⟩
  | .hbm, ⟨32, _⟩ => ⟨S_, .i32⟩
  | .hbm, ⟨33, _⟩ => ⟨S650000, .i32⟩
  | .hbm, ⟨34, _⟩ => ⟨S650000, .i1⟩
  | .hbm, ⟨35, _⟩ => ⟨S_, .i32⟩
  | .hbm, ⟨36, _⟩ => ⟨S650000, .i32⟩
  | .hbm, ⟨37, _⟩ => ⟨S650000, .i32⟩
  | .hbm, ⟨38, _⟩ => ⟨S650000, .i32⟩
  | .hbm, ⟨39, _⟩ => ⟨S_, .i32⟩
  | .hbm, ⟨40, _⟩ => ⟨S650000, .i32⟩
  | .hbm, ⟨41, _⟩ => ⟨S650000, .i1⟩
  | .hbm, ⟨42, _⟩ => ⟨S_, .i32⟩
  | .hbm, ⟨43, _⟩ => ⟨S650000, .i32⟩
  | .hbm, ⟨44, _⟩ => ⟨S650000, .i32⟩
  | .hbm, ⟨45, _⟩ => ⟨S650000, .i32⟩
  | .hbm, ⟨46, _⟩ => ⟨S650000x1, .i32⟩
  | .hbm, ⟨47, _⟩ => ⟨S650000x1, .i32⟩
  | .hbm, ⟨48, _⟩ => ⟨S650000x2, .i32⟩
  | .hbm, ⟨49, _⟩ => ⟨S10000x10240, .i32⟩
  | .hbm, ⟨50, _⟩ => ⟨S10000x10240, .bf16⟩
  | .hbm, ⟨51, _⟩ => ⟨S10000x128, .bf16⟩
  | .hbm, ⟨52, _⟩ => ⟨S_, .i32⟩
  | .hbm, ⟨53, _⟩ => ⟨S_, .bf16⟩
  | .hbm, ⟨54, _⟩ => ⟨S10240x128, .bf16⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1000x1, .f32⟩
  | .local _ .vmem, ⟨4, _⟩ => ⟨S1000x1, .f32⟩
  | .local _ .vmem, ⟨5, _⟩ => ⟨S1000x128, .bf16⟩
  | .local _ .vmem, ⟨6, _⟩ => ⟨S1000x128, .bf16⟩
  | .local _ .vmem, ⟨7, _⟩ => ⟨S1000x5120, .bf16⟩
  | .local _ .vmem, ⟨8, _⟩ => ⟨S1000x5120, .bf16⟩
  | .local _ .vmem, ⟨9, _⟩ => ⟨S10240x128, .bf16⟩
  | .local _ .vmem, ⟨10, _⟩ => ⟨S10000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1000x128, .f32⟩
  | .local _ .vmem, ⟨15, _⟩ => ⟨S1000x128, .f32⟩
  | .local _ .vmem, ⟨16, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_c_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_call1_v0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![10, 2], ![false, false]⟩

def k1_mult1 (i : grid1.Coords) : BitVec 32 :=
  let arg1 : BitVec 32 := BitVec.ofNat 32 (i 1).val
  let c5120_i32 : BitVec 32 := 5120#32
  let v3 : BitVec 32 := Scalar.muli arg1 c5120_i32
  v3
def k1_off1 (i : grid1.Coords) : Fin 2 → Nat :=
  let arg1 : BitVec 32 := BitVec.ofNat 32 (i 1).val
  let c5120_i32 : BitVec 32 := 5120#32
  let v3 : BitVec 32 := Scalar.muli arg1 c5120_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_7 : BitVec 32 := 0#32
  let v18 : BitVec 1 := Scalar.cmpi .ne v17 c0_i32_7
  v18

def k1_mult2 (i : grid1.Coords) : BitVec 32 :=
  let arg0 : BitVec 32 := BitVec.ofNat 32 (i 0).val
  let c1000_i32 : BitVec 32 := 1000#32
  let v19 : BitVec 32 := Scalar.muli arg0 c1000_i32
  v19
def k1_off2 (i : grid1.Coords) : Fin 2 → Nat :=
  let arg0 : BitVec 32 := BitVec.ofNat 32 (i 0).val
  let c1000_i32 : BitVec 32 := 1000#32
  let v19 : BitVec 32 := Scalar.muli arg0 c1000_i32
  let v20 : BitVec 32 := v19
  let v21 : Index := Scalar.indexCast v20
  let c0_8 : Index := 0#32
  ![v21.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1000x5120 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S10240x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S10000x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  slices_S2x640000_S1x640000_0_0 : S2x640000.Slices ![0, 0] S1x640000
  shapeCasts_S1x640000_S640000 : S1x640000.ShapeCasts S640000
  concatenates_S640000_S10000_S650000_d0 : Shape.Concatenates [S640000, S10000] S650000 0
  slices_S2x640000_S1x640000_1_0 : S2x640000.Slices ![1, 0] S1x640000
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  shapeCasts_S10000_S10000x1 : S10000.ShapeCasts S10000x1
  bcast_S_S10000x10240 : S_.BroadcastsInDim S10000x10240 (![] : Fin 0 → Fin S10000x10240.rank)
  concatenates_S650000x1_S650000x1_S650000x2_d1 : Shape.Concatenates [S650000x1, S650000x1] S650000x2 1
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  packedbf16_S1000x128_S1000x128_0_0 : (Rect.unit (s := S1000x128) ![0, 0] S1000x128.size inb_S1000x128_S1000x128_0_0).PackedRows (EltTy.packing .bf16)
  pads_S10000x128_S10240x128_02400_000 : S10000x128.Pads (![0, 0] : Fin 2 → Nat) ![240, 0] ![0, 0] S10240x128
  h_S_ : 0 < S_.numel
  shapeCasts_S128_S1x128 : S128.ShapeCasts S1x128
  shapeCasts_S1000x128_S1000x128 : S1000x128.ShapeCasts S1000x128
  h_S5120x128 : 0 < S5120x128.numel
  shapeCasts_S5120x128_S5120x128 : S5120x128.ShapeCasts S5120x128
  inb_S1000x5120_S1000x5120_0_0 : ∀ a, (![0, 0] : Fin 2 → Nat) a + S1000x5120.size a ≤ S1000x5120.size a
  h_S1000x5120 : 0 < S1000x5120.numel
  shapeCasts_S1000x5120_S1000x5120 : S1000x5120.ShapeCasts S1000x5120
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  reduces_S1000x128_S1000 : S1000x128.Reduces [1] S1000
  shapeCasts_S1000_S1000x1 : S1000.ShapeCasts S1000x1
  scatter_S10000_S650000x1_S650000_n_0_0_1_wf : ScatterDims.WF S10000 S650000x1 S650000 [] [0] [0] 1
  scatter_S10000x10240_S650000x2_S650000_n_01_01_1_wf : ScatterDims.WF S10000x10240 S650000x2 S650000 [] [0, 1] [0, 1] 1
  dot_S1000x128_S128x128_S1000x128_1_0_0_1_n_n_wf : DotDims.WF S1000x128 S128x128 S1000x128 [1] [0] [0] [1] [] []
  dot_S1000x5120_S5120x128_S1000x128_1_0_0_1_n_n_wf : DotDims.WF S1000x5120 S5120x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S10000x1.size a
  hwx0_2 : ∀ i : grid0.Coords, EltTy.bits .f32 = 32 ∨ (Rect.block (s := S10000x1) S1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S10000x128.size a
  hwx0_3 : ∀ i : grid0.Coords, EltTy.bits .bf16 = 32 ∨ (Rect.block (s := S10000x128) S1000x128.size (cc0_transform_3 i) (hinb0_3 i)).WholeWords (EltTy.packing .bf16)
  hrank1 : 0 < grid1.rank
  k1_mult1_dvd : ∀ i : grid1.Coords, 5120 ∣ (k1_mult1 i).toNat
  k1_off1_inb : ∀ i : grid1.Coords, ∀ a, (k1_off1 i) a + S5120x128.size a ≤ S10240x128.size a
  k1_mult2_dvd : ∀ i : grid1.Coords, ∀ (k1_h2 : k1_cond2 i = 1#1), 1000 ∣ (k1_mult2 i).toNat
  k1_off2_inb : ∀ i : grid1.Coords, ∀ (k1_h2 : k1_cond2 i = 1#1), ∀ a, (k1_off2 i) a + S1000x1.size a ≤ S10000x1.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x5120.size a ≤ S10000x10240.size a
  hwx1_0 : ∀ i : grid1.Coords, EltTy.bits .bf16 = 32 ∨ (Rect.block (s := S10000x10240) S1000x5120.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x128.size a ≤ S10240x128.size a
  hwx1_1 : ∀ i : grid1.Coords, EltTy.bits .bf16 = 32 ∨ (Rect.block (s := S10240x128) S10240x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S10000x1.size a
  hwx1_2 : ∀ i : grid1.Coords, EltTy.bits .f32 = 32 ∨ (Rect.block (s := S10000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x128.size a ≤ S10000x128.size a
  hwx1_6 : ∀ i : grid1.Coords, EltTy.bits .f32 = 32 ∨ (Rect.block (s := S10000x128) S1000x128.size (cc1_transform_6 i) (hinb1_6 i)).WholeWords (EltTy.packing .f32)

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def scatter_S10000x10240_S650000x2_S650000_n_01_01_1 : ScatterDims S10000x10240 S650000x2 S650000 where
  updateWindowDims := []
  insertedWindowDims := [0, 1]
  scatterDimsToOperandDims := [0, 1]
  indexVectorDim := 1
  wf := scatter_S10000x10240_S650000x2_S650000_n_01_01_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x5120_S5120x128_S1000x128_1_0_0_1_n_n : DotDims S1000x5120 S5120x128 S1000x128 where
  lhsContracting := [1]
  rhsContracting := [0]
  lhsNonContracting := [0]
  rhsNonContracting := [1]
  lhsBatch := []
  rhsBatch := []
  wf := dot_S1000x5120_S5120x128_S1000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S1000x5120.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S10240x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S10000x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S1000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S10000 : Shape := ⟨1, ![10000]⟩
abbrev S1x640000 : Shape := ⟨2, ![1, 640000]⟩
abbrev S640000 : Shape := ⟨1, ![640000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S10000x1 : Shape := ⟨2, ![10000, 1]⟩

abbrev nBuf : Space → Nat
  | .hbm => 95
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S10000, .i32⟩
  | .hbm, ⟨7, _⟩ => ⟨S1x640000, .i32⟩
  | .hbm, ⟨8, _⟩ => ⟨S640000, .i32⟩
  | .hbm, ⟨9, _⟩ => ⟨S650000, .i32⟩
  | .hbm, ⟨10, _⟩ => ⟨S1x640000, .i32⟩
  | .hbm, ⟨11, _⟩ => ⟨S640000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S10000, .f32⟩
  | .hbm, ⟨17, _⟩ => ⟨S650000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .i1⟩
  | .hbm, ⟨22, _⟩ => ⟨S10000, .f32⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000, .f32⟩
  | .hbm, ⟨45, _⟩ => ⟨S650000, .f32⟩
  | .hbm, ⟨46, _⟩ => ⟨S10000x128, .f32⟩
  | .hbm, ⟨47, _⟩ => ⟨S_, .i32⟩
  | .hbm, ⟨48, _⟩ => ⟨S650000, .i32⟩
  | .hbm, ⟨49, _⟩ => ⟨S650000, .i1⟩
  | .hbm, ⟨50, _⟩ => ⟨S_, .i32⟩
  | .hbm, ⟨51, _⟩ => ⟨S650000, .i32⟩
  | .hbm, ⟨52, _⟩ => ⟨S650000, .i32⟩
  | .hbm, ⟨53, _⟩ => ⟨S650000, .i32⟩
  | .hbm, ⟨54, _⟩ => ⟨S650000x1, .i32⟩
  | .hbm, ⟨55, _⟩ => ⟨S650000x128, .f32⟩
  | .hbm, ⟨56, _⟩ => ⟨S650000x1, .f32⟩
  | .hbm, ⟨57, _⟩ => ⟨S650000x128, .f32⟩
  | .hbm, ⟨58, _⟩ => ⟨S650000x128, .f32⟩
  | .hbm, ⟨59, _⟩ => ⟨S_, .f32⟩
  | .hbm, ⟨60, _⟩ => ⟨S10000x128, .f32⟩
  | .hbm, ⟨61, _⟩ => ⟨S650000x1, .i32⟩
  | .hbm, ⟨62, _⟩ => ⟨S10000x128, .f32⟩
  | .hbm, ⟨63, _⟩ => ⟨S1x128, .f32⟩
  | .hbm, ⟨64, _⟩ => ⟨S10000x128, .f32⟩
  | .hbm, ⟨65, _⟩ => ⟨S10000x128, .f32⟩
  | .hbm, ⟨66, _⟩ => ⟨S_, .f32⟩
  | .hbm, ⟨67, _⟩ => ⟨S10000, .f32⟩
  | .hbm, ⟨68, _⟩ => ⟨S10000x1, .f32⟩
  | .hbm, ⟨69, _⟩ => ⟨S_, .f32⟩
  | .hbm, ⟨70, _⟩ => ⟨S10000x1, .f32⟩
  | .hbm, ⟨71, _⟩ => ⟨S10000x1, .f32⟩
  | .hbm, ⟨72, _⟩ => ⟨S10000x128, .f32⟩
  | .hbm, ⟨73, _⟩ => ⟨S10000x128, .f32⟩
  | .hbm, ⟨74, _⟩ => ⟨S10000x128, .f32⟩
  | .hbm, ⟨75, _⟩ => ⟨S_, .f32⟩
  | .hbm, ⟨76, _⟩ => ⟨S10000, .f32⟩
  | .hbm, ⟨77, _⟩ => ⟨S10000x1, .f32⟩
  | .hbm, ⟨78, _⟩ => ⟨S_, .f32⟩
  | .hbm, ⟨79, _⟩ => ⟨S10000x1, .f32⟩
  | .hbm, ⟨80, _⟩ => ⟨S10000x1, .f32⟩
  | .hbm, ⟨81, _⟩ => ⟨S10000x128, .f32⟩
  | .hbm, ⟨82, _⟩ => ⟨S10000x128, .f32⟩
  | .hbm, ⟨83, _⟩ => ⟨S_, .f32⟩
  | .hbm, ⟨84, _⟩ => ⟨S10000x1, .f32⟩
  | .hbm, ⟨85, _⟩ => ⟨S10000x1, .f32⟩
  | .hbm, ⟨86, _⟩ => ⟨S10000x1, .f32⟩
  | .hbm, ⟨87, _⟩ => ⟨S10000x128, .f32⟩
  | .hbm, ⟨88, _⟩ => ⟨S10000x128, .f32⟩
  | .hbm, ⟨89, _⟩ => ⟨S1x128, .f32⟩
  | .hbm, ⟨90, _⟩ => ⟨S10000x128, .f32⟩
  | .hbm, ⟨91, _⟩ => ⟨S10000x128, .f32⟩
  | .hbm, ⟨92, _⟩ => ⟨S1x128, .f32⟩
  | .hbm, ⟨93, _⟩ => ⟨S10000x128, .f32⟩
  | .hbm, ⟨94, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S10000_S650000_d0 : Shape.Concatenates [S640000, S10000] S650000 0
  slices_S2x640000_S1x640000_1_0 : S2x640000.Slices ![1, 0] S1x640000
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  dot_S10000x128_S128x128_S10000x128_1_0_0_1_n_n_wf : DotDims.WF S10000x128 S128x128 S10000x128 [1] [0] [0] [1] [] []
  gather_S10000x128_S650000x1_S650000x128_1_0_n_n_0_1_1128_wf : GatherDims.WF S10000x128 S650000x1 S650000x128 [1] [0] [] [0] [] 1 ![1, 128]
  scatter_S10000x128_S650000x1_S650000x128_1_0_0_1_wf : ScatterDims.WF S10000x128 S650000x1 S650000x128 [1] [0] [0] 1

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S650000x1_S650000x128_1_0_n_n_0_1_1128 : GatherDims S10000x128 S650000x1 S650000x128 where
  offsetDims := [1]
  collapsedSliceDims := [0]
  operandBatchingDims := []
  startIndicesBatchingDims := []
  startIndexMap := [0]
  indexVectorDim := 1
  sliceSizes := ![1, 128]
  wf := gather_S10000x128_S650000x1_S650000x128_1_0_n_n_0_1_1128_wf
def scatter_S10000x128_S650000x1_S650000x128_1_0_0_1 : ScatterDims S10000x128 S650000x1 S650000x128 where
  updateWindowDims := [1]
  insertedWindowDims := [0]
  scatterDimsToOperandDims := [0]
  indexVectorDim := 1
  wf := scatter_S10000x128_S650000x1_S650000x128_1_0_0_1_wf

class Facts : Prop extends Facts₀ where

variable [Facts]
-- ==== Proof.R0K.lean ====
/-
  The first kernel region: h_scaled = (x · W) scaled row by row, one block of 1000 rows per grid point.

  Stated at a parameter V, the contents of the core's buffers when the region is entered. At point t the body loads the
  three input blocks whole — rows [1000t, 1000t + 1000) of the feature array, the whole weight array, the same rows of the
  column of inverse square roots —, loads the output buffer (whose contents it does not use) and stores the product,
  scaled, over the whole output block. So after the body the output's staging buffer holds that one payload read
  through the whole-block rectangle, and each input's buffer its block as found; the region's invariant is the class's
  (the scoped buffers no window stages and the generator register, untouched), and the core owes nothing.
-/
import proofs.«422284_j11982958756494_3_alg».proof.Proof.Gen.Kernel.Launch
import proofs.«422284_j11982958756494_3_alg».proof.Proof.Gen.Kernel.Skeleton
import proofs.«422284_j11982958756494_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole block -/

abbrev rx : Rect S1000x128 := Rect.unit (s := S1000x128) ![0, 0] S1000x128.size inb_S1000x128_S1000x128_0_0
abbrev rw : Rect S128x128 := Rect.unit (s := S128x128) ![0, 0] S128x128.size inb_S128x128_S128x128_0_0
abbrev rd : Rect S1000x1 := Rect.unit (s := S1000x1) ![0, 0] S1000x1.size inb_S1000x1_S1000x1_0_0

/-- The output block after the body, from the three input blocks: its one store, read back. -/
def out0_3 (x0 : Vec F S1000x128 .f32) (x1 : Vec F S128x128 .f32) (x2 : Vec F S1000x1 .f32) : Vec F S1000x128 .bf16 :=
  View.canon [⟨rx, k0_pay1 (View.ld x0 rx) (View.ld x1 rw) (View.ld x2 rd)⟩]

/-- The store covers the block. -/
theorem cover0_3 (p0 : Vec F S1000x128 .bf16) (y : S1000x128.Idx) :
    ∃ pc ∈ ([⟨rx, p0⟩] : List (View.Piece (Elt F) S1000x128 .bf16)), y ∈ pc.1.set :=
  View.cover_of_tiled [⟨rx, p0⟩] S1000x128.size (by rfl) y

/-! ## The body's triple -/

set_option maxHeartbeats 1000000 in
/-- The body on whole staging memrefs, the inputs' at read contents and the output's at anything, runs to the
    continuation holding the inputs' as they were and the output's at out0_3 of the inputs'. -/
theorem sound_kernel0 (c : Dev nD) (E : Set ℕ) (i : grid0.Coords)
    (arg1 : Memref sig .tc .vmem S1000x128 .f32) (harg1 : arg1.IsWhole) (arg2 : Memref sig .tc .vmem S128x128 .f32) (harg2 : arg2.IsWhole)
    (arg3 : Memref sig .tc .vmem S1000x1 .f32) (harg3 : arg3.IsWhole) (arg4 : Memref sig .tc .vmem S1000x128 .bf16) (harg4 : arg4.IsWhole)
    (x0 : Vec F S1000x128 .f32) (x1 : Vec F S128x128 .f32) (x2 : Vec F S1000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_scale_kernel i arg1 harg1 arg2 harg2 arg3 harg3 arg4 harg4) K := by
  simp only [cc0__linear_scale_kernel_eq_skeleton]; unfold cc0__linear_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The proof data of the first pipeline on core c: the arrays as the region finds them; after the body at point t each
    input's buffer at its block and the output's at out0_3 of the input blocks; the class's invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the core's
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.R1K.lean ====
/-
  The second kernel region: the aggregation A · h, two blocks of 5120 columns per block of 1000 rows, then the layer
  normalisation of the finished rows.

  The grid has 20 points, (i, k) with k the fast axis. At an even point (k = 0) the body clears its accumulator — a
  scratch buffer the kernel keeps between points — and adds the first half-product into it; the output block is not
  touched there and not written back. At an odd point (k = 1) it adds the second half-product, and stores the normalised
  rows over the whole output block, which is then written back. So the accumulator after an even point depends on that
  point's blocks alone, and the output block after an odd point on that point's blocks and the accumulator the point
  before left. The region's invariant says exactly that much: before the first point and after an odd one the scratch
  holds anything; after an even point it holds that point's accumulator. Stated at a parameter V, the contents of the
  core's buffers when the region is entered.
-/
import proofs.«422284_j11982958756494_3_alg».proof.Proof.Gen.Kernel.Launch
import proofs.«422284_j11982958756494_3_alg».proof.Proof.Gen.Kernel.Skeleton
import proofs.«422284_j11982958756494_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- "k = 0": the accumulator is cleared. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
/-- "k = 1": the rows are finished, normalised and stored. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-- At an even point the output window is idle and is not written back; at an odd point it is live. -/
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
theorem liveAt1_6_B : ∀ t : Fin cfg1.N, ¬cond1_0 (grid1.coords t) → cond1_1 (grid1.coords t) → cfg1.idle 6 (grid1.coords t) = false := by decide +kernel
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel

/-! ## The memrefs the body is called with -/

abbrev ms1_0 (t : Fin cfg1.N) : Memref sig .tc .vmem S1000x5120 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10240x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S10000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1000x128 .f32 := win1_6.stage (cfg1.slots t 6)
abbrev hs1_6 (t : Fin cfg1.N) : (ms1_6 t).IsWhole := hstage1_6 ((cfg1.slots t 6).cast nbuf1_6)
/-- The accumulator: a whole scoped buffer of the kernel's own. -/
abbrev scM1 : Memref sig .tc .vmem S1000x128 .f32 := Memref.whole cc1_scratch0
abbrev VS1 : View sig .tc .vmem S1000x128 .f32 := scM1.view
/-- One staging buffer of the output window, through which its contents are stated. -/
abbrev VO1_6 : View sig .tc .vmem S1000x128 .f32 := (Memref.whole cc1_stg6_0 : Memref sig .tc .vmem S1000x128 .f32).view

/-! ## The scoped buffers no window of this region stages -/

/-- The first region's seven staging buffers, each at some contents, beside a statement S about the accumulator. -/
def rest7 (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ S)

/-- The class's invariant, with the accumulator as a memref owned at some contents. -/
theorem PhiA1_eq (c : Dev nD) :
    (Pipeline.ΦA spec1 c : sProp 𝕄) = iprop(rest7 c (iprop(∃ d, owns (c : Thread nD τ) scM1 fullShare d)) ∗ (∃ r, prngReg c r)) := by
  unfold Pipeline.ΦA rest7; rw [scopedRest1_eq]; simp only [scM1, owns_whole]; try rfl

/-- A statement about the accumulator may be weakened under the seven. -/
theorem rest7_mono (c : Dev nD) {S S' : sProp 𝕄} (h : S ⊢ S') : rest7 c S ⊢ rest7 c S' := by
  unfold rest7
  iintro ⟨B1, B2, B3, B4, B5, B6, B7, HS⟩
  isplitl [B1]; · iexact B1
  isplitl [B2]; · iexact B2
  isplitl [B3]; · iexact B3
  isplitl [B4]; · iexact B4
  isplitl [B5]; · iexact B5
  isplitl [B6]; · iexact B6
  isplitl [B7]; · iexact B7
  iapply h; iexact HS

/-! ## The body on any staging memrefs, case by case: the pieces each buffer ends with are found by the run -/

set_option maxHeartbeats 4000000 in
/-- CASE A (k = 0). On whole memrefs — the six inputs' at their contents, the output's at contents handed back untouched,
    the accumulator's at anything — the body runs to the continuation holding the inputs' and the output's as they were
    and the accumulator's with its pieces written. -/
noncomputable def kernelRun1_A (c : Dev nD) (i : grid1.Coords) (arg2 : Memref sig .tc .vmem S1000x5120 .bf16) (harg2 : arg2.IsWhole) (arg3 : Memref sig .tc .vmem S10240x128 .bf16) (harg3 : arg3.IsWhole) (arg4 : Memref sig .tc .vmem S10000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1000x128 .f32) (harg8 : arg8.IsWhole) (arg9 : Memref sig .tc .vmem S1000x128 .f32) (harg9 : arg9.IsWhole) (hc0 : cond1_0 i) (hc1 : ¬cond1_1 i)
    (x0 : Vec F S1000x5120 .bf16) (x1 : Vec F S10240x128 .bf16) (x2 : Vec F S10000x1 .f32) (x3 x4 x5 : Vec F S1x128 .f32) :
    { LS0 : List (View.Piece (Elt F) S1000x128 .f32) //
      ∀ (xi6 : Vec F S1000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
                ∗ (∃ f, arg9.view.loc (c : Thread nD τ) ↦[arg9.view.set]{fullShare} arg9.view.writes (Elt F) f LS0)) -∗ K ⟨⟩))
          ⊢ wp frame (wpE (defs₀ (F := F)) Variants.none c none) E (cc1__aggregate_kernel i arg2 harg2 arg3 harg3 arg4 harg4 arg5 harg5 arg6 harg6 arg7 harg7 arg8 harg8 arg9 harg9) K } := by
  refine ⟨?_, fun xi6 E K => ?run⟩
  case run =>
    simp only [cc1__aggregate_kernel_eq_skeleton]; unfold cc1__aggregate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 4000000 in
/-- CASE B (k = 1). The inputs' memrefs at their contents, the output's at anything, the accumulator's at what the point
    before left (xs0): the body runs to the continuation holding the inputs' as they were, and the output's and the
    accumulator's each with its pieces written. -/
noncomputable def kernelRun1_B (c : Dev nD) (i : grid1.Coords) (arg2 : Memref sig .tc .vmem S1000x5120 .bf16) (harg2 : arg2.IsWhole) (arg3 : Memref sig .tc .vmem S10240x128 .bf16) (harg3 : arg3.IsWhole) (arg4 : Memref sig .tc .vmem S10000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1000x128 .f32) (harg8 : arg8.IsWhole) (arg9 : Memref sig .tc .vmem S1000x128 .f32) (harg9 : arg9.IsWhole) (hc0 : ¬cond1_0 i) (hc1 : cond1_1 i)
    (x0 : Vec F S1000x5120 .bf16) (x1 : Vec F S10240x128 .bf16) (x2 : Vec F S10000x1 .f32) (x3 x4 x5 : Vec F S1x128 .f32) (xs0 : Vec F S1000x128 .f32) :
    Σ' (L6 : List (View.Piece (Elt F) S1000x128 .f32)), { LS0 : List (View.Piece (Elt F) S1000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)) -∗ K ⟨⟩))
          ⊢ wp frame (wpE (defs₀ (F := F)) Variants.none c none) E (cc1__aggregate_kernel i arg2 harg2 arg3 harg3 arg4 harg4 arg5 harg5 arg6 harg6 arg7 harg7 arg8 harg8 arg9 harg9) K } := by
  refine ⟨?_, ?_, fun E K => ?run⟩
  case run =>
    simp only [cc1__aggregate_kernel_eq_skeleton]; unfold cc1__aggregate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

/-! ## The pieces cover their buffers; what each case leaves -/

theorem scover1_A (c : Dev nD) (i : grid1.Coords) (arg2 : Memref sig .tc .vmem S1000x5120 .bf16) (harg2 : arg2.IsWhole) (arg3 : Memref sig .tc .vmem S10240x128 .bf16) (harg3 : arg3.IsWhole) (arg4 : Memref sig .tc .vmem S10000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1000x128 .f32) (harg8 : arg8.IsWhole) (arg9 : Memref sig .tc .vmem S1000x128 .f32) (harg9 : arg9.IsWhole) (hc0 : cond1_0 i) (hc1 : ¬cond1_1 i)
    (x0 : Vec F S1000x5120 .bf16) (x1 : Vec F S10240x128 .bf16) (x2 : Vec F S10000x1 .f32) (x3 x4 x5 : Vec F S1x128 .f32) (y : S1000x128.Idx) :
    ∃ pc ∈ (kernelRun1_A c i arg2 harg2 arg3 harg3 arg4 harg4 arg5 harg5 arg6 harg6 arg7 harg7 arg8 harg8 arg9 harg9 hc0 hc1 x0 x1 x2 x3 x4 x5).1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).1 S1000x128.size (by sl_kernel_rfl) y

/-- The accumulator after a point of case A. -/
def sout1_A (c : Dev nD) (i : grid1.Coords) (arg2 : Memref sig .tc .vmem S1000x5120 .bf16) (harg2 : arg2.IsWhole) (arg3 : Memref sig .tc .vmem S10240x128 .bf16) (harg3 : arg3.IsWhole) (arg4 : Memref sig .tc .vmem S10000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1000x128 .f32) (harg8 : arg8.IsWhole) (arg9 : Memref sig .tc .vmem S1000x128 .f32) (harg9 : arg9.IsWhole) (hc0 : cond1_0 i) (hc1 : ¬cond1_1 i)
    (x0 : Vec F S1000x5120 .bf16) (x1 : Vec F S10240x128 .bf16) (x2 : Vec F S10000x1 .f32) (x3 x4 x5 : Vec F S1x128 .f32) : Vec F S1000x128 .f32 :=
  VS1.read (Elt F) (VS1.writes (Elt F) VS1.junk (kernelRun1_A c i arg2 harg2 arg3 harg3 arg4 harg4 arg5 harg5 arg6 harg6 arg7 harg7 arg8 harg8 arg9 harg9 hc0 hc1 x0 x1 x2 x3 x4 x5).1)

theorem cover1_B (c : Dev nD) (i : grid1.Coords) (arg2 : Memref sig .tc .vmem S1000x5120 .bf16) (harg2 : arg2.IsWhole) (arg3 : Memref sig .tc .vmem S10240x128 .bf16) (harg3 : arg3.IsWhole) (arg4 : Memref sig .tc .vmem S10000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1000x128 .f32) (harg8 : arg8.IsWhole) (arg9 : Memref sig .tc .vmem S1000x128 .f32) (harg9 : arg9.IsWhole) (hc0 : ¬cond1_0 i) (hc1 : cond1_1 i)
    (x0 : Vec F S1000x5120 .bf16) (x1 : Vec F S10240x128 .bf16) (x2 : Vec F S10000x1 .f32) (x3 x4 x5 : Vec F S1x128 .f32) (xs0 : Vec F S1000x128 .f32) (y : S1000x128.Idx) :
    ∃ pc ∈ (kernelRun1_B c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).1 S1000x128.size (by sl_kernel_rfl) y

theorem scover1_B (c : Dev nD) (i : grid1.Coords) (arg2 : Memref sig .tc .vmem S1000x5120 .bf16) (harg2 : arg2.IsWhole) (arg3 : Memref sig .tc .vmem S10240x128 .bf16) (harg3 : arg3.IsWhole) (arg4 : Memref sig .tc .vmem S10000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1000x128 .f32) (harg8 : arg8.IsWhole) (arg9 : Memref sig .tc .vmem S1000x128 .f32) (harg9 : arg9.IsWhole) (hc0 : ¬cond1_0 i) (hc1 : cond1_1 i)
    (x0 : Vec F S1000x5120 .bf16) (x1 : Vec F S10240x128 .bf16) (x2 : Vec F S10000x1 .f32) (x3 x4 x5 : Vec F S1x128 .f32) (xs0 : Vec F S1000x128 .f32) (y : S1000x128.Idx) :
    ∃ pc ∈ (kernelRun1_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).2.1 S1000x128.size (by sl_kernel_rfl) y

/-- The output block after a point of case B. -/
def out1_B (c : Dev nD) (i : grid1.Coords) (arg2 : Memref sig .tc .vmem S1000x5120 .bf16) (harg2 : arg2.IsWhole) (arg3 : Memref sig .tc .vmem S10240x128 .bf16) (harg3 : arg3.IsWhole) (arg4 : Memref sig .tc .vmem S10000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1000x128 .f32) (harg8 : arg8.IsWhole) (arg9 : Memref sig .tc .vmem S1000x128 .f32) (harg9 : arg9.IsWhole) (hc0 : ¬cond1_0 i) (hc1 : cond1_1 i)
    (x0 : Vec F S1000x5120 .bf16) (x1 : Vec F S10240x128 .bf16) (x2 : Vec F S10000x1 .f32) (x3 x4 x5 : Vec F S1x128 .f32) (xs0 : Vec F S1000x128 .f32) : Vec F S1000x128 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 x5 xs0).1)

section AtV

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What the accumulator and the output hold, point by point -/

/-- The accumulator after the even point n: case A at that point's memrefs and blocks. -/
def scAt (c : Dev nD) (n : ℕ) (hn : n < cfg1.N) (h0 : n % 2 = 0) : Vec F S1000x128 .f32 :=
  sout1_A c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) scM1 (Memref.isWhole_whole _) ((hcond1_0 ⟨n, hn⟩).mpr h0)
    (fun h => by have := (hcond1_1 ⟨n, hn⟩).mp h; (try dsimp only at this); omega) (iblk1 V c 0 ⟨n, hn⟩) (iblk1 V c 1 ⟨n, hn⟩) (iblk1 V c 2 ⟨n, hn⟩) (iblk1 V c 3 ⟨n, hn⟩) (iblk1 V c 4 ⟨n, hn⟩) (iblk1 V c 5 ⟨n, hn⟩)

/-- The output block after point t: at an odd point case B over the accumulator the even point before left; at an even
    point nothing is stored (a placeholder nothing consults: the window is idle there and not written back). -/
def outAt (c : Dev nD) (t : Fin cfg1.N) : Vec F S1000x128 .f32 :=
  if h1 : t.val % 2 = 1 then
    out1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => by have := (hcond1_0 t).mp h; omega) ((hcond1_1 t).mpr h1)
      (iblk1 V c 0 t) (iblk1 V c 1 t) (iblk1 V c 2 t) (iblk1 V c 3 t) (iblk1 V c 4 t) (iblk1 V c 5 t) (scAt V c (t.val - 1) (Nat.lt_of_le_of_lt (Nat.sub_le _ _) t.isLt) (by omega))
  else VO1_6.read (Elt F) (VO1_6.writes (Elt F) VO1_6.junk [])

/-- The region's invariant before position n. -/
def PhiS (c : Dev nD) : (n : ℕ) → n ≤ cfg1.N → sProp 𝕄
  | 0, _ => Pipeline.ΦA spec1 c
  | n + 1, hn => iprop(rest7 c (if h0 : n % 2 = 0 then owns (c : Thread nD τ) scM1 fullShare (scAt V c n hn h0)
      else iprop(∃ d, owns (c : Thread nD τ) scM1 fullShare d)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest7 c (if h0 : n % 2 = 0 then owns (c : Thread nD τ) scM1 fullShare (scAt V c n hn h0)
      else iprop(∃ d, owns (c : Thread nD τ) scM1 fullShare d)) ∗ (∃ r, prngReg c r)) := rfl

theorem PhiS_pos (c : Dev nD) (n : ℕ) (h : n ≤ cfg1.N) (hz : n ≠ 0) :
    PhiS V c n h = iprop(rest7 c (if h0 : (n - 1) % 2 = 0 then owns (c : Thread nD τ) scM1 fullShare (scAt V c (n - 1) (by omega) h0)
      else iprop(∃ d, owns (c : Thread nD τ) scM1 fullShare d)) ∗ (∃ r, prngReg c r)) := by
  cases n with
  | zero => exact absurd rfl hz
  | succ n => rfl

/-- Whatever the accumulator is said to hold, it holds something. -/
theorem PhiS_weaken (c : Dev nD) (n : ℕ) (h : n ≤ cfg1.N) : PhiS V c n h ⊢ Pipeline.ΦA spec1 c := by
  cases n with
  | zero => exact .rfl
  | succ n =>
    rw [PhiS_succ, PhiA1_eq]
    refine sep_mono (rest7_mono c ?_) .rfl
    split
    · iintro H; iexists _; iexact H
    · exact .rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' memrefs hold their blocks; the point's parity says which case it is in; the
    invariant hands the body the accumulator (at anything before an even point, at the even point's contents before an odd
    one) and takes it back (at this point's contents after an even point, at something after an odd one). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  have hN : t.val < 20 := lt_of_lt_of_eq t.isLt (show cfg1.N = 20 from N_1)
  rw [PhiS_castSucc V c t]
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dat1 V c) 6 t (idleAt1_6_A t hc0 hc1) (noFlush1_6_A t hc0 hc1)]
    rw [dif_pos h0]
    have hpre : PhiS V c t.val (Nat.le_of_lt t.isLt) ⊢ Pipeline.ΦA spec1 c := PhiS_weaken V c _ _
    rw [PhiA1_eq] at hpre
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := hpre $$ HΦ
    icases HΦ' with ⟨HR, Hg⟩
    unfold rest7
    icases HR with ⟨B1, B2, B3, B4, B5, B6, B7, HS0⟩
    iapply ((kernelRun1_A c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t)).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, ⟨%es0, HS0⟩⟩
    isplitl [B1 B2 B3 B4 B5 B6 B7 HS0 Hg]
    · isplitl [B1 B2 B3 B4 B5 B6 B7 HS0]
      · isplitl [B1]; · iexact B1
        isplitl [B2]; · iexact B2
        isplitl [B3]; · iexact B3
        isplitl [B4]; · iexact B4
        isplitl [B5]; · iexact B5
        isplitl [B6]; · iexact B6
        isplitl [B7]; · iexact B7
        unfold scAt sout1_A owns; iexists _; isplitr
        swap; · iexact HS0
        ipureintro; exact View.read_writes_of_cover _ _ _ _ _ (scover1_A c _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have h1 : t.val % 2 = 1 := by omega
    have hc0 : ¬cond1_0 (grid1.coords t) := fun h => h0 ((hcond1_0 t).mp h)
    have hc1 : cond1_1 (grid1.coords t) := (hcond1_1 t).mpr h1
    have hz : t.val ≠ 0 := by omega
    rw [show (dat1 V c).leavesExact 6 t = owns (c : Thread nD τ) (ms1_6 t) fullShare ((dat1 V c).after 6 t) from by
      unfold Dat.leavesExact; rw [liveAt1_6_B t hc0 hc1], after1_6]
    rw [dif_neg h0, PhiS_pos V c _ _ hz, dif_pos (show (t.val - 1) % 2 = 0 by omega)]
    unfold outAt; rw [dif_pos h1]; unfold out1_B
    unfold rest7
    iintro ⟨⟨⟨B1, B2, B3, B4, B5, B6, B7, HS0⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_B c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, ⟨%es0, HS0⟩⟩
    isplitl [B1 B2 B3 B4 B5 B6 B7 HS0 Hg]
    · isplitl [B1 B2 B3 B4 B5 B6 B7 HS0]
      · isplitl [B1]; · iexact B1
        isplitl [B2]; · iexact B2
        isplitl [B3]; · iexact B3
        isplitl [B4]; · iexact B4
        isplitl [B5]; · iexact B5
        isplitl [B6]; · iexact B6
        isplitl [B7]; · iexact B7
        unfold owns; iexists _; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover1_B c _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point; after the last point the invariant gives it back. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl]
  exact PhiS_weaken V c _ _

end AtV

end Cert.Kernel.R1

end
-- ==== Proof.RunK.lean ====
/-
  The two regions put together along @main.

  Between two items of @main core c holds every unscoped buffer at a known valuation: the launch contents, then each host
  stretch applied, then — after a region — the region's output array at what its write-backs leave and everything else
  as before. The first region leaves in its output array what its proof data compute from the contents at its entry; the
  second region is entered from the contents that follow from that, and leaves its own output array likewise. With each
  region's record (layout, body obligation, and the four entailments around the thread states "every unscoped buffer at
  the valuation, the generator register at some state, nothing owed") the launch theorem for a list of segments gives
  the run: every weakly fair execution terminates, the result buffer holds what the second region's proof data compute,
  and the arguments are as launched.
-/
import proofs.«422284_j11982958756494_3_alg».proof.Proof.Gen.Kernel.Regions
import proofs.«422284_j11982958756494_3_alg».proof.Proof.R0K
import proofs.«422284_j11982958756494_3_alg».proof.Proof.R1K

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the regions find and leave -/

/-- The first region's entry contents, read at the TensorCore's references. -/
abbrev VR3 : (c : Dev nD) → (b : Ref sig .tc) → Buf (Elt F) ((c : Thread nD τ).loc b) := fun c b => V3 m c b

/-- What the first region leaves in its output array. -/
def O33 (c : Dev nD) : Buf (Elt F) ((c : Thread nD τ).loc main_v33) := (R0.dat0 (VR3 m) c).arrAt 3 cfg0.N

/-- The unknowns of the valuations, as far as the second region's entry needs them: the first region's output. -/
def outsA : Outs (F := F) := fun _ r c => Function.update (V0 m c) main_v33 (O33 m c) r

/-- The second region's entry contents, read at the TensorCore's references. -/
abbrev VR7 : (c : Dev nD) → (b : Ref sig .tc) → Buf (Elt F) ((c : Thread nD τ).loc b) := fun c b => V7 m (outsA m) c b

/-- What the second region leaves in its output array: the program's result. -/
def O38 (c : Dev nD) : Buf (Elt F) ((c : Thread nD τ).loc main_v38) := (R1.dat1 (VR7 m) c).arrAt 6 cfg1.N

/-- Both regions' outputs, each read where its region's exit reads it. -/
def outs : Outs (F := F) := fun J r c =>
  match J with
  | 4 => Function.update (V0 m c) main_v33 (O33 m c) r
  | _ => Function.update (V0 m c) main_v38 (O38 m c) r

theorem outs_33 (c : Dev nD) : outs m 4 main_v33 c = O33 m c := by
  show Function.update (V0 m c) main_v33 (O33 m c) main_v33 = _
  exact Function.update_self _ _ _
theorem outsA_33 (c : Dev nD) : outsA m 4 main_v33 c = O33 m c := by
  show Function.update (V0 m c) main_v33 (O33 m c) main_v33 = _
  exact Function.update_self _ _ _
theorem outs_38 (c : Dev nD) : outs m 8 main_v38 c = O38 m c := by
  show Function.update (V0 m c) main_v38 (O38 m c) main_v38 = _
  exact Function.update_self _ _ _

/-- The second region's entry contents do not depend on what is said of the second region's output. -/
theorem V7_outs (c : Dev nD) : V7 m (outs m) c = V7 m (outsA m) c := by
  show StableHlo.after hostOps1_2 (StableHlo.after hostOps1_1 (StableHlo.after hostOps1 (Function.update (V3 m c) main_v33 (outs m 4 main_v33 c))))
    = StableHlo.after hostOps1_2 (StableHlo.after hostOps1_1 (StableHlo.after hostOps1 (Function.update (V3 m c) main_v33 (outsA m 4 main_v33 c))))
  rw [outs_33, outsA_33]

/-- The exit contents, read at the TensorCore's references. -/
abbrev VR4 : (c : Dev nD) → (b : Ref sig .tc) → Buf (Elt F) ((c : Thread nD τ).loc b) := fun c b => V4 m (outs m) c b
abbrev VR8 : (c : Dev nD) → (b : Ref sig .tc) → Buf (Elt F) ((c : Thread nD τ).loc b) := fun c b => V8 m (outs m) c b

/-! ## The proof data family -/

/-- Each pipeline's proof data at its region's entry contents: a literal match. -/
def pdats : (p : Fin 2) → (c : Dev nD) → Dat τ (Elt F) Unit ℕ (UR sig nD τ) ℕ (Pipeline.pin (pcfgs (F := F)) adm p) c
  | ⟨0, _⟩ => fun c => R0.dat0 (VR3 m) c
  | ⟨1, _⟩ => fun c => R1.dat1 (VR7 m) c

/-- No core owes another anything: no level is assigned. -/
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)

/-! ## At each region's exit: its arrays at what it leaves, everything else as entered -/

theorem hF0 (c : Dev nD) : ∀ w : Fin cfg0.W, (R0.dat0 (VR3 m) c).arrAt w cfg0.N = VR4 m c (Pipeline.arrRef spec0 w)
  | ⟨0, _⟩ => ((R0.dat0 (VR3 m) c).arrAt_in 0 rfl _).trans ((R0.A_eq0 (VR3 m) c 0).trans (V4_of m (outs m) c main_arg0 (by decide)).symm)
  | ⟨1, _⟩ => ((R0.dat0 (VR3 m) c).arrAt_in 1 rfl _).trans ((R0.A_eq0 (VR3 m) c 1).trans (V4_of m (outs m) c main_arg2 (by decide)).symm)
  | ⟨2, _⟩ => ((R0.dat0 (VR3 m) c).arrAt_in 2 rfl _).trans ((R0.A_eq0 (VR3 m) c 2).trans (V4_of m (outs m) c main_v15 (by decide)).symm)
  | ⟨3, _⟩ => by
    show O33 m c = Function.update (V3 m c) main_v33 (outs m 4 main_v33 c) main_v33
    rw [Function.update_self, outs_33]

theorem hrest0 (c : Dev nD) : ∀ b, b ∉ Finset.univ.image (Pipeline.arrRef spec0) → VR4 m c b = VR3 m c b :=
  fun b hb => V4_of m (outs m) c b (by
    intro h; rw [List.mem_singleton] at h; subst h
    exact hb (Finset.mem_image.mpr ⟨3, Finset.mem_univ _, rfl⟩))

/-- At the second region's exit a buffer other than its output holds what it held at entry. -/
theorem V8_in (c : Dev nD) (b : Ref sig .tc) (hb : b ∉ ([main_v38] : List (Ref sig .tc))) : VR8 m c b = VR7 m c b :=
  (V8_of m (outs m) c b hb).trans (congrFun (V7_outs m c) (Proc.devRef .tc b))

set_option maxHeartbeats 1000000 in
theorem hF1 (c : Dev nD) : ∀ w : Fin cfg1.W, (R1.dat1 (VR7 m) c).arrAt w cfg1.N = VR8 m c (Pipeline.arrRef spec1 w)
  | ⟨0, _⟩ => ((R1.dat1 (VR7 m) c).arrAt_in 0 rfl _).trans ((R1.A_eq1 (VR7 m) c 0).trans (V8_in m c main_v32 (by decide)).symm)
  | ⟨1, _⟩ => ((R1.dat1 (VR7 m) c).arrAt_in 1 rfl _).trans ((R1.A_eq1 (VR7 m) c 1).trans (V8_in m c main_v34 (by decide)).symm)
  | ⟨2, _⟩ => ((R1.dat1 (VR7 m) c).arrAt_in 2 rfl _).trans ((R1.A_eq1 (VR7 m) c 2).trans (V8_in m c main_v15 (by decide)).symm)
  | ⟨3, _⟩ => ((R1.dat1 (VR7 m) c).arrAt_in 3 rfl _).trans ((R1.A_eq1 (VR7 m) c 3).trans (V8_in m c main_v35 (by decide)).symm)
  | ⟨4, _⟩ => ((R1.dat1 (VR7 m) c).arrAt_in 4 rfl _).trans ((R1.A_eq1 (VR7 m) c 4).trans (V8_in m c main_v36 (by decide)).symm)
  | ⟨5, _⟩ => ((R1.dat1 (VR7 m) c).arrAt_in 5 rfl _).trans ((R1.A_eq1 (VR7 m) c 5).trans (V8_in m c main_v37 (by decide)).symm)
  | ⟨6, _⟩ => by
    show O38 m c = Function.update (V7 m (outs m) c) main_v38 (outs m 8 main_v38 c) main_v38
    rw [Function.update_self, outs_38]

theorem hrest1 (c : Dev nD) : ∀ b, b ∉ Finset.univ.image (Pipeline.arrRef spec1) → VR8 m c b = VR7 m c b :=
  fun b hb => V8_in m c b (by
    intro h; rw [List.mem_singleton] at h; subst h
    exact hb (Finset.mem_image.mpr ⟨6, Finset.mem_univ _, rfl⟩))

/-! ## The regions as segments -/

set_option backward.isDefEq.respectTransparency.types false in
/-- THE FIRST REGION over the thread state: entered from every unscoped buffer at the contents after the third host
    stretch, left at those with its output array replaced. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (R0.body_obligation0 (VR3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VR3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR3 m c) (VR4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at the contents after the sixth host
    stretch, left at those with its output array replaced. Its invariant takes the scoped buffers no window stages and
    the generator register in, and gives them back with the accumulator's contents forgotten. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (R1.body_obligation1 (VR7 m) c).loose
  hwaits := Pipeline.hwaits_of_owed_zero _ _ _ _ L lv 1 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VR7 m c)
  hentry c := by
    rw [Pipeline.ownSems0_none, V7_outs m c]
    have hsplit := Pipeline.arrays_of_unscopedBufs (p := 1) (pcfgs (F := F)) adm (pdats m) launch1.win launch1.arr_whole c
      ((pdats m 1 c).share_full fun _ => rfl) (VR7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := R1.hin1 (VR7 m) c
    rw [show (pdats m 1 c).Φ 0 = (R1.dat1 (VR7 m) c).Φ 0 from rfl]
    refine .trans ?_ h
    unfold Pipeline.ΦA
    iintro ⟨Hp, -, Hr⟩
    isplitl [Hr]; · iexact Hr
    iexact Hp
  hout c := by
    have h := R1.hout1 (VR7 m) c
    rw [Pipeline.ownSems0_none, show (pdats m 1 c).Φ (Fin.last _) = (R1.dat1 (VR7 m) c).Φ (Fin.last cfg1.N) from rfl]
    refine h.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR7 m c) (VR8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The last thread state, split as the launch theorem wants it: the buffers and the register beside the empty owes. -/
theorem post_split (c : Dev nD) :
    iprop(StableHlo.held (c : Thread nD τ) (Pipeline.ucRefs τ sig) (V8 m (outs m) c) ∗ R c)
      ⊢ (iprop(iprop(StableHlo.held (c : Thread nD τ) (Pipeline.ucRefs τ sig) (V8 m (outs m) c) ∗ ∃ r, prngReg c r)
          ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

variable (ρ : Dev nD → PrngReg)

set_option backward.isDefEq.respectTransparency.types false in
/-- From any memory with zero counters every weakly fair execution of @main terminates; the result buffer ends at what
    the second region's proof data compute, and every argument as launched. -/
theorem run_main : θ_run defs (onTc (τ := τ) (main (F := F))) ⟨m, fun _ => 0, ρ⟩ (fun r => ∀ c : Dev nD,
      r.2.mem ((c.tc : Thread nD τ).loc main_v38) = O38 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm (pdats m) () cellOf_inj emb₁ defs₀ Variants.none L lv m ρ main
    (segs m (outs m) Variants.none L lv (fun _ => R) () (pdats m) (reg0 m) (reg1 m))
    (fun c Q => by
      rewrite [main_chain c, Seg.run_eq_chain,
        show (segs m (outs m) Variants.none L lv (fun _ => R) () (pdats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [segs, Seg.pipes_host, Seg.pipes_region, Seg.pipes_nil]; decide) (O₀ := 0) (fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V8 m (outs m) c) ∗ ∃ r, prngReg c r))
    (hch := fun c => ⟨.rfl, .rfl, .rfl, .rfl, .rfl, .rfl, .rfl, .rfl, post_split m c⟩)
    (hinit := ?_)
    (QY := fun c s => s.mem ((c.tc : Thread nD τ).loc main_v38) = O38 m c
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are held at the launch contents; the generator register and the empty owes ride along
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result and each argument read off the last valuation
    unfold StableHlo.held
    iintro ⟨⟨Hh, -⟩, HSI⟩
    ihave Hr := (pointsTo_read_all (Pipeline.ucRefs τ sig) (fun b => ((c : Thread nD τ).1, b)) (V8 m (outs m) c) s') $$ [Hh HSI]
    · isplitl [Hh] <;> iassumption
    icases Hr with ⟨%h, HSI⟩
    imodintro
    isplitr
    · ipureintro
      exact ⟨(h (Proc.devRef .tc main_v38) (Finset.mem_filter.mpr ⟨StableHlo.devRef_mem_tcRefs main_v38, by decide⟩)).trans
          ((show V8 m (outs m) c main_v38 = outs m 8 main_v38 c from Function.update_self _ _ _).trans (outs_38 m c)),
        (h (Proc.devRef .tc main_arg0) (Finset.mem_filter.mpr ⟨StableHlo.devRef_mem_tcRefs main_arg0, by decide⟩)).trans (V8_main_arg0 m (outs m) c),
        (h (Proc.devRef .tc main_arg1) (Finset.mem_filter.mpr ⟨StableHlo.devRef_mem_tcRefs main_arg1, by decide⟩)).trans (V8_main_arg1 m (outs m) c),
        (h (Proc.devRef .tc main_arg2) (Finset.mem_filter.mpr ⟨StableHlo.devRef_mem_tcRefs main_arg2, by decide⟩)).trans (V8_main_arg2 m (outs m) c),
        (h (Proc.devRef .tc main_arg3) (Finset.mem_filter.mpr ⟨StableHlo.devRef_mem_tcRefs main_arg3, by decide⟩)).trans (V8_main_arg3 m (outs m) c),
        (h (Proc.devRef .tc main_arg4) (Finset.mem_filter.mpr ⟨StableHlo.devRef_mem_tcRefs main_arg4, by decide⟩)).trans (V8_main_arg4 m (outs m) c),
        (h (Proc.devRef .tc main_arg5) (Finset.mem_filter.mpr ⟨StableHlo.devRef_mem_tcRefs main_arg5, by decide⟩)).trans (V8_main_arg5 m (outs m) c)⟩
    · iexact HSI

end Cert.Kernel.Run

end
-- ==== Proof.R0.lean ====
/-
  The first kernel region: h_scaled = (x · W) scaled row by row, one block of 1000 rows per grid point.

  Stated at a parameter V, the contents of the core's buffers when the region is entered. At point t the body loads the
  three input blocks whole — rows [1000t, 1000t + 1000) of the feature array, the whole weight array, the same rows of the
  column of inverse square roots —, loads the output buffer (whose contents it does not use) and stores the product,
  scaled, over the whole output block. So after the body the output's staging buffer holds that one payload read
  through the whole-block rectangle, and each input's buffer its block as found; the region's invariant is the class's
  (the scoped buffers no window stages and the generator register, untouched), and the core owes nothing.
-/
import proofs.«422284_j11982958756494_3_alg».proof.Proof.Gen.KernelIdeal.Launch
import proofs.«422284_j11982958756494_3_alg».proof.Proof.Gen.KernelIdeal.Skeleton
import proofs.«422284_j11982958756494_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole block -/

abbrev rx : Rect S1000x128 := Rect.unit (s := S1000x128) ![0, 0] S1000x128.size inb_S1000x128_S1000x128_0_0
abbrev rw : Rect S128x128 := Rect.unit (s := S128x128) ![0, 0] S128x128.size inb_S128x128_S128x128_0_0
abbrev rd : Rect S1000x1 := Rect.unit (s := S1000x1) ![0, 0] S1000x1.size inb_S1000x1_S1000x1_0_0

/-- The output block after the body, from the three input blocks: its one store, read back. -/
def out0_3 (x0 : Vec F S1000x128 .f32) (x1 : Vec F S128x128 .f32) (x2 : Vec F S1000x1 .f32) : Vec F S1000x128 .bf16 :=
  View.canon [⟨rx, k0_pay1 (View.ld x0 rx) (View.ld x1 rw) (View.ld x2 rd)⟩]

/-- The store covers the block. -/
theorem cover0_3 (p0 : Vec F S1000x128 .bf16) (y : S1000x128.Idx) :
    ∃ pc ∈ ([⟨rx, p0⟩] : List (View.Piece (Elt F) S1000x128 .bf16)), y ∈ pc.1.set :=
  View.cover_of_tiled [⟨rx, p0⟩] S1000x128.size (by rfl) y

/-! ## The body's triple -/

set_option maxHeartbeats 1000000 in
/-- The body on whole staging memrefs, the inputs' at read contents and the output's at anything, runs to the
    continuation holding the inputs' as they were and the output's at out0_3 of the inputs'. -/
theorem sound_kernel0 (c : Dev nD) (E : Set ℕ) (i : grid0.Coords)
    (arg1 : Memref sig .tc .vmem S1000x128 .f32) (harg1 : arg1.IsWhole) (arg2 : Memref sig .tc .vmem S128x128 .f32) (harg2 : arg2.IsWhole)
    (arg3 : Memref sig .tc .vmem S1000x1 .f32) (harg3 : arg3.IsWhole) (arg4 : Memref sig .tc .vmem S1000x128 .bf16) (harg4 : arg4.IsWhole)
    (x0 : Vec F S1000x128 .f32) (x1 : Vec F S128x128 .f32) (x2 : Vec F S1000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_scale_kernel i arg1 harg1 arg2 harg2 arg3 harg3 arg4 harg4) K := by
  simp only [cc0__linear_scale_kernel_eq_skeleton]; unfold cc0__linear_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The proof data of the first pipeline on core c: the arrays as the region finds them; after the body at point t each
    input's buffer at its block and the output's at out0_3 of the input blocks; the class's invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the core's
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.R1.lean ====
/-
  The second kernel region: the aggregation A · h, two blocks of 5120 columns per block of 1000 rows, then the layer
  normalisation of the finished rows.

  The grid has 20 points, (i, k) with k the fast axis. At an even point (k = 0) the body clears its accumulator — a
  scratch buffer the kernel keeps between points — and adds the first half-product into it; the output block is not
  touched there and not written back. At an odd point (k = 1) it adds the second half-product, and stores the normalised
  rows over the whole output block, which is then written back. So the accumulator after an even point depends on that
  point's blocks alone, and the output block after an odd point on that point's blocks and the accumulator the point
  before left. The region's invariant says exactly that much: before the first point and after an odd one the scratch
  holds anything; after an even point it holds that point's accumulator. Stated at a parameter V, the contents of the
  core's buffers when the region is entered.
-/
import proofs.«422284_j11982958756494_3_alg».proof.Proof.Gen.KernelIdeal.Launch
import proofs.«422284_j11982958756494_3_alg».proof.Proof.Gen.KernelIdeal.Skeleton
import proofs.«422284_j11982958756494_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- "k = 0": the accumulator is cleared. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
/-- "k = 1": the rows are finished, normalised and stored. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-- At an even point the output window is idle and is not written back; at an odd point it is live. -/
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
theorem liveAt1_6_B : ∀ t : Fin cfg1.N, ¬cond1_0 (grid1.coords t) → cond1_1 (grid1.coords t) → cfg1.idle 6 (grid1.coords t) = false := by decide +kernel
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel

/-! ## The memrefs the body is called with -/

abbrev ms1_0 (t : Fin cfg1.N) : Memref sig .tc .vmem S1000x5120 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10240x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S10000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1000x128 .f32 := win1_6.stage (cfg1.slots t 6)
abbrev hs1_6 (t : Fin cfg1.N) : (ms1_6 t).IsWhole := hstage1_6 ((cfg1.slots t 6).cast nbuf1_6)
/-- The accumulator: a whole scoped buffer of the kernel's own. -/
abbrev scM1 : Memref sig .tc .vmem S1000x128 .f32 := Memref.whole cc1_scratch0
abbrev VS1 : View sig .tc .vmem S1000x128 .f32 := scM1.view
/-- One staging buffer of the output window, through which its contents are stated. -/
abbrev VO1_6 : View sig .tc .vmem S1000x128 .f32 := (Memref.whole cc1_stg6_0 : Memref sig .tc .vmem S1000x128 .f32).view

/-! ## The scoped buffers no window of this region stages -/

/-- The first region's seven staging buffers, each at some contents, beside a statement S about the accumulator. -/
def rest7 (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ S)

/-- The class's invariant, with the accumulator as a memref owned at some contents. -/
theorem PhiA1_eq (c : Dev nD) :
    (Pipeline.ΦA spec1 c : sProp 𝕄) = iprop(rest7 c (iprop(∃ d, owns (c : Thread nD τ) scM1 fullShare d)) ∗ (∃ r, prngReg c r)) := by
  unfold Pipeline.ΦA rest7; rw [scopedRest1_eq]; simp only [scM1, owns_whole]; try rfl

/-- A statement about the accumulator may be weakened under the seven. -/
theorem rest7_mono (c : Dev nD) {S S' : sProp 𝕄} (h : S ⊢ S') : rest7 c S ⊢ rest7 c S' := by
  unfold rest7
  iintro ⟨B1, B2, B3, B4, B5, B6, B7, HS⟩
  isplitl [B1]; · iexact B1
  isplitl [B2]; · iexact B2
  isplitl [B3]; · iexact B3
  isplitl [B4]; · iexact B4
  isplitl [B5]; · iexact B5
  isplitl [B6]; · iexact B6
  isplitl [B7]; · iexact B7
  iapply h; iexact HS

/-! ## The body on any staging memrefs, case by case: the pieces each buffer ends with are found by the run -/

set_option maxHeartbeats 4000000 in
/-- CASE A (k = 0). On whole memrefs — the six inputs' at their contents, the output's at contents handed back untouched,
    the accumulator's at anything — the body runs to the continuation holding the inputs' and the output's as they were
    and the accumulator's with its pieces written. -/
noncomputable def kernelRun1_A (c : Dev nD) (i : grid1.Coords) (arg2 : Memref sig .tc .vmem S1000x5120 .bf16) (harg2 : arg2.IsWhole) (arg3 : Memref sig .tc .vmem S10240x128 .bf16) (harg3 : arg3.IsWhole) (arg4 : Memref sig .tc .vmem S10000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1000x128 .f32) (harg8 : arg8.IsWhole) (arg9 : Memref sig .tc .vmem S1000x128 .f32) (harg9 : arg9.IsWhole) (hc0 : cond1_0 i) (hc1 : ¬cond1_1 i)
    (x0 : Vec F S1000x5120 .bf16) (x1 : Vec F S10240x128 .bf16) (x2 : Vec F S10000x1 .f32) (x3 x4 x5 : Vec F S1x128 .f32) :
    { LS0 : List (View.Piece (Elt F) S1000x128 .f32) //
      ∀ (xi6 : Vec F S1000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
                ∗ (∃ f, arg9.view.loc (c : Thread nD τ) ↦[arg9.view.set]{fullShare} arg9.view.writes (Elt F) f LS0)) -∗ K ⟨⟩))
          ⊢ wp frame (wpE (defs₀ (F := F)) Variants.none c none) E (cc1__aggregate_kernel i arg2 harg2 arg3 harg3 arg4 harg4 arg5 harg5 arg6 harg6 arg7 harg7 arg8 harg8 arg9 harg9) K } := by
  refine ⟨?_, fun xi6 E K => ?run⟩
  case run =>
    simp only [cc1__aggregate_kernel_eq_skeleton]; unfold cc1__aggregate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 4000000 in
/-- CASE B (k = 1). The inputs' memrefs at their contents, the output's at anything, the accumulator's at what the point
    before left (xs0): the body runs to the continuation holding the inputs' as they were, and the output's and the
    accumulator's each with its pieces written. -/
noncomputable def kernelRun1_B (c : Dev nD) (i : grid1.Coords) (arg2 : Memref sig .tc .vmem S1000x5120 .bf16) (harg2 : arg2.IsWhole) (arg3 : Memref sig .tc .vmem S10240x128 .bf16) (harg3 : arg3.IsWhole) (arg4 : Memref sig .tc .vmem S10000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1000x128 .f32) (harg8 : arg8.IsWhole) (arg9 : Memref sig .tc .vmem S1000x128 .f32) (harg9 : arg9.IsWhole) (hc0 : ¬cond1_0 i) (hc1 : cond1_1 i)
    (x0 : Vec F S1000x5120 .bf16) (x1 : Vec F S10240x128 .bf16) (x2 : Vec F S10000x1 .f32) (x3 x4 x5 : Vec F S1x128 .f32) (xs0 : Vec F S1000x128 .f32) :
    Σ' (L6 : List (View.Piece (Elt F) S1000x128 .f32)), { LS0 : List (View.Piece (Elt F) S1000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)) -∗ K ⟨⟩))
          ⊢ wp frame (wpE (defs₀ (F := F)) Variants.none c none) E (cc1__aggregate_kernel i arg2 harg2 arg3 harg3 arg4 harg4 arg5 harg5 arg6 harg6 arg7 harg7 arg8 harg8 arg9 harg9) K } := by
  refine ⟨?_, ?_, fun E K => ?run⟩
  case run =>
    simp only [cc1__aggregate_kernel_eq_skeleton]; unfold cc1__aggregate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

/-! ## The pieces cover their buffers; what each case leaves -/

theorem scover1_A (c : Dev nD) (i : grid1.Coords) (arg2 : Memref sig .tc .vmem S1000x5120 .bf16) (harg2 : arg2.IsWhole) (arg3 : Memref sig .tc .vmem S10240x128 .bf16) (harg3 : arg3.IsWhole) (arg4 : Memref sig .tc .vmem S10000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1000x128 .f32) (harg8 : arg8.IsWhole) (arg9 : Memref sig .tc .vmem S1000x128 .f32) (harg9 : arg9.IsWhole) (hc0 : cond1_0 i) (hc1 : ¬cond1_1 i)
    (x0 : Vec F S1000x5120 .bf16) (x1 : Vec F S10240x128 .bf16) (x2 : Vec F S10000x1 .f32) (x3 x4 x5 : Vec F S1x128 .f32) (y : S1000x128.Idx) :
    ∃ pc ∈ (kernelRun1_A c i arg2 harg2 arg3 harg3 arg4 harg4 arg5 harg5 arg6 harg6 arg7 harg7 arg8 harg8 arg9 harg9 hc0 hc1 x0 x1 x2 x3 x4 x5).1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).1 S1000x128.size (by sl_kernel_rfl) y

/-- The accumulator after a point of case A. -/
def sout1_A (c : Dev nD) (i : grid1.Coords) (arg2 : Memref sig .tc .vmem S1000x5120 .bf16) (harg2 : arg2.IsWhole) (arg3 : Memref sig .tc .vmem S10240x128 .bf16) (harg3 : arg3.IsWhole) (arg4 : Memref sig .tc .vmem S10000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1000x128 .f32) (harg8 : arg8.IsWhole) (arg9 : Memref sig .tc .vmem S1000x128 .f32) (harg9 : arg9.IsWhole) (hc0 : cond1_0 i) (hc1 : ¬cond1_1 i)
    (x0 : Vec F S1000x5120 .bf16) (x1 : Vec F S10240x128 .bf16) (x2 : Vec F S10000x1 .f32) (x3 x4 x5 : Vec F S1x128 .f32) : Vec F S1000x128 .f32 :=
  VS1.read (Elt F) (VS1.writes (Elt F) VS1.junk (kernelRun1_A c i arg2 harg2 arg3 harg3 arg4 harg4 arg5 harg5 arg6 harg6 arg7 harg7 arg8 harg8 arg9 harg9 hc0 hc1 x0 x1 x2 x3 x4 x5).1)

theorem cover1_B (c : Dev nD) (i : grid1.Coords) (arg2 : Memref sig .tc .vmem S1000x5120 .bf16) (harg2 : arg2.IsWhole) (arg3 : Memref sig .tc .vmem S10240x128 .bf16) (harg3 : arg3.IsWhole) (arg4 : Memref sig .tc .vmem S10000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1000x128 .f32) (harg8 : arg8.IsWhole) (arg9 : Memref sig .tc .vmem S1000x128 .f32) (harg9 : arg9.IsWhole) (hc0 : ¬cond1_0 i) (hc1 : cond1_1 i)
    (x0 : Vec F S1000x5120 .bf16) (x1 : Vec F S10240x128 .bf16) (x2 : Vec F S10000x1 .f32) (x3 x4 x5 : Vec F S1x128 .f32) (xs0 : Vec F S1000x128 .f32) (y : S1000x128.Idx) :
    ∃ pc ∈ (kernelRun1_B c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).1 S1000x128.size (by sl_kernel_rfl) y

theorem scover1_B (c : Dev nD) (i : grid1.Coords) (arg2 : Memref sig .tc .vmem S1000x5120 .bf16) (harg2 : arg2.IsWhole) (arg3 : Memref sig .tc .vmem S10240x128 .bf16) (harg3 : arg3.IsWhole) (arg4 : Memref sig .tc .vmem S10000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1000x128 .f32) (harg8 : arg8.IsWhole) (arg9 : Memref sig .tc .vmem S1000x128 .f32) (harg9 : arg9.IsWhole) (hc0 : ¬cond1_0 i) (hc1 : cond1_1 i)
    (x0 : Vec F S1000x5120 .bf16) (x1 : Vec F S10240x128 .bf16) (x2 : Vec F S10000x1 .f32) (x3 x4 x5 : Vec F S1x128 .f32) (xs0 : Vec F S1000x128 .f32) (y : S1000x128.Idx) :
    ∃ pc ∈ (kernelRun1_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).2.1 S1000x128.size (by sl_kernel_rfl) y

/-- The output block after a point of case B. -/
def out1_B (c : Dev nD) (i : grid1.Coords) (arg2 : Memref sig .tc .vmem S1000x5120 .bf16) (harg2 : arg2.IsWhole) (arg3 : Memref sig .tc .vmem S10240x128 .bf16) (harg3 : arg3.IsWhole) (arg4 : Memref sig .tc .vmem S10000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1000x128 .f32) (harg8 : arg8.IsWhole) (arg9 : Memref sig .tc .vmem S1000x128 .f32) (harg9 : arg9.IsWhole) (hc0 : ¬cond1_0 i) (hc1 : cond1_1 i)
    (x0 : Vec F S1000x5120 .bf16) (x1 : Vec F S10240x128 .bf16) (x2 : Vec F S10000x1 .f32) (x3 x4 x5 : Vec F S1x128 .f32) (xs0 : Vec F S1000x128 .f32) : Vec F S1000x128 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 x5 xs0).1)

section AtV

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What the accumulator and the output hold, point by point -/

/-- The accumulator after the even point n: case A at that point's memrefs and blocks. -/
def scAt (c : Dev nD) (n : ℕ) (hn : n < cfg1.N) (h0 : n % 2 = 0) : Vec F S1000x128 .f32 :=
  sout1_A c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) scM1 (Memref.isWhole_whole _) ((hcond1_0 ⟨n, hn⟩).mpr h0)
    (fun h => by have := (hcond1_1 ⟨n, hn⟩).mp h; (try dsimp only at this); omega) (iblk1 V c 0 ⟨n, hn⟩) (iblk1 V c 1 ⟨n, hn⟩) (iblk1 V c 2 ⟨n, hn⟩) (iblk1 V c 3 ⟨n, hn⟩) (iblk1 V c 4 ⟨n, hn⟩) (iblk1 V c 5 ⟨n, hn⟩)

/-- The output block after point t: at an odd point case B over the accumulator the even point before left; at an even
    point nothing is stored (a placeholder nothing consults: the window is idle there and not written back). -/
def outAt (c : Dev nD) (t : Fin cfg1.N) : Vec F S1000x128 .f32 :=
  if h1 : t.val % 2 = 1 then
    out1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => by have := (hcond1_0 t).mp h; omega) ((hcond1_1 t).mpr h1)
      (iblk1 V c 0 t) (iblk1 V c 1 t) (iblk1 V c 2 t) (iblk1 V c 3 t) (iblk1 V c 4 t) (iblk1 V c 5 t) (scAt V c (t.val - 1) (Nat.lt_of_le_of_lt (Nat.sub_le _ _) t.isLt) (by omega))
  else VO1_6.read (Elt F) (VO1_6.writes (Elt F) VO1_6.junk [])

/-- The region's invariant before position n. -/
def PhiS (c : Dev nD) : (n : ℕ) → n ≤ cfg1.N → sProp 𝕄
  | 0, _ => Pipeline.ΦA spec1 c
  | n + 1, hn => iprop(rest7 c (if h0 : n % 2 = 0 then owns (c : Thread nD τ) scM1 fullShare (scAt V c n hn h0)
      else iprop(∃ d, owns (c : Thread nD τ) scM1 fullShare d)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest7 c (if h0 : n % 2 = 0 then owns (c : Thread nD τ) scM1 fullShare (scAt V c n hn h0)
      else iprop(∃ d, owns (c : Thread nD τ) scM1 fullShare d)) ∗ (∃ r, prngReg c r)) := rfl

theorem PhiS_pos (c : Dev nD) (n : ℕ) (h : n ≤ cfg1.N) (hz : n ≠ 0) :
    PhiS V c n h = iprop(rest7 c (if h0 : (n - 1) % 2 = 0 then owns (c : Thread nD τ) scM1 fullShare (scAt V c (n - 1) (by omega) h0)
      else iprop(∃ d, owns (c : Thread nD τ) scM1 fullShare d)) ∗ (∃ r, prngReg c r)) := by
  cases n with
  | zero => exact absurd rfl hz
  | succ n => rfl

/-- Whatever the accumulator is said to hold, it holds something. -/
theorem PhiS_weaken (c : Dev nD) (n : ℕ) (h : n ≤ cfg1.N) : PhiS V c n h ⊢ Pipeline.ΦA spec1 c := by
  cases n with
  | zero => exact .rfl
  | succ n =>
    rw [PhiS_succ, PhiA1_eq]
    refine sep_mono (rest7_mono c ?_) .rfl
    split
    · iintro H; iexists _; iexact H
    · exact .rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' memrefs hold their blocks; the point's parity says which case it is in; the
    invariant hands the body the accumulator (at anything before an even point, at the even point's contents before an odd
    one) and takes it back (at this point's contents after an even point, at something after an odd one). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  have hN : t.val < 20 := lt_of_lt_of_eq t.isLt (show cfg1.N = 20 from N_1)
  rw [PhiS_castSucc V c t]
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dat1 V c) 6 t (idleAt1_6_A t hc0 hc1) (noFlush1_6_A t hc0 hc1)]
    rw [dif_pos h0]
    have hpre : PhiS V c t.val (Nat.le_of_lt t.isLt) ⊢ Pipeline.ΦA spec1 c := PhiS_weaken V c _ _
    rw [PhiA1_eq] at hpre
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := hpre $$ HΦ
    icases HΦ' with ⟨HR, Hg⟩
    unfold rest7
    icases HR with ⟨B1, B2, B3, B4, B5, B6, B7, HS0⟩
    iapply ((kernelRun1_A c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t)).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, ⟨%es0, HS0⟩⟩
    isplitl [B1 B2 B3 B4 B5 B6 B7 HS0 Hg]
    · isplitl [B1 B2 B3 B4 B5 B6 B7 HS0]
      · isplitl [B1]; · iexact B1
        isplitl [B2]; · iexact B2
        isplitl [B3]; · iexact B3
        isplitl [B4]; · iexact B4
        isplitl [B5]; · iexact B5
        isplitl [B6]; · iexact B6
        isplitl [B7]; · iexact B7
        unfold scAt sout1_A owns; iexists _; isplitr
        swap; · iexact HS0
        ipureintro; exact View.read_writes_of_cover _ _ _ _ _ (scover1_A c _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have h1 : t.val % 2 = 1 := by omega
    have hc0 : ¬cond1_0 (grid1.coords t) := fun h => h0 ((hcond1_0 t).mp h)
    have hc1 : cond1_1 (grid1.coords t) := (hcond1_1 t).mpr h1
    have hz : t.val ≠ 0 := by omega
    rw [show (dat1 V c).leavesExact 6 t = owns (c : Thread nD τ) (ms1_6 t) fullShare ((dat1 V c).after 6 t) from by
      unfold Dat.leavesExact; rw [liveAt1_6_B t hc0 hc1], after1_6]
    rw [dif_neg h0, PhiS_pos V c _ _ hz, dif_pos (show (t.val - 1) % 2 = 0 by omega)]
    unfold outAt; rw [dif_pos h1]; unfold out1_B
    unfold rest7
    iintro ⟨⟨⟨B1, B2, B3, B4, B5, B6, B7, HS0⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_B c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, ⟨%es0, HS0⟩⟩
    isplitl [B1 B2 B3 B4 B5 B6 B7 HS0 Hg]
    · isplitl [B1 B2 B3 B4 B5 B6 B7 HS0]
      · isplitl [B1]; · iexact B1
        isplitl [B2]; · iexact B2
        isplitl [B3]; · iexact B3
        isplitl [B4]; · iexact B4
        isplitl [B5]; · iexact B5
        isplitl [B6]; · iexact B6
        isplitl [B7]; · iexact B7
        unfold owns; iexists _; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover1_B c _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point; after the last point the invariant gives it back. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl]
  exact PhiS_weaken V c _ _

end AtV

end Cert.KernelIdeal.R1

end
-- ==== Proof.Run.lean ====
/-
  The two regions put together along @main.

  Between two items of @main core c holds every unscoped buffer at a known valuation: the launch contents, then each host
  stretch applied, then — after a region — the region's output array at what its write-backs leave and everything else
  as before. The first region leaves in its output array what its proof data compute from the contents at its entry; the
  second region is entered from the contents that follow from that, and leaves its own output array likewise. With each
  region's record (layout, body obligation, and the four entailments around the thread states "every unscoped buffer at
  the valuation, the generator register at some state, nothing owed") the launch theorem for a list of segments gives
  the run: every weakly fair execution terminates, the result buffer holds what the second region's proof data compute,
  and the arguments are as launched.
-/
import proofs.«422284_j11982958756494_3_alg».proof.Proof.Gen.KernelIdeal.Regions
import proofs.«422284_j11982958756494_3_alg».proof.Proof.R0
import proofs.«422284_j11982958756494_3_alg».proof.Proof.R1

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the regions find and leave -/

/-- The first region's entry contents, read at the TensorCore's references. -/
abbrev VR3 : (c : Dev nD) → (b : Ref sig .tc) → Buf (Elt F) ((c : Thread nD τ).loc b) := fun c b => V3 m c b

/-- What the first region leaves in its output array. -/
def O33 (c : Dev nD) : Buf (Elt F) ((c : Thread nD τ).loc main_v33) := (R0.dat0 (VR3 m) c).arrAt 3 cfg0.N

/-- The unknowns of the valuations, as far as the second region's entry needs them: the first region's output. -/
def outsA : Outs (F := F) := fun _ r c => Function.update (V0 m c) main_v33 (O33 m c) r

/-- The second region's entry contents, read at the TensorCore's references. -/
abbrev VR7 : (c : Dev nD) → (b : Ref sig .tc) → Buf (Elt F) ((c : Thread nD τ).loc b) := fun c b => V7 m (outsA m) c b

/-- What the second region leaves in its output array: the program's result. -/
def O38 (c : Dev nD) : Buf (Elt F) ((c : Thread nD τ).loc main_v38) := (R1.dat1 (VR7 m) c).arrAt 6 cfg1.N

/-- Both regions' outputs, each read where its region's exit reads it. -/
def outs : Outs (F := F) := fun J r c =>
  match J with
  | 4 => Function.update (V0 m c) main_v33 (O33 m c) r
  | _ => Function.update (V0 m c) main_v38 (O38 m c) r

theorem outs_33 (c : Dev nD) : outs m 4 main_v33 c = O33 m c := by
  show Function.update (V0 m c) main_v33 (O33 m c) main_v33 = _
  exact Function.update_self _ _ _
theorem outsA_33 (c : Dev nD) : outsA m 4 main_v33 c = O33 m c := by
  show Function.update (V0 m c) main_v33 (O33 m c) main_v33 = _
  exact Function.update_self _ _ _
theorem outs_38 (c : Dev nD) : outs m 8 main_v38 c = O38 m c := by
  show Function.update (V0 m c) main_v38 (O38 m c) main_v38 = _
  exact Function.update_self _ _ _

/-- The second region's entry contents do not depend on what is said of the second region's output. -/
theorem V7_outs (c : Dev nD) : V7 m (outs m) c = V7 m (outsA m) c := by
  show StableHlo.after hostOps1_2 (StableHlo.after hostOps1_1 (StableHlo.after hostOps1 (Function.update (V3 m c) main_v33 (outs m 4 main_v33 c))))
    = StableHlo.after hostOps1_2 (StableHlo.after hostOps1_1 (StableHlo.after hostOps1 (Function.update (V3 m c) main_v33 (outsA m 4 main_v33 c))))
  rw [outs_33, outsA_33]

/-- The exit contents, read at the TensorCore's references. -/
abbrev VR4 : (c : Dev nD) → (b : Ref sig .tc) → Buf (Elt F) ((c : Thread nD τ).loc b) := fun c b => V4 m (outs m) c b
abbrev VR8 : (c : Dev nD) → (b : Ref sig .tc) → Buf (Elt F) ((c : Thread nD τ).loc b) := fun c b => V8 m (outs m) c b

/-! ## The proof data family -/

/-- Each pipeline's proof data at its region's entry contents: a literal match. -/
def pdats : (p : Fin 2) → (c : Dev nD) → Dat τ (Elt F) Unit ℕ (UR sig nD τ) ℕ (Pipeline.pin (pcfgs (F := F)) adm p) c
  | ⟨0, _⟩ => fun c => R0.dat0 (VR3 m) c
  | ⟨1, _⟩ => fun c => R1.dat1 (VR7 m) c

/-- No core owes another anything: no level is assigned. -/
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)

/-! ## At each region's exit: its arrays at what it leaves, everything else as entered -/

theorem hF0 (c : Dev nD) : ∀ w : Fin cfg0.W, (R0.dat0 (VR3 m) c).arrAt w cfg0.N = VR4 m c (Pipeline.arrRef spec0 w)
  | ⟨0, _⟩ => ((R0.dat0 (VR3 m) c).arrAt_in 0 rfl _).trans ((R0.A_eq0 (VR3 m) c 0).trans (V4_of m (outs m) c main_arg0 (by decide)).symm)
  | ⟨1, _⟩ => ((R0.dat0 (VR3 m) c).arrAt_in 1 rfl _).trans ((R0.A_eq0 (VR3 m) c 1).trans (V4_of m (outs m) c main_arg2 (by decide)).symm)
  | ⟨2, _⟩ => ((R0.dat0 (VR3 m) c).arrAt_in 2 rfl _).trans ((R0.A_eq0 (VR3 m) c 2).trans (V4_of m (outs m) c main_v15 (by decide)).symm)
  | ⟨3, _⟩ => by
    show O33 m c = Function.update (V3 m c) main_v33 (outs m 4 main_v33 c) main_v33
    rw [Function.update_self, outs_33]

theorem hrest0 (c : Dev nD) : ∀ b, b ∉ Finset.univ.image (Pipeline.arrRef spec0) → VR4 m c b = VR3 m c b :=
  fun b hb => V4_of m (outs m) c b (by
    intro h; rw [List.mem_singleton] at h; subst h
    exact hb (Finset.mem_image.mpr ⟨3, Finset.mem_univ _, rfl⟩))

/-- At the second region's exit a buffer other than its output holds what it held at entry. -/
theorem V8_in (c : Dev nD) (b : Ref sig .tc) (hb : b ∉ ([main_v38] : List (Ref sig .tc))) : VR8 m c b = VR7 m c b :=
  (V8_of m (outs m) c b hb).trans (congrFun (V7_outs m c) (Proc.devRef .tc b))

set_option maxHeartbeats 1000000 in
theorem hF1 (c : Dev nD) : ∀ w : Fin cfg1.W, (R1.dat1 (VR7 m) c).arrAt w cfg1.N = VR8 m c (Pipeline.arrRef spec1 w)
  | ⟨0, _⟩ => ((R1.dat1 (VR7 m) c).arrAt_in 0 rfl _).trans ((R1.A_eq1 (VR7 m) c 0).trans (V8_in m c main_v32 (by decide)).symm)
  | ⟨1, _⟩ => ((R1.dat1 (VR7 m) c).arrAt_in 1 rfl _).trans ((R1.A_eq1 (VR7 m) c 1).trans (V8_in m c main_v34 (by decide)).symm)
  | ⟨2, _⟩ => ((R1.dat1 (VR7 m) c).arrAt_in 2 rfl _).trans ((R1.A_eq1 (VR7 m) c 2).trans (V8_in m c main_v15 (by decide)).symm)
  | ⟨3, _⟩ => ((R1.dat1 (VR7 m) c).arrAt_in 3 rfl _).trans ((R1.A_eq1 (VR7 m) c 3).trans (V8_in m c main_v35 (by decide)).symm)
  | ⟨4, _⟩ => ((R1.dat1 (VR7 m) c).arrAt_in 4 rfl _).trans ((R1.A_eq1 (VR7 m) c 4).trans (V8_in m c main_v36 (by decide)).symm)
  | ⟨5, _⟩ => ((R1.dat1 (VR7 m) c).arrAt_in 5 rfl _).trans ((R1.A_eq1 (VR7 m) c 5).trans (V8_in m c main_v37 (by decide)).symm)
  | ⟨6, _⟩ => by
    show O38 m c = Function.update (V7 m (outs m) c) main_v38 (outs m 8 main_v38 c) main_v38
    rw [Function.update_self, outs_38]

theorem hrest1 (c : Dev nD) : ∀ b, b ∉ Finset.univ.image (Pipeline.arrRef spec1) → VR8 m c b = VR7 m c b :=
  fun b hb => V8_in m c b (by
    intro h; rw [List.mem_singleton] at h; subst h
    exact hb (Finset.mem_image.mpr ⟨6, Finset.mem_univ _, rfl⟩))

/-! ## The regions as segments -/

set_option backward.isDefEq.respectTransparency.types false in
/-- THE FIRST REGION over the thread state: entered from every unscoped buffer at the contents after the third host
    stretch, left at those with its output array replaced. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (R0.body_obligation0 (VR3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VR3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR3 m c) (VR4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at the contents after the sixth host
    stretch, left at those with its output array replaced. Its invariant takes the scoped buffers no window stages and
    the generator register in, and gives them back with the accumulator's contents forgotten. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (R1.body_obligation1 (VR7 m) c).loose
  hwaits := Pipeline.hwaits_of_owed_zero _ _ _ _ L lv 1 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VR7 m c)
  hentry c := by
    rw [Pipeline.ownSems0_none, V7_outs m c]
    have hsplit := Pipeline.arrays_of_unscopedBufs (p := 1) (pcfgs (F := F)) adm (pdats m) launch1.win launch1.arr_whole c
      ((pdats m 1 c).share_full fun _ => rfl) (VR7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := R1.hin1 (VR7 m) c
    rw [show (pdats m 1 c).Φ 0 = (R1.dat1 (VR7 m) c).Φ 0 from rfl]
    refine .trans ?_ h
    unfold Pipeline.ΦA
    iintro ⟨Hp, -, Hr⟩
    isplitl [Hr]; · iexact Hr
    iexact Hp
  hout c := by
    have h := R1.hout1 (VR7 m) c
    rw [Pipeline.ownSems0_none, show (pdats m 1 c).Φ (Fin.last _) = (R1.dat1 (VR7 m) c).Φ (Fin.last cfg1.N) from rfl]
    refine h.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR7 m c) (VR8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The last thread state, split as the launch theorem wants it: the buffers and the register beside the empty owes. -/
theorem post_split (c : Dev nD) :
    iprop(StableHlo.held (c : Thread nD τ) (Pipeline.ucRefs τ sig) (V8 m (outs m) c) ∗ R c)
      ⊢ (iprop(iprop(StableHlo.held (c : Thread nD τ) (Pipeline.ucRefs τ sig) (V8 m (outs m) c) ∗ ∃ r, prngReg c r)
          ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

variable (ρ : Dev nD → PrngReg)

set_option backward.isDefEq.respectTransparency.types false in
/-- From any memory with zero counters every weakly fair execution of @main terminates; the result buffer ends at what
    the second region's proof data compute, and every argument as launched. -/
theorem run_main : θ_run defs (onTc (τ := τ) (main (F := F))) ⟨m, fun _ => 0, ρ⟩ (fun r => ∀ c : Dev nD,
      r.2.mem ((c.tc : Thread nD τ).loc main_v38) = O38 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm (pdats m) () cellOf_inj emb₁ defs₀ Variants.none L lv m ρ main
    (segs m (outs m) Variants.none L lv (fun _ => R) () (pdats m) (reg0 m) (reg1 m))
    (fun c Q => by
      rewrite [main_chain c, Seg.run_eq_chain,
        show (segs m (outs m) Variants.none L lv (fun _ => R) () (pdats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [segs, Seg.pipes_host, Seg.pipes_region, Seg.pipes_nil]; decide) (O₀ := 0) (fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V8 m (outs m) c) ∗ ∃ r, prngReg c r))
    (hch := fun c => ⟨.rfl, .rfl, .rfl, .rfl, .rfl, .rfl, .rfl, .rfl, post_split m c⟩)
    (hinit := ?_)
    (QY := fun c s => s.mem ((c.tc : Thread nD τ).loc main_v38) = O38 m c
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are held at the launch contents; the generator register and the empty owes ride along
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result and each argument read off the last valuation
    unfold StableHlo.held
    iintro ⟨⟨Hh, -⟩, HSI⟩
    ihave Hr := (pointsTo_read_all (Pipeline.ucRefs τ sig) (fun b => ((c : Thread nD τ).1, b)) (V8 m (outs m) c) s') $$ [Hh HSI]
    · isplitl [Hh] <;> iassumption
    icases Hr with ⟨%h, HSI⟩
    imodintro
    isplitr
    · ipureintro
      exact ⟨(h (Proc.devRef .tc main_v38) (Finset.mem_filter.mpr ⟨StableHlo.devRef_mem_tcRefs main_v38, by decide⟩)).trans
          ((show V8 m (outs m) c main_v38 = outs m 8 main_v38 c from Function.update_self _ _ _).trans (outs_38 m c)),
        (h (Proc.devRef .tc main_arg0) (Finset.mem_filter.mpr ⟨StableHlo.devRef_mem_tcRefs main_arg0, by decide⟩)).trans (V8_main_arg0 m (outs m) c),
        (h (Proc.devRef .tc main_arg1) (Finset.mem_filter.mpr ⟨StableHlo.devRef_mem_tcRefs main_arg1, by decide⟩)).trans (V8_main_arg1 m (outs m) c),
        (h (Proc.devRef .tc main_arg2) (Finset.mem_filter.mpr ⟨StableHlo.devRef_mem_tcRefs main_arg2, by decide⟩)).trans (V8_main_arg2 m (outs m) c),
        (h (Proc.devRef .tc main_arg3) (Finset.mem_filter.mpr ⟨StableHlo.devRef_mem_tcRefs main_arg3, by decide⟩)).trans (V8_main_arg3 m (outs m) c),
        (h (Proc.devRef .tc main_arg4) (Finset.mem_filter.mpr ⟨StableHlo.devRef_mem_tcRefs main_arg4, by decide⟩)).trans (V8_main_arg4 m (outs m) c),
        (h (Proc.devRef .tc main_arg5) (Finset.mem_filter.mpr ⟨StableHlo.devRef_mem_tcRefs main_arg5, by decide⟩)).trans (V8_main_arg5 m (outs m) c)⟩
    · iexact HSI

end Cert.KernelIdeal.Run

end
-- ==== Proof.LibPlainDot.lean ====
/-
  A plain matrix product read at an index, generic in the sizes. For dimension numbers that contract the left
  operand's columns with the right operand's rows, with no batch axis (rows × contraction times contraction ×
  columns), the sum over the contraction shape's indices of the operands' products at the dot's operand indices is the
  sum over k < K of l[p, k] · r[k, q]. A kernel's matrix unit into a zero accumulator and the host's dot both read
  through it at the ideal values. Imports only the library.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : Nat} (D : DotDims ⟨2, ![M, K]⟩ ⟨2, ![K, N]⟩ ⟨2, ![M, N]⟩)

/-- Two spellings of one axis position read the same coordinate. -/
theorem coord_val_congr {s : Shape} (j : s.Idx) (p q : Nat) (hp : p < s.rank) (hq : q < s.rank) (h : p = q) :
    (j ⟨p, hp⟩).val = (j ⟨q, hq⟩).val := by subst h; rfl

/-- The left operand's row is the result's row: axis 0 is the left operand's one free axis, first among the result's. -/
theorem lhs_row (hlb : D.lhsBatch = []) (hln : D.lhsNonContracting = [0]) (p : Fin M) (q : Fin N) (k : D.contr.Idx) :
    (D.lhsIdx (ix2 p q) k 0).val = p.val := by
  unfold DotDims.lhsIdx
  rw [dif_neg (by rw [hlb]; exact List.not_mem_nil), dif_pos (by rw [hln]; exact List.mem_singleton.mpr rfl)]
  simp only [Fin.val_cast]
  exact coord_val_congr (ix2 p q) _ 0 _ (show 0 < 2 by omega) (by simp [hlb, hln])

/-- The right operand's column is the result's column: axis 1 is the right operand's one free axis, second among the result's. -/
theorem rhs_col (hlb : D.lhsBatch = []) (hrb : D.rhsBatch = []) (hln : D.lhsNonContracting = [0]) (hrn : D.rhsNonContracting = [1])
    (p : Fin M) (q : Fin N) (k : D.contr.Idx) : (D.rhsIdx (ix2 p q) k 1).val = q.val := by
  unfold DotDims.rhsIdx
  rw [dif_neg (by rw [hrb]; exact List.not_mem_nil), dif_pos (by rw [hrn]; exact List.mem_singleton.mpr rfl)]
  simp only [Fin.val_cast]
  exact coord_val_congr (ix2 p q) _ 1 _ (show 1 < 2 by omega) (by simp [hlb, hln, hrn])

/-- The product at result index (p, q): the contraction re-indexed by its one coordinate. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  have hr : D.contr.rank = 1 := by rw [D.rank_contr, hlc]; rfl
  have hs : D.contr.size ⟨0, by omega⟩ = K := by
    have h := D.size_contr 0 (by rw [hlc]; exact Nat.one_pos)
    rw [h]; simp [hlc]
  rw [← Equiv.sum_comp (contrEquiv1 D K hr hs).symm]
  refine Finset.sum_congr rfl fun k _ => ?_
  have hk := contrEquiv1_symm_val D K hr hs k
  have e1 : D.lhsIdx (ix2 p q) ((contrEquiv1 D K hr hs).symm k) = ix2 p k := by
    funext a
    match a with
    | ⟨0, _⟩ => exact Fin.ext (lhs_row D hlb hln p q _)
    | ⟨1, _⟩ => exact Fin.ext ((D.lhsIdx_val_of_single hlc (ix2 p q) _).trans hk)
  have e2 : D.rhsIdx (ix2 p q) ((contrEquiv1 D K hr hs).symm k) = ix2 k q := by
    funext a
    match a with
    | ⟨0, _⟩ => exact Fin.ext ((D.rhsIdx_val_of_single hrc (ix2 p q) _).trans hk)
    | ⟨1, _⟩ => exact Fin.ext (rhs_col D hlb hrb hln hrn p q _)
  rw [e1, e2]

/-- The matrix product as a function of the result index: entry (p, q) is ∑_k l[p, k] · r[k, q] on the extended reals. -/
def matProd (l : (⟨2, ![M, K]⟩ : Shape).Idx → EReal) (r : (⟨2, ![K, N]⟩ : Shape).Idx → EReal) :
    (⟨2, ![M, N]⟩ : Shape).Idx → EReal :=
  fun y => ∑ k : Fin K, l (ix2 (y 0) k) * r (ix2 k (y 1))

theorem matProd_ix2 (l : (⟨2, ![M, K]⟩ : Shape).Idx → EReal) (r : (⟨2, ![K, N]⟩ : Shape).Idx → EReal) (p : Fin M) (q : Fin N) :
    matProd l r (ix2 p q) = ∑ k : Fin K, l (ix2 p k) * r (ix2 k q) := rfl

/-- The matrix unit's product into the zero accumulator, at the ideal values, is the matrix product. -/
theorem matmul_zero_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) :
    FloatOps.matmul D prec l r (constant ⟨2, ![M, N]⟩ .f32 0x00000000#32) = matProd (M := M) (K := K) (N := N) l r := by
  funext y
  obtain ⟨p, q, rfl⟩ : ∃ (p : Fin M) (q : Fin N), y = ix2 p q := ⟨y 0, y 1, eq_ix2 y⟩
  rw [Ideal.matmul_constant_zero_apply, matProd_ix2]
  exact sum_plain D hlc hrc hln hrn hlb hrb l r p q

/-- The host's dot, at the ideal values, is the matrix product, whatever its precision and schedule keys. -/
theorem dotGeneral_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision) (sched : HostSchedule)
    (l : FVec Ideal ⟨2, ![M, K]⟩ φ₁) (r : FVec Ideal ⟨2, ![K, N]⟩ φ₂) :
    FloatOps.dotGeneral D prec sched l r = matProd (M := M) (K := K) (N := N) l r := by
  funext y
  obtain ⟨p, q, rfl⟩ : ∃ (p : Fin M) (q : Fin N), y = ix2 p q := ⟨y 0, y 1, eq_ix2 y⟩
  rw [Ideal.dotGeneral_apply, matProd_ix2]
  exact sum_plain D hlc hrc hln hrn hlb hrb l r p q

end Cert.LibPlainDot

end
-- ==== Proof.LibRowOps.lean ====
/-
  Row-wise operations on matrices read at an index, generic in the sizes, as a kernel's vector dialect and the host's
  StableHLO spell them. For an R × C matrix v at the ideal values:
    · the sum along the columns (a vector multi-reduction over axis 1, or the host's reduce with an add body) at row p
      is ∑ k < C, v[p, k] (plus the host's initial value);
    · a length-R vector kept as an R × 1 column (a shape cast, or the host's broadcast_in_dim along axis 0) reads the
      vector at the row;
    · an R × 1 column spread over R × C reads the column at the row; a 1 × C row spread over R × C reads the row at
      the column; a length-C vector as a 1 × C row reads the vector at the column; a scalar spread anywhere reads the scalar.
  Imports only the library.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibRowOps

open Idealize.ShloMosaic Idealize.ShloMosaic.ValueIdx

variable {R C : Nat} {α : Type} {φ : FTy}

/-! ## Sums along the columns -/

/-- The index over row p with column k inserted is (p, k). -/
theorem lift_row (h : (⟨2, ![R, C]⟩ : Shape).Reduces [1] ⟨1, ![R]⟩) (p : Fin R) (k : Fin C) :
    h.lift (ix1 p) k = ix2 p k := by
  funext a
  match a with
  | ⟨0, _⟩ => exact Fin.ext rfl
  | ⟨1, _⟩ => exact Fin.ext rfl

/-- A vector multi-reduction with an add body over axis 1, at row p. -/
theorem multiReduction_row (v : FVec Ideal ⟨2, ![R, C]⟩ φ) (acc : BitVec φ.bits)
    (h : (⟨2, ![R, C]⟩ : Shape).Reduces [1] ⟨1, ![R]⟩) (hφ : FKind.Formats φ) (hacc : acc = FKind.add.neutral φ hφ) (p : Fin R) :
    multiReduction .add [1] ⟨1, ![R]⟩ v acc h hφ hacc (ix1 p) = ∑ k : Fin C, v (ix2 p k) := by
  rw [Ideal.multiReduction_add_single]
  exact Finset.sum_congr rfl fun k _ => congrArg v (lift_row h p k)

/-- The host's reduce with an add body over axis 1, at row b: the initial value plus the row's sum. -/
theorem hostReduceAdd_row {u : Shape} (x : FVec Ideal ⟨2, ![R, C]⟩ φ) (init : u.Idx → Ideal φ)
    (h' : (⟨2, ![R, C]⟩ : Shape).ReducesTo [1] ⟨1, ![R]⟩) (hu : 0 < u.numel)
    (h : (⟨2, ![R, C]⟩ : Shape).Reduces [1] ⟨1, ![R]⟩) (b : Fin R) :
    Host.reduceAdd x init h' hu (ix1 b) = init (Shape.Idx.first hu) + ∑ k : Fin C, x (ix2 b k) := by
  unfold Host.reduceAdd
  rw [Ideal.hostReduceAdd_def, Ideal.hostReduceAdd_single h' h]
  exact congrArg (init (Shape.Idx.first hu) + ·) (Finset.sum_congr rfl fun k _ => congrArg x (lift_row h b k))

/-- … and from the zero word, the row's sum alone. -/
theorem hostReduceAdd_row_zero {u : Shape} (x : FVec Ideal ⟨2, ![R, C]⟩ .f32)
    (h' : (⟨2, ![R, C]⟩ : Shape).ReducesTo [1] ⟨1, ![R]⟩) (hu : 0 < u.numel)
    (h : (⟨2, ![R, C]⟩ : Shape).Reduces [1] ⟨1, ![R]⟩) (b : Fin R) :
    Host.reduceAdd x (constant (F := Ideal) u .f32 0x00000000#32) h' hu (ix1 b) = ∑ k : Fin C, x (ix2 b k) := by
  rw [hostReduceAdd_row x _ h' hu h b]
  show Ideal.ofBits .f32 0x00000000#32 + _ = _
  rw [Ideal.ofBits_zero_f32, zero_add]

/-! ## A vector kept as a column -/

/-- A length-R vector cast to R × 1 reads, at (p, z), the vector at p. -/
theorem shapeCast_col (u : (⟨1, ![R]⟩ : Shape).Idx → α) (h : (⟨1, ![R]⟩ : Shape).ShapeCasts ⟨2, ![R, 1]⟩) (p : Fin R) (z : Fin 1) :
    shapeCast ⟨2, ![R, 1]⟩ u h (ix2 p z) = u (ix1 p) :=
  shapeCast_apply u h _ _ (by
    have hz : z.val = 0 := by omega
    rw [Shape.rowMajor_val_two, Shape.rowMajor_val_one]
    show p.val = p.val * 1 + z.val
    rw [hz, Nat.mul_one, Nat.add_zero])

/-- The host's broadcast of a length-R vector along axis 0 of R × 1 reads, at (b, z), the vector at b. -/
theorem broadcastInDim_col (u : (⟨1, ![R]⟩ : Shape).Idx → α) (h : (⟨1, ![R]⟩ : Shape).BroadcastsInDim ⟨2, ![R, 1]⟩ ![0])
    (b : Fin R) (z : Fin 1) : broadcastInDim ⟨2, ![R, 1]⟩ ![0] h u (ix2 b z) = u (ix1 b) := by
  refine broadcastInDim_apply _ h u (ix2 b z) (ix1 b) fun a => ?_
  match a with
  | ⟨0, _⟩ =>
    show b.val = if R = 1 then 0 else b.val
    split
    · have := b.isLt; omega
    · rfl

/-! ## A column, a row or a scalar spread over the matrix -/

/-- An R × 1 column broadcast to R × C reads, at (p, q), the column at p. -/
theorem broadcastTo_col (w : (⟨2, ![R, 1]⟩ : Shape).Idx → α) (h : (⟨2, ![R, 1]⟩ : Shape).Broadcasts ⟨2, ![R, C]⟩)
    (p : Fin R) (q : Fin C) : broadcastTo ⟨2, ![R, C]⟩ w h (ix2 p q) = w (ix2 p (0 : Fin 1)) := by
  refine broadcastTo_apply w h (ix2 p q) (ix2 p (0 : Fin 1)) fun ax => ?_
  match ax with
  | ⟨0, _⟩ =>
    show p.val = if R = 1 then 0 else p.val
    split
    · have := p.isLt; omega
    · rfl
  | ⟨1, _⟩ => rfl

/-- The host's broadcast of an R × 1 column over R × C reads, at (b, o), the column at b. -/
theorem broadcastInDim_col_mat (w : (⟨2, ![R, 1]⟩ : Shape).Idx → α)
    (h : (⟨2, ![R, 1]⟩ : Shape).BroadcastsInDim ⟨2, ![R, C]⟩ ![0, 1]) (b : Fin R) (o : Fin C) :
    broadcastInDim ⟨2, ![R, C]⟩ ![0, 1] h w (ix2 b o) = w (ix2 b (0 : Fin 1)) := by
  refine broadcastInDim_apply _ h w (ix2 b o) (ix2 b (0 : Fin 1)) fun a => ?_
  match a with
  | ⟨0, _⟩ =>
    show b.val = if R = 1 then 0 else b.val
    split
    · have := b.isLt; omega
    · rfl
  | ⟨1, _⟩ => rfl

/-- The host's broadcast of a 1 × C row over R × C reads, at (b, o), the row at o. -/
theorem broadcastInDim_row_mat (g : (⟨2, ![1, C]⟩ : Shape).Idx → α)
    (h : (⟨2, ![1, C]⟩ : Shape).BroadcastsInDim ⟨2, ![R, C]⟩ ![0, 1]) (b : Fin R) (o : Fin C) :
    broadcastInDim ⟨2, ![R, C]⟩ ![0, 1] h g (ix2 b o) = g (ix2 (0 : Fin 1) o) := by
  refine broadcastInDim_apply _ h g (ix2 b o) (ix2 (0 : Fin 1) o) fun a => ?_
  match a with
  | ⟨0, _⟩ => rfl
  | ⟨1, _⟩ =>
    show o.val = if C = 1 then 0 else o.val
    split
    · have := o.isLt; omega
    · rfl

/-- The host's broadcast of a length-C vector along axis 1 of 1 × C reads, at (z, o), the vector at o. -/
theorem broadcastInDim_vec_row (g : (⟨1, ![C]⟩ : Shape).Idx → α)
    (h : (⟨1, ![C]⟩ : Shape).BroadcastsInDim ⟨2, ![1, C]⟩ ![1]) (z : Fin 1) (o : Fin C) :
    broadcastInDim ⟨2, ![1, C]⟩ ![1] h g (ix2 z o) = g (ix1 o) := by
  refine broadcastInDim_apply _ h g (ix2 z o) (ix1 o) fun a => ?_
  match a with
  | ⟨0, _⟩ =>
    show o.val = if C = 1 then 0 else o.val
    split
    · have := o.isLt; omega
    · rfl

/-- The host's broadcast of a rank-0 array reads its one element everywhere. -/
theorem broadcastInDim_scalar {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 fun a => a.elim0

end Cert.LibRowOps

end
-- ==== Proof.LibLayerNorm.lean ====
/-
  Layer normalisation of the rows of a matrix, read at an index, generic in the sizes.

  On the extended reals a row v of length n is normalised to (v[o] − μ)·(σ² + ε)^(−1/2)·g[o] + b[o], with μ the row's sum
  divided by N and σ² the sum of the squared deviations divided by N (N and ε extended reals: a program passes the
  floats it divides by and adds). This file defines that function (rowMean, rowVar, layerNorm) and shows that the two
  ways a program spells it over an R × C matrix read, at (p, q), as layerNorm of row p at q:
    · a kernel's vector dialect: multi-reduction over axis 1, shape cast to a column, divide by a splat, broadcast of the
      column, subtract, square, …, rsqrt, scale and shift by 1 × C rows broadcast over the matrix (kMean, kNorm);
    · the host's StableHLO: reduce with an add body, broadcast_in_dim of vectors and scalars, divide, …, rsqrt, scale
      and shift by length-C vectors broadcast through 1 × C (hMean, hNorm).
  The four chains are defined at any float family, so that a program's own text can be compared with them before
  values are chosen; the readings are at the ideal values. Both take the mean column as an argument, since programs compute
  it once and use it twice. Imports the library and
  the row-operation lemmas of LibRowOps.
-/
import Idealize.ShloMosaic.Lib.ValueIdx
import Idealize.ShloMosaic.Lib.ValueLayout
import Idealize.ShloMosaic.PureOps.Ideal.Laws
import proofs.«422284_j11982958756494_3_alg».proof.Proof.LibRowOps

noncomputable section

open scoped BigOperators

namespace Cert.LibLayerNorm

open Idealize.ShloMosaic Idealize.ShloMosaic.ValueIdx Cert.LibRowOps

/-- A row's mean: its sum divided by its length (given as an extended real). -/
def rowMean {n : ℕ} (N : EReal) (v : Fin n → EReal) : EReal := Ideal.div (∑ k, v k) N

/-- A row's biased variance about its mean. -/
def rowVar {n : ℕ} (N : EReal) (v : Fin n → EReal) : EReal :=
  Ideal.div (∑ k, (v k - rowMean N v) * (v k - rowMean N v)) N

/-- Layer normalisation of a row, with scale g and shift b. -/
def layerNorm {n : ℕ} (N ε : EReal) (v g b : Fin n → EReal) (o : Fin n) : EReal :=
  (v o - rowMean N v) * Ideal.rsqrt (rowVar N v + ε) * g o + b o

/-- A second shift added to the first comes out of the normalisation: a + (b + β) = (a + b) + β. -/
theorem layerNorm_shift {n : ℕ} (N ε : EReal) (v g b β : Fin n → EReal) (o : Fin n) :
    layerNorm N ε v g (fun o => b o + β o) o = layerNorm N ε v g b o + β o := by
  unfold layerNorm
  exact (add_assoc _ _ _).symm

/-- A vector's reciprocal square root, the kernel's or the host's, read at an index. -/
theorem rsqrt_apply {s : Shape} {φ : FTy} (a : FVec Ideal s φ) (i : s.Idx) : rsqrt a i = Ideal.rsqrt (a i) := rfl
theorem hostRsqrt_apply {s : Shape} {φ : FTy} (a : FVec Ideal s φ) (i : s.Idx) : Host.rsqrt a i = Ideal.rsqrt (a i) := rfl
theorem hostDivf_apply {s : Shape} {φ : FTy} (a b : FVec Ideal s φ) (i : s.Idx) : Host.divf a b i = Ideal.div (a i) (b i) := rfl

variable {R C : Nat} {F : FTy → Type} [FloatOps F]

/-! ## The kernel's spelling -/

section Kernel

variable (hred : (⟨2, ![R, C]⟩ : Shape).Reduces [1] ⟨1, ![R]⟩) (hφ : FKind.Formats .f32)
  (hacc : (0x00000000#32 : BitVec 32) = FKind.add.neutral .f32 hφ)
  (hcast : (⟨1, ![R]⟩ : Shape).ShapeCasts ⟨2, ![R, 1]⟩) (hcol : (⟨2, ![R, 1]⟩ : Shape).Broadcasts ⟨2, ![R, C]⟩)
  (hrow : (⟨2, ![1, C]⟩ : Shape).Broadcasts ⟨2, ![R, C]⟩)

/-- The rows' sums kept as a column and divided by the splat of the float with word nb. -/
def kMean (nb : BitVec 32) (v : FVec F ⟨2, ![R, C]⟩ .f32) : FVec F ⟨2, ![R, 1]⟩ .f32 :=
  divf (shapeCast ⟨2, ![R, 1]⟩ (multiReduction .add [1] ⟨1, ![R]⟩ v 0x00000000#32 hred hφ hacc) hcast)
    (broadcast ⟨2, ![R, 1]⟩ (Scalar.ofBits .f32 nb))

theorem kMean_apply (nb : BitVec 32) (v : FVec Ideal ⟨2, ![R, C]⟩ .f32) (p : Fin R) (z : Fin 1) :
    kMean hred hφ hacc hcast nb v (ix2 p z) = rowMean (Ideal.ofBits .f32 nb) fun k => v (ix2 p k) := by
  unfold kMean rowMean
  rw [divf_apply, shapeCast_col, multiReduction_row, broadcast_apply]
  rfl

/-- The rows normalised about the column mean, scaled and shifted by the rows g and b. -/
def kNorm (nb eb : BitVec 32) (v : FVec F ⟨2, ![R, C]⟩ .f32) (mean : FVec F ⟨2, ![R, 1]⟩ .f32)
    (g b : FVec F ⟨2, ![1, C]⟩ .f32) : FVec F ⟨2, ![R, C]⟩ .f32 :=
  addf (mulf (mulf (subf v (broadcastTo ⟨2, ![R, C]⟩ mean hcol))
      (broadcastTo ⟨2, ![R, C]⟩ (rsqrt (addf (kMean hred hφ hacc hcast nb
          (mulf (subf v (broadcastTo ⟨2, ![R, C]⟩ mean hcol)) (subf v (broadcastTo ⟨2, ![R, C]⟩ mean hcol))))
        (broadcast ⟨2, ![R, 1]⟩ (Scalar.ofBits .f32 eb)))) hcol))
    (broadcastTo ⟨2, ![R, C]⟩ g hrow)) (broadcastTo ⟨2, ![R, C]⟩ b hrow)

theorem kNorm_apply (nb eb : BitVec 32) (v : FVec Ideal ⟨2, ![R, C]⟩ .f32) (mean : FVec Ideal ⟨2, ![R, 1]⟩ .f32)
    (g b : FVec Ideal ⟨2, ![1, C]⟩ .f32)
    (hmean : ∀ p : Fin R, mean (ix2 p (0 : Fin 1)) = rowMean (Ideal.ofBits .f32 nb) fun k => v (ix2 p k))
    (p : Fin R) (q : Fin C) :
    kNorm hred hφ hacc hcast hcol hrow nb eb v mean g b (ix2 p q)
      = layerNorm (Ideal.ofBits .f32 nb) (Ideal.ofBits .f32 eb) (fun k => v (ix2 p k)) (fun k => g (ix2 (0 : Fin 1) k))
          (fun k => b (ix2 (0 : Fin 1) k)) q := by
  simp only [kNorm, layerNorm, rowVar, addf_apply, mulf_apply, subf_apply, rsqrt_apply, broadcast_apply, broadcastTo_col,
    broadcastTo_1b_ab_apply, kMean_apply, hmean]
  rfl

end Kernel

/-! ## The host's spelling -/

section Host

variable (hT : (⟨2, ![R, C]⟩ : Shape).ReducesTo [1] ⟨1, ![R]⟩) (hu : 0 < (⟨0, ![]⟩ : Shape).numel)
  (hred : (⟨2, ![R, C]⟩ : Shape).Reduces [1] ⟨1, ![R]⟩)
  (hc0 : (⟨1, ![R]⟩ : Shape).BroadcastsInDim ⟨2, ![R, 1]⟩ ![0])
  (hs : (⟨0, ![]⟩ : Shape).BroadcastsInDim ⟨2, ![R, 1]⟩ ![])
  (hcm : (⟨2, ![R, 1]⟩ : Shape).BroadcastsInDim ⟨2, ![R, C]⟩ ![0, 1])
  (hvr : (⟨1, ![C]⟩ : Shape).BroadcastsInDim ⟨2, ![1, C]⟩ ![1])
  (hrm : (⟨2, ![1, C]⟩ : Shape).BroadcastsInDim ⟨2, ![R, C]⟩ ![0, 1])

/-- The rows' sums (from the zero word) as a column, divided by the broadcast scalar with word nb. -/
def hMean (nb : BitVec 32) (v : FVec F ⟨2, ![R, C]⟩ .f32) : FVec F ⟨2, ![R, 1]⟩ .f32 :=
  Host.divf (broadcastInDim ⟨2, ![R, 1]⟩ ![0] hc0 (Host.reduceAdd v (constant (F := F) ⟨0, ![]⟩ .f32 0x00000000#32) hT hu))
    (broadcastInDim ⟨2, ![R, 1]⟩ ![] hs (constant (F := F) ⟨0, ![]⟩ .f32 nb))

include hred in
theorem hMean_apply (nb : BitVec 32) (v : FVec Ideal ⟨2, ![R, C]⟩ .f32) (p : Fin R) (z : Fin 1) :
    hMean hT hu hc0 hs nb v (ix2 p z) = rowMean (Ideal.ofBits .f32 nb) fun k => v (ix2 p k) := by
  unfold hMean rowMean
  rw [hostDivf_apply, broadcastInDim_col, hostReduceAdd_row_zero v hT hu hred, broadcastInDim_scalar]
  rfl

/-- The rows normalised about the column mean, scaled and shifted by the vectors g and b. -/
def hNorm (nb eb : BitVec 32) (v : FVec F ⟨2, ![R, C]⟩ .f32) (mean : FVec F ⟨2, ![R, 1]⟩ .f32)
    (g b : FVec F ⟨1, ![C]⟩ .f32) : FVec F ⟨2, ![R, C]⟩ .f32 :=
  addf (mulf (mulf (subf v (broadcastInDim ⟨2, ![R, C]⟩ ![0, 1] hcm mean))
      (broadcastInDim ⟨2, ![R, C]⟩ ![0, 1] hcm (Host.rsqrt (addf (hMean hT hu hc0 hs nb
          (mulf (subf v (broadcastInDim ⟨2, ![R, C]⟩ ![0, 1] hcm mean)) (subf v (broadcastInDim ⟨2, ![R, C]⟩ ![0, 1] hcm mean))))
        (broadcastInDim ⟨2, ![R, 1]⟩ ![] hs (constant (F := F) ⟨0, ![]⟩ .f32 eb))))))
    (broadcastInDim ⟨2, ![R, C]⟩ ![0, 1] hrm (broadcastInDim ⟨2, ![1, C]⟩ ![1] hvr g)))
    (broadcastInDim ⟨2, ![R, C]⟩ ![0, 1] hrm (broadcastInDim ⟨2, ![1, C]⟩ ![1] hvr b))

include hred in
theorem hNorm_apply (nb eb : BitVec 32) (v : FVec Ideal ⟨2, ![R, C]⟩ .f32) (mean : FVec Ideal ⟨2, ![R, 1]⟩ .f32)
    (g b : FVec Ideal ⟨1, ![C]⟩ .f32)
    (hmean : ∀ p : Fin R, mean (ix2 p (0 : Fin 1)) = rowMean (Ideal.ofBits .f32 nb) fun k => v (ix2 p k))
    (p : Fin R) (q : Fin C) :
    hNorm hT hu hc0 hs hcm hvr hrm nb eb v mean g b (ix2 p q)
      = layerNorm (Ideal.ofBits .f32 nb) (Ideal.ofBits .f32 eb) (fun k => v (ix2 p k)) (fun k => g (ix1 k))
          (fun k => b (ix1 k)) q := by
  have hdev : ∀ k : Fin C, subf v (broadcastInDim ⟨2, ![R, C]⟩ ![0, 1] hcm mean) (ix2 p k)
      = v (ix2 p k) - rowMean (Ideal.ofBits .f32 nb) fun k => v (ix2 p k) := fun k => by
    rw [subf_apply, broadcastInDim_col_mat, hmean]
  have hvar : hMean hT hu hc0 hs nb
      (mulf (subf v (broadcastInDim ⟨2, ![R, C]⟩ ![0, 1] hcm mean)) (subf v (broadcastInDim ⟨2, ![R, C]⟩ ![0, 1] hcm mean)))
        (ix2 p (0 : Fin 1))
      = rowVar (Ideal.ofBits .f32 nb) fun k => v (ix2 p k) := by
    rw [hMean_apply (hred := hred)]
    unfold rowVar
    refine congrArg (Ideal.div · _) (Finset.sum_congr rfl fun k _ => ?_)
    show subf v _ (ix2 p k) * subf v _ (ix2 p k) = _
    rw [hdev]
  unfold hNorm layerNorm
  show subf v _ (ix2 p q) * broadcastInDim _ _ hcm (Host.rsqrt _) (ix2 p q) * broadcastInDim _ _ hrm _ (ix2 p q)
      + broadcastInDim _ _ hrm _ (ix2 p q) = _
  rw [hdev, broadcastInDim_col_mat, broadcastInDim_row_mat, broadcastInDim_row_mat, broadcastInDim_vec_row,
    broadcastInDim_vec_row, hostRsqrt_apply, addf_apply, hvar, broadcastInDim_scalar]
  rfl

end Host

end Cert.LibLayerNorm

end
-- ==== Proof.Pay.lean ====
/-
  The kernels' arithmetic, read at an index at the ideal values.

  The first kernel's payload at (r, q): the row-by-column product of the feature block and the weights, times the row's
  scale. The second kernel's three payloads: the cleared accumulator is 0; the accumulate step adds to the accumulator
  the row-by-column product of the count block and the feature block; the epilogue is the layer normalisation of the row
  "accumulator · scale + bias". Changes of float format are the identity at the ideal values, a matrix product into a zero
  accumulator is the plain sum of products, a lane reduction is the row's sum.
-/
import proofs.«422284_j11982958756494_3_alg».proof.Proof.Gen.KernelIdeal.Skeleton
import proofs.«422284_j11982958756494_3_alg».proof.Proof.LibPlainDot
import proofs.«422284_j11982958756494_3_alg».proof.Proof.LibRowOps
import proofs.«422284_j11982958756494_3_alg».proof.Proof.LibLayerNorm
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen
open Idealize.ShloMosaic Idealize.ShloMosaic.ValueIdx

/-- The first kernel's payload: (x · W)[r, q] · scale[r]. -/
theorem pay0_apply (v0 : Vec Ideal S1000x128 .f32) (v2 : Vec Ideal S128x128 .f32) (v5 : Vec Ideal S1000x1 .f32)
    (r : Fin 1000) (q : Fin 128) :
    (k0_pay1 (F := Ideal) v0 v2 v5 (ix2 r q) : EReal)
      = (∑ k : Fin 128, (v0 (ix2 r k) : EReal) * (v2 (ix2 k q) : EReal)) * (v5 (ix2 r (0 : Fin 1)) : EReal) := by
  unfold k0_pay1
  show (FloatOps.matmul (F := Ideal) dot_S1000x128_S128x128_S1000x128_1_0_0_1_n_n none (truncf (F := Ideal) .bf16 v0 bitsLt_bf16_f32)
      (truncf (F := Ideal) .bf16 v2 bitsLt_bf16_f32) (constant (F := Ideal) S1000x128 .f32 0x00000000#32) (ix2 r q) : EReal)
    * broadcastTo S1000x128 (shapeCast S1000x1 v5 shapeCasts_S1000x1_S1000x1) broadcasts_S1000x1_S1000x128 (ix2 r q) = _
  rw [Cert.LibPlainDot.matmul_zero_eq_matProd _ rfl rfl rfl rfl rfl rfl, Cert.LibPlainDot.matProd_ix2,
    Cert.LibRowOps.broadcastTo_col, shapeCast_self]
  rfl

/-- The cleared accumulator. -/
theorem pay1_apply (r : Fin 1000) (q : Fin 128) : (k1_pay1 (F := Ideal) (ix2 r q) : EReal) = 0 := by
  unfold k1_pay1
  show shapeCast S1000x128 (broadcast S1000x128 (Scalar.ofBits (F := Ideal) .f32 0x00000000#32)) shapeCasts_S1000x128_S1000x128 (ix2 r q)
    = (0 : EReal)
  rw [shapeCast_self]
  exact Ideal.ofBits_zero_f32

/-- The accumulate step: acc[r, q] + Σ_j a[r, j] · h[j, q]. -/
theorem pay2_apply (v6 : Vec Ideal S5120x128 .bf16) (v8 : Vec Ideal S1000x128 .f32) (v9 : Vec Ideal S1000x5120 .bf16)
    (r : Fin 1000) (q : Fin 128) :
    (k1_pay2 (F := Ideal) v6 v8 v9 (ix2 r q) : EReal)
      = (v8 (ix2 r q) : EReal) + ∑ j : Fin 5120, (v9 (ix2 r j) : EReal) * (v6 (ix2 j q) : EReal) := by
  unfold k1_pay2
  show shapeCast S1000x128 (addf (F := Ideal) v8 (FloatOps.matmul (F := Ideal) (φ₁ := .bf16) (φ₂ := .bf16) dot_S1000x5120_S5120x128_S1000x128_1_0_0_1_n_n none
      (shapeCast S1000x5120 v9 shapeCasts_S1000x5120_S1000x5120) (shapeCast S5120x128 v6 shapeCasts_S5120x128_S5120x128)
      (constant (F := Ideal) S1000x128 .f32 0x00000000#32))) shapeCasts_S1000x128_S1000x128 (ix2 r q) = _
  rw [shapeCast_self, addf_apply, Cert.LibPlainDot.matmul_zero_eq_matProd _ rfl rfl rfl rfl rfl rfl,
    Cert.LibPlainDot.matProd_ix2, shapeCast_self, shapeCast_self]

/-- The row "accumulator · scale + bias" the epilogue normalises, as the kernel spells it. -/
def preNorm (v22 : Vec Ideal S1000x1 .f32) (v24 : Vec Ideal S1000x128 .f32) (v27 : Vec Ideal S1x128 .f32) :
    FVec Ideal S1000x128 .f32 :=
  addf (mulf v24 (broadcastTo S1000x128 (shapeCast S1000x1 v22 shapeCasts_S1000x1_S1000x1) broadcasts_S1000x1_S1000x128))
    (broadcastTo S1000x128 (shapeCast S1x128 v27 shapeCasts_S1x128_S1x128) broadcasts_S1x128_S1000x128)

/-- That row read at (r, k): acc[r, k] · scale[r] + bias[k]. -/
theorem preNorm_apply (v22 : Vec Ideal S1000x1 .f32) (v24 : Vec Ideal S1000x128 .f32) (v27 : Vec Ideal S1x128 .f32)
    (r : Fin 1000) (k : Fin 128) :
    (preNorm v22 v24 v27 (ix2 r k) : EReal)
      = (v24 (ix2 r k) : EReal) * (v22 (ix2 r (0 : Fin 1)) : EReal) + (v27 (ix2 (0 : Fin 1) k) : EReal) := by
  unfold preNorm
  rw [addf_apply, mulf_apply, Cert.LibRowOps.broadcastTo_col, broadcastTo_1b_ab_apply, shapeCast_self, shapeCast_self]

/-- The epilogue: the layer normalisation of the row acc[r, ·] · scale[r] + bias. -/
theorem pay3_apply (v22 : Vec Ideal S1000x1 .f32) (v24 : Vec Ideal S1000x128 .f32) (v27 v49 v53 : Vec Ideal S1x128 .f32)
    (r : Fin 1000) (q : Fin 128) :
    (k1_pay3 (F := Ideal) v22 v24 v27 v49 v53 (ix2 r q) : EReal)
      = Cert.LibLayerNorm.layerNorm (Ideal.ofBits .f32 0x43000000#32) (Ideal.ofBits .f32 0x3727C5AC#32)
          (fun k => (v24 (ix2 r k) : EReal) * (v22 (ix2 r (0 : Fin 1)) : EReal) + (v27 (ix2 (0 : Fin 1) k) : EReal))
          (fun k => (v49 (ix2 (0 : Fin 1) k) : EReal)) (fun k => (v53 (ix2 (0 : Fin 1) k) : EReal)) q := by
  have hφ : FKind.Formats .f32 := .inl rfl
  have hacc : (0x00000000#32 : BitVec 32) = FKind.add.neutral .f32 hφ := rfl
  have e : k1_pay3 (F := Ideal) v22 v24 v27 v49 v53
      = Cert.LibLayerNorm.kNorm reduces_S1000x128_S1000 hφ hacc shapeCasts_S1000_S1000x1 broadcasts_S1000x1_S1000x128
          broadcasts_S1x128_S1000x128 0x43000000#32 0x3727C5AC#32 (preNorm v22 v24 v27)
          (Cert.LibLayerNorm.kMean reduces_S1000x128_S1000 hφ hacc shapeCasts_S1000_S1000x1 0x43000000#32 (preNorm v22 v24 v27))
          (shapeCast S1x128 v49 shapeCasts_S1x128_S1x128) (shapeCast S1x128 v53 shapeCasts_S1x128_S1x128) := rfl
  rw [e, Cert.LibLayerNorm.kNorm_apply reduces_S1000x128_S1000 hφ hacc shapeCasts_S1000_S1000x1 broadcasts_S1000x1_S1000x128
    broadcasts_S1x128_S1000x128 0x43000000#32 0x3727C5AC#32 (preNorm v22 v24 v27) _ _ _
    (fun p => Cert.LibLayerNorm.kMean_apply reduces_S1000x128_S1000 hφ hacc shapeCasts_S1000_S1000x1 0x43000000#32
      (preNorm v22 v24 v27) p 0)]
  simp only [preNorm_apply, shapeCast_self]

end Cert.KernelIdeal.Pay

end
-- ==== Proof.R0Value.lean ====
/-
  What the first region leaves in its output array, at the ideal values: row j, column q holds the row-by-column product
  of the feature array and the weight array as the region found them, times row j of the scale column. Point t writes
  back rows [1000t, 1000t + 1000) — its payload of that point's blocks, which are those rows of the arrays —, and the
  ten blocks tile the array.
-/
import proofs.«422284_j11982958756494_3_alg».proof.Proof.R0
import proofs.«422284_j11982958756494_3_alg».proof.Proof.Pay
import Idealize.ShloMosaic.Lib.Pipeline.Value
import Idealize.ShloMosaic.Lib.ValueIdx

set_option maxRecDepth 16384

noncomputable section

open scoped BigOperators

namespace Cert.KernelIdeal.R0V

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The arrays the region reads, each at its literal type. -/
abbrev xarr (c : Dev nD) : Vec Ideal S10000x128 .f32 := V c main_arg0
abbrev warr (c : Dev nD) : Vec Ideal S128x128 .f32 := V c main_arg2
abbrev sarr (c : Dev nD) : Vec Ideal S10000x1 .f32 := V c main_v15
/-- The array it writes, after the run. -/
abbrev oarr (c : Dev nD) : Vec Ideal S10000x128 .bf16 := (R0.dat0 (F := Ideal) V c).arrAt 3 cfg0.N

/-- The zero offsets of a whole-block access, however spelt. -/
theorem hz : (![0, 0] : Fin 2 → Nat) = fun _ => 0 := funext fun a => by fin_cases a <;> rfl

/-- The whole output array as one function of the arrays the region reads: row i₀, column i₁ is the row-by-column
    product of the features and the weights, times row i₀ of the scale column. -/
def G (c : Dev nD) : Vec Ideal S10000x128 .bf16 := fun i =>
  (∑ k : Fin 128, (xarr V c (ix2 (i 0) k) : EReal) * (warr V c (ix2 k (i 1)) : EReal)) * (sarr V c (ix2 (i 0) (0 : Fin 1)) : EReal)

/-- The printed index maps over the ten points: the feature, scale and output windows are at block row t, column 0;
    the weight window is at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature block at point t is rows [1000t, 1000t + 1000) of the feature array. -/
theorem blk_x (c : Dev nD) (t : Fin cfg0.N) (y : S1000x128.Idx) (i : S10000x128.Idx)
    (h0 : (i 0).val = 1000 * t.val + (y 0).val) (h1 : (i 1).val = (y 1).val) :
    (R0.iblk0 (F := Ideal) V c 0 t : Vec Ideal S1000x128 .f32) y = xarr V c i := by
  obtain ⟨e0, e1, -⟩ := idx_facts t
  unfold R0.iblk0
  rw [View.read_apply]
  show V c main_arg0 (((cfg0.win 0).blk t).view.emb y) = V c main_arg0 i
  congr 1
  funext a
  apply Fin.ext
  match a with
  | ⟨0, _⟩ => show win0_0.index t (0 : Fin 2) * 1000 + 1 * (y 0).val = (i 0).val; rw [e0, h0]; omega
  | ⟨1, _⟩ => show win0_0.index t (1 : Fin 2) * 128 + 1 * (y 1).val = (i 1).val; rw [e1, h1]; omega

/-- The weight block at every point is the weight array. -/
theorem blk_w (c : Dev nD) (t : Fin cfg0.N) (y : S128x128.Idx) :
    (R0.iblk0 (F := Ideal) V c 1 t : Vec Ideal S128x128 .f32) y = warr V c y := by
  obtain ⟨-, -, e0, e1, -⟩ := idx_facts t
  unfold R0.iblk0
  rw [View.read_apply]
  show V c main_arg2 (((cfg0.win 1).blk t).view.emb y) = V c main_arg2 y
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The scale block at point t is rows [1000t, 1000t + 1000) of the scale column. -/
theorem blk_s (c : Dev nD) (t : Fin cfg0.N) (y : S1000x1.Idx) (i : S10000x1.Idx)
    (h0 : (i 0).val = 1000 * t.val + (y 0).val) (h1 : (i 1).val = (y 1).val) :
    (R0.iblk0 (F := Ideal) V c 2 t : Vec Ideal S1000x1 .f32) y = sarr V c i := by
  obtain ⟨-, -, -, -, e0, e1, -⟩ := idx_facts t
  unfold R0.iblk0
  rw [View.read_apply]
  show V c main_v15 (((cfg0.win 2).blk t).view.emb y) = V c main_v15 i
  congr 1
  funext a
  apply Fin.ext
  match a with
  | ⟨0, _⟩ => show win0_2.index t (0 : Fin 2) * 1000 + 1 * (y 0).val = (i 0).val; rw [e0, h0]; omega
  | ⟨1, _⟩ => show win0_2.index t (1 : Fin 2) * 1 + 1 * (y 1).val = (i 1).val; rw [e1, h1]; omega

/-- Where the output block at point t sits in the output array: rows [1000t, 1000t + 1000), every column. -/
theorem out_emb (t : Fin cfg0.N) (y : S1000x128.Idx) :
    ((((cfg0.win 3).blk t).view.emb y) 0).val = 1000 * t.val + (y 0).val
      ∧ ((((cfg0.win 3).blk t).view.emb y) 1).val = (y 1).val := by
  obtain ⟨-, -, -, -, -, -, e0, e1⟩ := idx_facts t
  constructor
  · show win0_3.index t (0 : Fin 2) * 1000 + 1 * (y 0).val = _; rw [e0]; omega
  · show win0_3.index t (1 : Fin 2) * 128 + 1 * (y 1).val = _; rw [e1]; omega

/-- What point t writes back is block t of G. -/
theorem flushed_eq (c : Dev nD) (t : Fin cfg0.N) :
    (R0.dat0 (F := Ideal) V c).flushed 3 t = ((cfg0.win 3).blk t).view.read (Elt Ideal) (G V c) := by
  show (cfg0.win 3).cut (grid0.coords t) ((R0.dat0 (F := Ideal) V c).after 3 t) = _
  rw [R0.after0_3]
  unfold R0.out0_3
  rw [View.canon_unit_zero hz]
  simp only [View.ld_unit_zero (S := S1000x128) hz, View.ld_unit_zero (S := S128x128) hz, View.ld_unit_zero (S := S1000x1) hz]
  show (k0_pay1 (F := Ideal) (R0.iblk0 V c 0 t) (R0.iblk0 V c 1 t) (R0.iblk0 V c 2 t) : S1000x128.Idx → EReal)
    = fun y : S1000x128.Idx => G V c (((cfg0.win 3).blk t).view.emb y)
  funext y
  obtain ⟨r, q, rfl⟩ : ∃ (r : Fin 1000) (q : Fin 128), y = ix2 r q := ⟨y 0, y 1, eq_ix2 y⟩
  refine (Pay.pay0_apply (R0.iblk0 V c 0 t) (R0.iblk0 V c 1 t) (R0.iblk0 V c 2 t) r q).trans ?_
  obtain ⟨hE0, hE1⟩ := out_emb t (ix2 r q)
  show _ = (∑ k : Fin 128, (xarr V c (ix2 ((((cfg0.win 3).blk t).view.emb (ix2 r q)) 0) k) : EReal)
      * (warr V c (ix2 k ((((cfg0.win 3).blk t).view.emb (ix2 r q)) 1)) : EReal))
    * (sarr V c (ix2 ((((cfg0.win 3).blk t).view.emb (ix2 r q)) 0) (0 : Fin 1)) : EReal)
  refine congrArg₂ (· * ·) (Finset.sum_congr rfl fun k _ => congrArg₂ (· * ·) ?_ ?_) ?_
  · exact blk_x V c t (ix2 r k) _ hE0 rfl
  · refine (blk_w V c t (ix2 k q)).trans (congrArg (warr V c) ?_)
    funext a
    match a with
    | ⟨0, _⟩ => rfl
    | ⟨1, _⟩ => exact Fin.ext hE1.symm
  · exact blk_s V c t (ix2 r (0 : Fin 1)) _ hE0 rfl

/-- An index of the output array is in point t's block iff each coordinate is in the block's range on its axis. -/
theorem mem_blk (t : Fin cfg0.N) (i : S10000x128.Idx) :
    i ∈ ((cfg0.win 3).blk t).view.set ↔ ∀ a : Fin 2, win0_3.index t a * S1000x128.size a ≤ (i a).val
      ∧ (i a).val < win0_3.index t a * S1000x128.size a + S1000x128.size a := by
  show i ∈ ((View.whole main_v33).slice (win0_3.rect t)).set ↔ _
  rw [View.set_slice_whole, Rect.mem_set_unit]
  exact Iff.rfl

/-- The ten blocks tile the array: row r is in the block of point r / 1000. -/
theorem cover (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 10 := N_0
  let t : Fin cfg0.N := ⟨(i 0).val / 1000, by rw [hN]; omega⟩
  obtain ⟨-, -, -, -, -, -, e0, e1⟩ := idx_facts t
  have ht : t.val = (i 0).val / 1000 := rfl
  refine ⟨t, flush0_3 t, ?_⟩
  rw [mem_blk]
  intro a
  match a with
  | ⟨0, _⟩ =>
    show win0_3.index t (0 : Fin 2) * 1000 ≤ (i 0).val ∧ (i 0).val < win0_3.index t (0 : Fin 2) * 1000 + 1000
    rw [e0, ht]; omega
  | ⟨1, _⟩ =>
    show win0_3.index t (1 : Fin 2) * 128 ≤ (i 1).val ∧ (i 1).val < win0_3.index t (1 : Fin 2) * 128 + 128
    rw [e1]; omega

/-- The output array after the run is G. -/
theorem final (c : Dev nD) : (R0.dat0 (F := Ideal) V c).arrAt 3 cfg0.N = G V c :=
  (R0.dat0 (F := Ideal) V c).arrAt_eq_of_cover 3 (G V c) (fun t _ => flushed_eq V c t) cover

/-- The first region's output array after the run, at (j, q). -/
theorem arr0 (c : Dev nD) (j : Fin 10000) (q : Fin 128) :
    (oarr V c (ix2 j q) : EReal)
      = (∑ k : Fin 128, (xarr V c (ix2 j k) : EReal) * (warr V c (ix2 k q) : EReal)) * (sarr V c (ix2 j (0 : Fin 1)) : EReal) := by
  exact congrFun (final V c) (ix2 j q)

end Cert.KernelIdeal.R0V

end
-- ==== Proof.R1Value.lean ====
/-
  What the second region leaves in its output array, at the ideal values: row i is the layer normalisation of the row
  "((0 + Σ_{j<5120} A[i, j]·h[j, ·]) + Σ_{j<5120} A[i, 5120+j]·h[5120+j, ·]) · s[i] + bias", with A the count array, h the
  padded feature array, s the scale column, and the bias, scale and shift rows as the region found them. The odd point
  t = 2p + 1 writes back rows [1000p, 1000p + 1000): the epilogue's payload over the accumulator, which is the second
  half-product added to what the even point 2p left, which is the first half-product added to zero; each point's blocks
  are the corresponding rows and columns of the arrays; the ten written blocks tile the array.
-/
import proofs.«422284_j11982958756494_3_alg».proof.Proof.R1
import proofs.«422284_j11982958756494_3_alg».proof.Proof.Pay
import proofs.«422284_j11982958756494_3_alg».proof.Proof.LibLayerNorm
import Idealize.ShloMosaic.Lib.Pipeline.Value
import Idealize.ShloMosaic.Lib.ValueIdx

set_option maxRecDepth 16384

noncomputable section

open scoped BigOperators

namespace Cert.KernelIdeal.R1V

open Cert.KernelIdeal Cert.KernelIdeal.Gen
open Idealize.ShloMosaic Idealize.ShloMosaic.TcCoe Idealize.ShloMosaic.ValueIdx Idealize.SL.Sem
open Idealize.ShloMosaic.Pipeline (Dat Cfg Window)

section Pieces

variable {F : FTy → Type} [FloatOps F]

theorem hz : (![0, 0] : Fin 2 → Nat) = fun _ => 0 := funext fun a => by fin_cases a <;> rfl

/-- The rows of the feature array a point's accumulate step reads: 5120 of them from the offset the kernel computes. -/
abbrev featRows (i : grid1.Coords) (x1 : Vec F S10240x128 .bf16) : Vec F S5120x128 .bf16 :=
  View.ld x1 (Rect.unit (s := S10240x128) (k1_off1 i) S5120x128.size (k1_off1_inb i))

/-- The rows of the scale column an odd point's epilogue reads: 1000 of them from the offset the kernel computes. -/
abbrev scaleRows (i : grid1.Coords) (h : k1_cond2 i = 1#1) (x2 : Vec F S10000x1 .f32) : Vec F S1000x1 .f32 :=
  View.ld x2 (Rect.unit (s := S10000x1) (k1_off2 i) S1000x1.size (k1_off2_inb i h))

/-- After an even point the accumulator holds the first half-product added to the cleared block. -/
theorem sout_A (c : Dev nD) (i : grid1.Coords) (arg2 : Memref sig .tc .vmem S1000x5120 .bf16) (harg2 : arg2.IsWhole) (arg3 : Memref sig .tc .vmem S10240x128 .bf16) (harg3 : arg3.IsWhole) (arg4 : Memref sig .tc .vmem S10000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1000x128 .f32) (harg8 : arg8.IsWhole) (arg9 : Memref sig .tc .vmem S1000x128 .f32) (harg9 : arg9.IsWhole) (hc0 : R1.cond1_0 i) (hc1 : ¬R1.cond1_1 i) (x0 : Vec F S1000x5120 .bf16) (x1 : Vec F S10240x128 .bf16) (x2 : Vec F S10000x1 .f32) (x3 x4 x5 : Vec F S1x128 .f32) :
    R1.sout1_A (F := F) c i arg2 harg2 arg3 harg3 arg4 harg4 arg5 harg5 arg6 harg6 arg7 harg7 arg8 harg8 arg9 harg9 hc0 hc1 x0 x1 x2 x3 x4 x5 = k1_pay2 (featRows i x1) (k1_pay1 (F := F)) x0 := by
  unfold R1.sout1_A
  rw [View.read_writes_eq_canon _ _ _ (R1.scover1_A c i arg2 harg2 arg3 harg3 arg4 harg4 arg5 harg5 arg6 harg6 arg7 harg7 arg8 harg8 arg9 harg9 hc0 hc1 x0 x1 x2 x3 x4 x5)]
  unfold R1.kernelRun1_A
  dsimp only
  sl_unfold_words
  rw [View.canon_cons_unit_zero (S := S1000x128) hz]
  simp only [View.readAt_eq_ld, harg2.read_unread, harg3.read_unread, View.ld_unit_zero (S := S1000x5120) hz,
    View.readCov_unit_zero (S := S1000x128) _ hz]
  rfl

/-- After an odd point the output block holds the epilogue of the accumulator: the second half-product added to what
    the point before left. -/
theorem out_B (c : Dev nD) (i : grid1.Coords) (arg2 : Memref sig .tc .vmem S1000x5120 .bf16) (harg2 : arg2.IsWhole) (arg3 : Memref sig .tc .vmem S10240x128 .bf16) (harg3 : arg3.IsWhole) (arg4 : Memref sig .tc .vmem S10000x1 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1000x128 .f32) (harg8 : arg8.IsWhole) (arg9 : Memref sig .tc .vmem S1000x128 .f32) (harg9 : arg9.IsWhole) (hc0 : ¬R1.cond1_0 i) (hc1 : R1.cond1_1 i) (x0 : Vec F S1000x5120 .bf16) (x1 : Vec F S10240x128 .bf16) (x2 : Vec F S10000x1 .f32) (x3 x4 x5 : Vec F S1x128 .f32) (xs0 : Vec F S1000x128 .f32) :
    R1.out1_B (F := F) c i arg2 harg2 arg3 harg3 arg4 harg4 arg5 harg5 arg6 harg6 arg7 harg7 arg8 harg8 arg9 harg9 hc0 hc1 x0 x1 x2 x3 x4 x5 xs0
      = k1_pay3 (scaleRows i hc1 x2) (k1_pay2 (featRows i x1) xs0 x0) x3 x4 x5 := by
  unfold R1.out1_B
  rw [View.read_writes_eq_canon _ _ _ (R1.cover1_B c i arg2 harg2 arg3 harg3 arg4 harg4 arg5 harg5 arg6 harg6 arg7 harg7 arg8 harg8 arg9 harg9 hc0 hc1 x0 x1 x2 x3 x4 x5 xs0)]
  unfold R1.kernelRun1_B
  dsimp only
  sl_unfold_words
  rw [View.canon_unit_zero hz]
  simp only [View.readAt_eq_ld, harg2.read_unread, harg3.read_unread, harg4.read_unread, harg5.read_unread,
    harg6.read_unread, harg7.read_unread, harg9.read_unread, View.ld_unit_zero (S := S1000x5120) hz,
    View.ld_unit_zero (S := S1000x128) hz, View.ld_unit_zero (S := S1x128) hz,
    View.readCov_unit_zero (S := S1000x128) _ hz]
  rfl

end Pieces

variable (V : (c : Dev nD) → (b : Ref sig .tc) → Buf (Elt Ideal) ((c : Thread nD τ).loc b))

/-- The arrays the region reads, each at its literal type. -/
abbrev aarr (c : Dev nD) : Vec Ideal S10000x10240 .bf16 := V c main_v32
abbrev harr (c : Dev nD) : Vec Ideal S10240x128 .bf16 := V c main_v34
abbrev sarr (c : Dev nD) : Vec Ideal S10000x1 .f32 := V c main_v15
abbrev barr (c : Dev nD) : Vec Ideal S1x128 .f32 := V c main_v35
abbrev garr (c : Dev nD) : Vec Ideal S1x128 .f32 := V c main_v36
abbrev earr (c : Dev nD) : Vec Ideal S1x128 .f32 := V c main_v37
/-- The array it writes, after the run. -/
abbrev oarr (c : Dev nD) : Vec Ideal S10000x128 .f32 := (R1.dat1 (F := Ideal) V c).arrAt 6 cfg1.N

/-! ## The blocks, at their literal types -/

/-- The count block, the feature array, the scale column and the three rows as point t's windows hold them. -/
abbrev ablk (c : Dev nD) (t : Fin cfg1.N) : Vec Ideal S1000x5120 .bf16 := R1.iblk1 V c 0 t
abbrev hblk (c : Dev nD) (t : Fin cfg1.N) : Vec Ideal S10240x128 .bf16 := R1.iblk1 V c 1 t
abbrev sblk (c : Dev nD) (t : Fin cfg1.N) : Vec Ideal S10000x1 .f32 := R1.iblk1 V c 2 t
abbrev bblk (c : Dev nD) (t : Fin cfg1.N) : Vec Ideal S1x128 .f32 := R1.iblk1 V c 3 t
abbrev gblk (c : Dev nD) (t : Fin cfg1.N) : Vec Ideal S1x128 .f32 := R1.iblk1 V c 4 t
abbrev eblk (c : Dev nD) (t : Fin cfg1.N) : Vec Ideal S1x128 .f32 := R1.iblk1 V c 5 t

/-- The grid has twenty points. -/
theorem tlt (t : Fin cfg1.N) : t.val < 20 := lt_of_lt_of_eq t.isLt N_1

/-- Point t = 2p + k is block row p, block column k; the whole-array windows sit at block (0, 0); the output's block
    row is p; the feature rows start at 5120 k and the scale rows at 1000 p. -/
theorem idx_facts : ∀ t : Fin cfg1.N,
    win1_0.index t (0 : Fin 2) = t.val / 2 ∧ win1_0.index t (1 : Fin 2) = t.val % 2
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val / 2 ∧ win1_6.index t (1 : Fin 2) = 0
    ∧ k1_off1 (grid1.coords t) (0 : Fin 2) = 5120 * (t.val % 2) ∧ k1_off1 (grid1.coords t) (1 : Fin 2) = 0
    ∧ k1_off2 (grid1.coords t) (0 : Fin 2) = 1000 * (t.val / 2) ∧ k1_off2 (grid1.coords t) (1 : Fin 2) = 0 :=
  (by decide +kernel : ∀ t : Fin grid1.N, _)

/-- The count block at (r, j) is the count array at block row's row r, block column's column j. -/
theorem ablk_at (c : Dev nD) (t : Fin cfg1.N) (r : Fin 1000) (j : Fin 5120) (R : Fin 10000) (J : Fin 10240)
    (hR : R.val = 1000 * (t.val / 2) + r.val) (hJ : J.val = 5120 * (t.val % 2) + j.val) :
    (ablk V c t (ix2 r j) : EReal) = (aarr V c (ix2 R J) : EReal) := by
  obtain ⟨e0, e1, -⟩ := idx_facts t
  show R1.iblk1 V c 0 t (ix2 r j) = V c main_v32 (ix2 R J)
  unfold R1.iblk1
  rw [View.read_apply]
  show V c main_v32 _ = V c main_v32 _
  congr 1
  funext a
  apply Fin.ext
  match a with
  | ⟨0, _⟩ => show win1_0.index t (0 : Fin 2) * 1000 + 1 * r.val = R.val; omega
  | ⟨1, _⟩ => show win1_0.index t (1 : Fin 2) * 5120 + 1 * j.val = J.val; omega

/-- The feature window holds the whole feature array. -/
theorem hblk_at (c : Dev nD) (t : Fin cfg1.N) (a : Fin 10240) (k : Fin 128) :
    (hblk V c t (ix2 a k) : EReal) = (harr V c (ix2 a k) : EReal) := by
  obtain ⟨-, -, e0, e1, -⟩ := idx_facts t
  show R1.iblk1 V c 1 t (ix2 a k) = V c main_v34 (ix2 a k)
  unfold R1.iblk1
  rw [View.read_apply]
  show V c main_v34 _ = V c main_v34 _
  congr 1
  funext b
  apply Fin.ext
  match b with
  | ⟨0, _⟩ => show win1_1.index t (0 : Fin 2) * 10240 + 1 * a.val = a.val; omega
  | ⟨1, _⟩ => show win1_1.index t (1 : Fin 2) * 128 + 1 * k.val = k.val; omega

/-- The rows the accumulate step reads at point t are rows 5120 (t mod 2) + j of the feature array. -/
theorem feat_at (c : Dev nD) (t : Fin cfg1.N) (j : Fin 5120) (k : Fin 128) (J : Fin 10240)
    (hJ : J.val = 5120 * (t.val % 2) + j.val) :
    (featRows (grid1.coords t) (hblk V c t) (ix2 j k) : EReal) = (harr V c (ix2 J k) : EReal) := by
  obtain ⟨-, -, -, -, -, -, -, -, -, -, -, -, -, -, o0, o1, -⟩ := idx_facts t
  refine Eq.trans ?_ (hblk_at V c t J k)
  show hblk V c t ((Rect.unit (s := S10240x128) (k1_off1 (grid1.coords t)) S5120x128.size (k1_off1_inb (grid1.coords t))).idx (ix2 j k))
    = hblk V c t (ix2 J k)
  congr 1
  funext b
  apply Fin.ext
  match b with
  | ⟨0, _⟩ => show k1_off1 (grid1.coords t) (0 : Fin 2) + 1 * j.val = J.val; omega
  | ⟨1, _⟩ => show k1_off1 (grid1.coords t) (1 : Fin 2) + 1 * k.val = k.val; omega

/-- The scale window holds the whole scale column. -/
theorem sblk_at (c : Dev nD) (t : Fin cfg1.N) (a : Fin 10000) :
    (sblk V c t (ix2 a (0 : Fin 1)) : EReal) = (sarr V c (ix2 a (0 : Fin 1)) : EReal) := by
  obtain ⟨-, -, -, -, e0, e1, -⟩ := idx_facts t
  show R1.iblk1 V c 2 t (ix2 a (0 : Fin 1)) = V c main_v15 (ix2 a (0 : Fin 1))
  unfold R1.iblk1
  rw [View.read_apply]
  show V c main_v15 _ = V c main_v15 _
  congr 1
  funext b
  apply Fin.ext
  match b with
  | ⟨0, _⟩ => show win1_2.index t (0 : Fin 2) * 10000 + 1 * a.val = a.val; omega
  | ⟨1, _⟩ => show win1_2.index t (1 : Fin 2) * 1 + 1 * 0 = 0; omega

/-- The rows the epilogue reads at point t are rows 1000 (t div 2) + r of the scale column. -/
theorem srow_at (c : Dev nD) (t : Fin cfg1.N) (h : k1_cond2 (grid1.coords t) = 1#1) (r : Fin 1000) (R : Fin 10000)
    (hR : R.val = 1000 * (t.val / 2) + r.val) :
    (scaleRows (grid1.coords t) h (sblk V c t) (ix2 r (0 : Fin 1)) : EReal) = (sarr V c (ix2 R (0 : Fin 1)) : EReal) := by
  obtain ⟨-, -, -, -, -, -, -, -, -, -, -, -, -, -, -, -, o0, o1⟩ := idx_facts t
  refine Eq.trans ?_ (sblk_at V c t R)
  show sblk V c t ((Rect.unit (s := S10000x1) (k1_off2 (grid1.coords t)) S1000x1.size (k1_off2_inb (grid1.coords t) h)).idx (ix2 r (0 : Fin 1)))
    = sblk V c t (ix2 R (0 : Fin 1))
  congr 1
  funext b
  apply Fin.ext
  match b with
  | ⟨0, _⟩ => show k1_off2 (grid1.coords t) (0 : Fin 2) + 1 * r.val = R.val; omega
  | ⟨1, _⟩ => show k1_off2 (grid1.coords t) (1 : Fin 2) + 1 * 0 = 0; omega

/-- The three row windows hold the bias, scale and shift rows. -/
theorem bblk_at (c : Dev nD) (t : Fin cfg1.N) (k : Fin 128) :
    (bblk V c t (ix2 (0 : Fin 1) k) : EReal) = (barr V c (ix2 (0 : Fin 1) k) : EReal) := by
  obtain ⟨-, -, -, -, -, -, e0, e1, -⟩ := idx_facts t
  show R1.iblk1 V c 3 t (ix2 (0 : Fin 1) k) = V c main_v35 (ix2 (0 : Fin 1) k)
  unfold R1.iblk1
  rw [View.read_apply]
  show V c main_v35 _ = V c main_v35 _
  congr 1
  funext b
  apply Fin.ext
  match b with
  | ⟨0, _⟩ => show win1_3.index t (0 : Fin 2) * 1 + 1 * 0 = 0; omega
  | ⟨1, _⟩ => show win1_3.index t (1 : Fin 2) * 128 + 1 * k.val = k.val; omega

theorem gblk_at (c : Dev nD) (t : Fin cfg1.N) (k : Fin 128) :
    (gblk V c t (ix2 (0 : Fin 1) k) : EReal) = (garr V c (ix2 (0 : Fin 1) k) : EReal) := by
  obtain ⟨-, -, -, -, -, -, -, -, e0, e1, -⟩ := idx_facts t
  show R1.iblk1 V c 4 t (ix2 (0 : Fin 1) k) = V c main_v36 (ix2 (0 : Fin 1) k)
  unfold R1.iblk1
  rw [View.read_apply]
  show V c main_v36 _ = V c main_v36 _
  congr 1
  funext b
  apply Fin.ext
  match b with
  | ⟨0, _⟩ => show win1_4.index t (0 : Fin 2) * 1 + 1 * 0 = 0; omega
  | ⟨1, _⟩ => show win1_4.index t (1 : Fin 2) * 128 + 1 * k.val = k.val; omega

theorem eblk_at (c : Dev nD) (t : Fin cfg1.N) (k : Fin 128) :
    (eblk V c t (ix2 (0 : Fin 1) k) : EReal) = (earr V c (ix2 (0 : Fin 1) k) : EReal) := by
  obtain ⟨-, -, -, -, -, -, -, -, -, -, e0, e1, -⟩ := idx_facts t
  show R1.iblk1 V c 5 t (ix2 (0 : Fin 1) k) = V c main_v37 (ix2 (0 : Fin 1) k)
  unfold R1.iblk1
  rw [View.read_apply]
  show V c main_v37 _ = V c main_v37 _
  congr 1
  funext b
  apply Fin.ext
  match b with
  | ⟨0, _⟩ => show win1_5.index t (0 : Fin 2) * 1 + 1 * 0 = 0; omega
  | ⟨1, _⟩ => show win1_5.index t (1 : Fin 2) * 128 + 1 * k.val = k.val; omega

/-! ## The accumulator and the output block, point by point -/

/-- After the even point n the accumulator is that point's half-product added to the cleared block. -/
theorem scAt_eq (c : Dev nD) (n : ℕ) (hn : n < cfg1.N) (h0 : n % 2 = 0) :
    R1.scAt V c n hn h0
      = k1_pay2 (featRows (grid1.coords ⟨n, hn⟩) (hblk V c ⟨n, hn⟩)) (k1_pay1 (F := Ideal)) (ablk V c ⟨n, hn⟩) := by
  unfold R1.scAt
  exact sout_A (F := Ideal) c (grid1.coords ⟨n, hn⟩) (R1.ms1_0 ⟨n, hn⟩) (R1.hs1_0 ⟨n, hn⟩) (R1.ms1_1 ⟨n, hn⟩) (R1.hs1_1 ⟨n, hn⟩) (R1.ms1_2 ⟨n, hn⟩) (R1.hs1_2 ⟨n, hn⟩) (R1.ms1_3 ⟨n, hn⟩) (R1.hs1_3 ⟨n, hn⟩) (R1.ms1_4 ⟨n, hn⟩) (R1.hs1_4 ⟨n, hn⟩) (R1.ms1_5 ⟨n, hn⟩) (R1.hs1_5 ⟨n, hn⟩) (R1.ms1_6 ⟨n, hn⟩) (R1.hs1_6 ⟨n, hn⟩) R1.scM1 (Memref.isWhole_whole _) _ _
    (ablk V c ⟨n, hn⟩) (hblk V c ⟨n, hn⟩) (sblk V c ⟨n, hn⟩) (bblk V c ⟨n, hn⟩) (gblk V c ⟨n, hn⟩) (eblk V c ⟨n, hn⟩)

/-- After the odd point t the output block is the epilogue of: that point's half-product added to what the even point
    before left. -/
theorem outAt_odd (c : Dev nD) (t : Fin cfg1.N) (h1 : t.val % 2 = 1) :
    R1.outAt V c t
      = k1_pay3 (scaleRows (grid1.coords t) ((R1.hcond1_1 t).mpr h1) (sblk V c t))
          (k1_pay2 (featRows (grid1.coords t) (hblk V c t))
            (R1.scAt V c (t.val - 1) (Nat.lt_of_le_of_lt (Nat.sub_le _ _) t.isLt) (by omega)) (ablk V c t))
          (bblk V c t) (gblk V c t) (eblk V c t) := by
  unfold R1.outAt
  rw [dif_pos h1]
  exact out_B (F := Ideal) c (grid1.coords t) (R1.ms1_0 t) (R1.hs1_0 t) (R1.ms1_1 t) (R1.hs1_1 t) (R1.ms1_2 t) (R1.hs1_2 t) (R1.ms1_3 t) (R1.hs1_3 t) (R1.ms1_4 t) (R1.hs1_4 t) (R1.ms1_5 t) (R1.hs1_5 t) (R1.ms1_6 t) (R1.hs1_6 t) R1.scM1 (Memref.isWhole_whole _) _ _
    (ablk V c t) (hblk V c t) (sblk V c t) (bblk V c t) (gblk V c t) (eblk V c t) _

/-! ## The array function -/

/-- Row i, feature q of what the region leaves: the layer normalisation of the aggregated, scaled, shifted row. -/
def Grow (c : Dev nD) (i : Fin 10000) (q : Fin 128) : EReal :=
  Cert.LibLayerNorm.layerNorm (Ideal.ofBits .f32 0x43000000#32) (Ideal.ofBits .f32 0x3727C5AC#32)
          (fun k => (((0 : EReal)
                + ∑ j : Fin 5120, (aarr V c (ix2 i (⟨j.val, by omega⟩ : Fin 10240)) : EReal)
                    * (harr V c (ix2 (⟨j.val, by omega⟩ : Fin 10240) k) : EReal))
              + ∑ j : Fin 5120, (aarr V c (ix2 i (⟨5120 + j.val, by omega⟩ : Fin 10240)) : EReal)
                    * (harr V c (ix2 (⟨5120 + j.val, by omega⟩ : Fin 10240) k) : EReal))
            * (sarr V c (ix2 i (0 : Fin 1)) : EReal) + (barr V c (ix2 (0 : Fin 1) k) : EReal))
          (fun k => (garr V c (ix2 (0 : Fin 1) k) : EReal)) (fun k => (earr V c (ix2 (0 : Fin 1) k) : EReal)) q

/-- The whole array, index by index. -/
def G (c : Dev nD) : Vec Ideal S10000x128 .f32 := fun y => Grow V c (y 0) (y 1)

/-- Layer normalisation respects pointwise equality of its three rows. -/
theorem layerNorm_congr {n : ℕ} (N ε : EReal) {v v' g g' b b' : Fin n → EReal} (hv : ∀ k, v k = v' k)
    (hg : ∀ k, g k = g' k) (hb : ∀ k, b k = b' k) (o : Fin n) :
    Cert.LibLayerNorm.layerNorm N ε v g b o = Cert.LibLayerNorm.layerNorm N ε v' g' b' o := by
  rw [funext hv, funext hg, funext hb]

/-- The output block after the odd point t, at (r, q), is the array function at row 1000 (t div 2) + r: the even point
    before contributed columns [0, 5120), this point columns [5120, 10240). -/
theorem outAt_row (c : Dev nD) (t : Fin cfg1.N) (h1 : t.val % 2 = 1) (r : Fin 1000) (q : Fin 128) (R : Fin 10000)
    (hR : R.val = 1000 * (t.val / 2) + r.val) :
    (R1.outAt V c t (ix2 r q) : EReal) = Grow V c R q := by
  have hn : t.val - 1 < cfg1.N := Nat.lt_of_le_of_lt (Nat.sub_le _ _) t.isLt
  have h0 : (t.val - 1) % 2 = 0 := by omega
  rw [outAt_odd V c t h1]
  refine (Pay.pay3_apply _ _ _ _ _ r q).trans ?_
  unfold Grow
  refine layerNorm_congr _ _ (fun k => ?_) (fun k => gblk_at V c t k) (fun k => eblk_at V c t k) q
  rw [Pay.pay2_apply, scAt_eq V c (t.val - 1) hn h0, Pay.pay2_apply, Pay.pay1_apply, srow_at V c t _ r R hR, bblk_at V c t k]
  have s0 : (∑ j : Fin 5120, (ablk V c ⟨t.val - 1, hn⟩ (ix2 r j) : EReal)
        * (featRows (grid1.coords ⟨t.val - 1, hn⟩) (hblk V c ⟨t.val - 1, hn⟩) (ix2 j k) : EReal))
      = ∑ j : Fin 5120, (aarr V c (ix2 R (⟨j.val, by omega⟩ : Fin 10240)) : EReal)
          * (harr V c (ix2 (⟨j.val, by omega⟩ : Fin 10240) k) : EReal) :=
    Finset.sum_congr rfl fun j _ => by
      rw [ablk_at V c ⟨t.val - 1, hn⟩ r j R ⟨j.val, by omega⟩ (by show R.val = 1000 * ((t.val - 1) / 2) + r.val; omega)
          (by show j.val = 5120 * ((t.val - 1) % 2) + j.val; omega),
        feat_at V c ⟨t.val - 1, hn⟩ j k ⟨j.val, by omega⟩ (by show j.val = 5120 * ((t.val - 1) % 2) + j.val; omega)]
  have s1 : (∑ j : Fin 5120, (ablk V c t (ix2 r j) : EReal) * (featRows (grid1.coords t) (hblk V c t) (ix2 j k) : EReal))
      = ∑ j : Fin 5120, (aarr V c (ix2 R (⟨5120 + j.val, by omega⟩ : Fin 10240)) : EReal)
          * (harr V c (ix2 (⟨5120 + j.val, by omega⟩ : Fin 10240) k) : EReal) :=
    Finset.sum_congr rfl fun j _ => by
      rw [ablk_at V c t r j R ⟨5120 + j.val, by omega⟩ hR (by show 5120 + j.val = 5120 * (t.val % 2) + j.val; omega),
        feat_at V c t j k ⟨5120 + j.val, by omega⟩ (by show 5120 + j.val = 5120 * (t.val % 2) + j.val; omega)]
  rw [s0, s1]

/-! ## From the blocks to the array -/

/-- What an odd point writes back is its block of the array function. -/
theorem flushed_eq (c : Dev nD) (t : Fin cfg1.N) (hf : (cfg1.win 6).flush t = true) :
    (R1.dat1 V c).flushed 6 t = ((cfg1.win 6).blk t).view.read (Elt Ideal) (G V c) := by
  have h1 : t.val % 2 = 1 := (flush1_6 t).mp hf
  obtain ⟨-, -, -, -, -, -, -, -, -, -, -, -, e0, e1, -⟩ := idx_facts t
  have ht := tlt t
  show (cfg1.win 6).cut (grid1.coords t) ((R1.dat1 V c).after 6 t) = _
  rw [R1.after1_6]
  funext y
  obtain ⟨r, q, rfl⟩ : ∃ (r : Fin 1000) (q : Fin 128), y = ix2 r q := ⟨y 0, y 1, eq_ix2 y⟩
  rw [View.read_apply]
  have hemb : ((cfg1.win 6).blk t).view.emb (ix2 r q)
      = (ix2 (⟨1000 * (t.val / 2) + r.val, by omega⟩ : Fin 10000) q : S10000x128.Idx) := by
    funext a
    apply Fin.ext
    match a with
    | ⟨0, _⟩ => show win1_6.index t (0 : Fin 2) * 1000 + 1 * r.val = 1000 * (t.val / 2) + r.val; omega
    | ⟨1, _⟩ => show win1_6.index t (1 : Fin 2) * 128 + 1 * q.val = q.val; omega
  rw [hemb]
  exact outAt_row V c t h1 r q _ rfl

/-- An index of the array is in point t's block iff each coordinate is in the block's range on its axis. -/
theorem mem_blk (t : Fin cfg1.N) (i : S10000x128.Idx) :
    i ∈ ((cfg1.win 6).blk t).view.set ↔ ∀ a : Fin 2, win1_6.index t a * S1000x128.size a ≤ (i a).val
      ∧ (i a).val < win1_6.index t a * S1000x128.size a + S1000x128.size a := by
  show i ∈ ((View.whole main_v38).slice (win1_6.rect t)).set ↔ _
  rw [View.set_slice_whole, Rect.mem_set_unit]
  exact Iff.rfl

/-- Row ρ is written back by the odd point 2 (ρ div 1000) + 1: the ten written blocks tile the array. -/
theorem cover (i : S10000x128.Idx) :
    ∃ t : Fin cfg1.N, (cfg1.win 6).flush t = true ∧ i ∈ ((cfg1.win 6).blk t).view.set := by
  have hi0 : (i 0).val < 10000 := (i 0).isLt
  have hi1 : (i 1).val < 128 := (i 1).isLt
  have hN : cfg1.N = 20 := N_1
  obtain ⟨t, ht⟩ : ∃ t : Fin cfg1.N, t.val = 2 * ((i 0).val / 1000) + 1 := ⟨⟨_, by rw [hN]; omega⟩, rfl⟩
  obtain ⟨-, -, -, -, -, -, -, -, -, -, -, -, e0, e1, -⟩ := idx_facts t
  refine ⟨t, (flush1_6 t).mpr (by omega), ?_⟩
  rw [mem_blk]
  intro a
  match a with
  | ⟨0, _⟩ =>
    show win1_6.index t (0 : Fin 2) * 1000 ≤ (i 0).val ∧ (i 0).val < win1_6.index t (0 : Fin 2) * 1000 + 1000
    omega
  | ⟨1, _⟩ =>
    show win1_6.index t (1 : Fin 2) * 128 ≤ (i 1).val ∧ (i 1).val < win1_6.index t (1 : Fin 2) * 128 + 128
    omega

/-- The output array after the run is the array function. -/
theorem final (c : Dev nD) : oarr V c = G V c :=
  (R1.dat1 V c).arrAt_eq_of_cover 6 (G V c) (fun t hf => flushed_eq V c t hf) cover

/-- The second region's output array after the run, at (i, q). -/
theorem arr1 (c : Dev nD) (i : Fin 10000) (q : Fin 128) :
    (oarr V c (ix2 i q) : EReal)
      = Cert.LibLayerNorm.layerNorm (Ideal.ofBits .f32 0x43000000#32) (Ideal.ofBits .f32 0x3727C5AC#32)
          (fun k => (((0 : EReal)
                + ∑ j : Fin 5120, (aarr V c (ix2 i (⟨j.val, by omega⟩ : Fin 10240)) : EReal)
                    * (harr V c (ix2 (⟨j.val, by omega⟩ : Fin 10240) k) : EReal))
              + ∑ j : Fin 5120, (aarr V c (ix2 i (⟨5120 + j.val, by omega⟩ : Fin 10240)) : EReal)
                    * (harr V c (ix2 (⟨5120 + j.val, by omega⟩ : Fin 10240) k) : EReal))
            * (sarr V c (ix2 i (0 : Fin 1)) : EReal) + (barr V c (ix2 (0 : Fin 1) k) : EReal))
          (fun k => (garr V c (ix2 (0 : Fin 1) k) : EReal)) (fun k => (earr V c (ix2 (0 : Fin 1) k) : EReal)) q := by
  refine (congrFun (final V c) (ix2 i q)).trans ?_
  show Grow V c i q = _
  unfold Grow
  rfl

end Cert.KernelIdeal.R1V

end
-- ==== Proof.Spec.lean ====
/-
  The mathematics of the certificate, with no program in sight.

  A graph on 10000 nodes is given by 650000 (source word, destination word) pairs. With dv the inverse square roots of the
  in-degrees and h the transformed features, the normalised aggregation at node i, feature d, is
      Σ_{e : dst e = i} h[src e, d] · (dv[src e] · dv[dst e])  +  b[d]                                  (aggRef)
  — one term per edge. The same number is obtained from the matrix of edge counts cnt[i, j] = #{e : dst e = i, src e = j}
  over 10240 columns (the last 240 never hit) against the rows h[j, ·]·dv[j] padded by zero rows, summed in two halves of
  5120 columns, and scaled by dv[i] at the end:
      ((0 + Σ_{k<5120} cnt[i,k]·hp[k,d]) + Σ_{k<5120} cnt[i,5120+k]·hp[5120+k,d]) · dv[i]  +  b[d]        (aggKer)
  The two agree when every word is a node and dv, h are real: regroup the edges by their source, and take dv[i] out of
  the sum (distributivity, which needs the finiteness).
-/
import Mathlib.Data.EReal.Basic
import Mathlib.Algebra.BigOperators.Fin
import Mathlib.Data.BitVec

noncomputable section

open scoped BigOperators

namespace Cert.Spec

/-- Every word, read signed, names a node. -/
def InRange (w : Fin 650000 → BitVec 32) : Prop := ∀ e, 0 ≤ (w e).toInt ∧ (w e).toInt < 10000

/-- The node a word names, read signed and clamped into the node range (the identity on words in range). -/
def node (w : Fin 650000 → BitVec 32) (e : Fin 650000) : Fin 10000 := ⟨min (w e).toInt.toNat 9999, by omega⟩

/-- The aggregation, one term per edge. -/
def aggRef (sw dw : Fin 650000 → BitVec 32) (dv : Fin 10000 → EReal) (h : Fin 10000 → Fin 128 → EReal)
    (b : Fin 128 → EReal) (i : Fin 10000) (d : Fin 128) : EReal :=
  (0 + ∑ e : Fin 650000, if (dw e).toInt = (i.val : ℤ) then h (node sw e) d * (dv (node sw e) * dv (node dw e)) else 0) + b d

/-- The number of edges from column j into row i, as an extended real. -/
def cnt (sw dw : Fin 650000 → BitVec 32) (i : Fin 10000) (j : Fin 10240) : EReal :=
  (((Finset.univ.filter fun e : Fin 650000 => (dw e).toInt = (i.val : ℤ) ∧ (sw e).toInt = (j.val : ℤ)).card : ℝ) : EReal)

/-- The scaled features, padded by zero rows up to 10240. -/
def hpad (dv : Fin 10000 → EReal) (h : Fin 10000 → Fin 128 → EReal) (j : Fin 10240) (d : Fin 128) : EReal :=
  if hj : j.val < 10000 then h ⟨j.val, hj⟩ d * dv ⟨j.val, hj⟩ else 0

/-- The aggregation through the count matrix, in two halves. -/
def aggKer (sw dw : Fin 650000 → BitVec 32) (dv : Fin 10000 → EReal) (h : Fin 10000 → Fin 128 → EReal)
    (b : Fin 128 → EReal) (i : Fin 10000) (d : Fin 128) : EReal :=
  ((0 + ∑ k : Fin 5120, cnt sw dw i ⟨k.val, by omega⟩ * hpad dv h ⟨k.val, by omega⟩ d)
    + ∑ k : Fin 5120, cnt sw dw i ⟨5120 + k.val, by omega⟩ * hpad dv h ⟨5120 + k.val, by omega⟩ d) * dv i + b d

/-- The real coercion commutes with finite sums. -/
theorem coe_finset_sum {ι : Type*} (s : Finset ι) (f : ι → ℝ) :
    ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- A word in range names the node whose value is the word. -/
theorem node_val (w : Fin 650000 → BitVec 32) (hw : InRange w) (e : Fin 650000) :
    (((node w e).val : ℕ) : ℤ) = (w e).toInt := by
  have h := hw e
  show ((min (w e).toInt.toNat 9999 : ℕ) : ℤ) = (w e).toInt
  omega

/-- A word in range equals i exactly when its node is i. -/
theorem node_eq_of (w : Fin 650000 → BitVec 32) (hw : InRange w) (e : Fin 650000) (i : Fin 10000)
    (h : (w e).toInt = (i.val : ℤ)) : node w e = i := by
  apply Fin.ext
  have := node_val w hw e
  omega

/-- A sum over 10240 columns is the sum of its two halves. -/
theorem sum_halves (F : Fin 10240 → ℝ) :
    (∑ k : Fin 5120, F ⟨k.val, by omega⟩) + ∑ k : Fin 5120, F ⟨5120 + k.val, by omega⟩ = ∑ j : Fin 10240, F j := by
  have h := Fin.sum_univ_add (M := ℝ) (a := 5120) (b := 5120) (fun j : Fin (5120 + 5120) => F j)
  exact h.symm

/-- The count of edges from j into i, as a real. -/
def cntR (sw dw : Fin 650000 → BitVec 32) (i : Fin 10000) (j : Fin 10240) : ℝ :=
  ((Finset.univ.filter fun e : Fin 650000 => (dw e).toInt = (i.val : ℤ) ∧ (sw e).toInt = (j.val : ℤ)).card : ℝ)

/-- The padded scaled features, as reals. -/
def hpadR (dv : Fin 10000 → ℝ) (h : Fin 10000 → Fin 128 → ℝ) (j : Fin 10240) (d : Fin 128) : ℝ :=
  if hj : j.val < 10000 then h ⟨j.val, hj⟩ d * dv ⟨j.val, hj⟩ else 0

theorem hpad_coe (dv : Fin 10000 → ℝ) (h : Fin 10000 → Fin 128 → ℝ) (j : Fin 10240) (d : Fin 128) :
    hpad (fun i => (dv i : EReal)) (fun i d => (h i d : EReal)) j d = ((hpadR dv h j d : ℝ) : EReal) := by
  unfold hpad hpadR
  by_cases hj : j.val < 10000
  · rw [dif_pos hj, dif_pos hj, EReal.coe_mul]
  · rw [dif_neg hj, dif_neg hj, EReal.coe_zero]

/-- One edge's contribution to the count-matrix product: only the column of its source survives. -/
theorem edge_term (sw dw : Fin 650000 → BitVec 32) (hs : InRange sw) (dv : Fin 10000 → ℝ) (h : Fin 10000 → Fin 128 → ℝ)
    (i : Fin 10000) (d : Fin 128) (e : Fin 650000) :
    (∑ j : Fin 10240, (if (dw e).toInt = (i.val : ℤ) ∧ (sw e).toInt = (j.val : ℤ) then (1 : ℝ) else 0) * hpadR dv h j d)
      = if (dw e).toInt = (i.val : ℤ) then h (node sw e) d * dv (node sw e) else 0 := by
  have hv := node_val sw hs e
  by_cases hc : (dw e).toInt = (i.val : ℤ)
  · rw [if_pos hc]
    have hlt : (node sw e).val < 10240 := by have := (node sw e).isLt; omega
    rw [Finset.sum_eq_single (⟨(node sw e).val, hlt⟩ : Fin 10240)]
    · have h1 : (dw e).toInt = (i.val : ℤ) ∧ (sw e).toInt = (((⟨(node sw e).val, hlt⟩ : Fin 10240).val : ℕ) : ℤ) :=
        ⟨hc, hv.symm⟩
      rw [if_pos h1, one_mul]
      unfold hpadR
      rw [dif_pos (node sw e).isLt]
    · intro j _ hj
      have h2 : ¬ ((dw e).toInt = (i.val : ℤ) ∧ (sw e).toInt = (j.val : ℤ)) := by
        rintro ⟨_, h3⟩
        apply hj
        apply Fin.ext
        show j.val = (node sw e).val
        omega
      rw [if_neg h2, zero_mul]
    · intro hn
      exact absurd (Finset.mem_univ _) hn
  · rw [if_neg hc]
    apply Finset.sum_eq_zero
    intro j _
    have h2 : ¬ ((dw e).toInt = (i.val : ℤ) ∧ (sw e).toInt = (j.val : ℤ)) := fun h3 => hc h3.1
    rw [if_neg h2, zero_mul]

/-- The count-matrix product against the padded features regroups the edges by their source. -/
theorem cnt_sum (sw dw : Fin 650000 → BitVec 32) (hs : InRange sw) (dv : Fin 10000 → ℝ) (h : Fin 10000 → Fin 128 → ℝ)
    (i : Fin 10000) (d : Fin 128) :
    (∑ j : Fin 10240, cntR sw dw i j * hpadR dv h j d)
      = ∑ e : Fin 650000, if (dw e).toInt = (i.val : ℤ) then h (node sw e) d * dv (node sw e) else 0 := by
  have hc : ∀ j : Fin 10240, cntR sw dw i j
      = ∑ e : Fin 650000, if (dw e).toInt = (i.val : ℤ) ∧ (sw e).toInt = (j.val : ℤ) then (1 : ℝ) else 0 := by
    intro j
    unfold cntR
    rw [Finset.sum_boole]
  calc (∑ j : Fin 10240, cntR sw dw i j * hpadR dv h j d)
      = ∑ j : Fin 10240, ∑ e : Fin 650000,
          (if (dw e).toInt = (i.val : ℤ) ∧ (sw e).toInt = (j.val : ℤ) then (1 : ℝ) else 0) * hpadR dv h j d := by
        apply Finset.sum_congr rfl
        intro j _
        rw [hc j, Finset.sum_mul]
    _ = ∑ e : Fin 650000, ∑ j : Fin 10240,
          (if (dw e).toInt = (i.val : ℤ) ∧ (sw e).toInt = (j.val : ℤ) then (1 : ℝ) else 0) * hpadR dv h j d :=
        Finset.sum_comm
    _ = _ := by
        apply Finset.sum_congr rfl
        intro e _
        exact edge_term sw dw hs dv h i d e

/-- The identity in the reals: the two half-sums, scaled by dv i, give one term per edge into i. -/
theorem agg_real (sw dw : Fin 650000 → BitVec 32) (hs : InRange sw) (hd : InRange dw) (dv : Fin 10000 → ℝ)
    (h : Fin 10000 → Fin 128 → ℝ) (i : Fin 10000) (d : Fin 128) :
    ((∑ k : Fin 5120, cntR sw dw i ⟨k.val, by omega⟩ * hpadR dv h ⟨k.val, by omega⟩ d)
      + ∑ k : Fin 5120, cntR sw dw i ⟨5120 + k.val, by omega⟩ * hpadR dv h ⟨5120 + k.val, by omega⟩ d) * dv i
    = ∑ e : Fin 650000, if (dw e).toInt = (i.val : ℤ) then h (node sw e) d * (dv (node sw e) * dv (node dw e)) else 0 := by
  have e1 : ((∑ k : Fin 5120, cntR sw dw i ⟨k.val, by omega⟩ * hpadR dv h ⟨k.val, by omega⟩ d)
      + ∑ k : Fin 5120, cntR sw dw i ⟨5120 + k.val, by omega⟩ * hpadR dv h ⟨5120 + k.val, by omega⟩ d)
      = ∑ j : Fin 10240, cntR sw dw i j * hpadR dv h j d :=
    sum_halves (fun j => cntR sw dw i j * hpadR dv h j d)
  rw [e1, cnt_sum sw dw hs dv h i d, Finset.sum_mul]
  apply Finset.sum_congr rfl
  intro e _
  by_cases hc : (dw e).toInt = (i.val : ℤ)
  · rw [if_pos hc, if_pos hc, node_eq_of dw hd e i hc]
    ring
  · rw [if_neg hc, if_neg hc, zero_mul]

/-- The real coercion passes through a conditional with zero alternative. -/
theorem coe_ite_zero (c : Prop) [Decidable c] (a : ℝ) :
    (((if c then a else 0 : ℝ)) : EReal) = if c then (a : EReal) else 0 := by
  by_cases hc : c
  · rw [if_pos hc, if_pos hc]
  · rw [if_neg hc, if_neg hc, EReal.coe_zero]

/-- The two spellings agree on graphs whose words are nodes, with real weights and features. -/
theorem agg_eq (sw dw : Fin 650000 → BitVec 32) (dv : Fin 10000 → EReal) (h : Fin 10000 → Fin 128 → EReal)
    (b : Fin 128 → EReal) (hs : InRange sw) (hd : InRange dw) (hdv : ∀ i, ∃ r : ℝ, dv i = (r : EReal))
    (hh : ∀ i d, ∃ r : ℝ, h i d = (r : EReal)) (i : Fin 10000) (d : Fin 128) :
    aggKer sw dw dv h b i d = aggRef sw dw dv h b i d := by
  choose dvr hdvr using hdv
  choose hr hhr using hh
  obtain rfl : dv = fun i => (dvr i : EReal) := funext hdvr
  obtain rfl : h = fun i d => (hr i d : EReal) := funext fun i => funext fun d => hhr i d
  unfold aggKer aggRef
  refine congrArg (· + b d) ?_
  have key := congrArg (fun x : ℝ => (x : EReal)) (agg_real sw dw hs hd dvr hr i d)
  simp only [EReal.coe_mul, EReal.coe_add, coe_finset_sum, coe_ite_zero] at key
  have hk : ∀ j : Fin 10240, cnt sw dw i j = ((cntR sw dw i j : ℝ) : EReal) := fun _ => rfl
  simp only [hk, hpad_coe, zero_add]
  exact key

end Cert.Spec

end
-- ==== Proof.Names.lean ====
/-
  Names for the four quantities both programs compute alike, as functions of the arguments: the source and destination
  words of the 650000 edges (the 640000 given ones followed by one self loop per node), the inverse square roots of the
  in-degrees, and the transformed features x · W. They are the reference's own stages, read at an index.
-/
import proofs.«422284_j11982958756494_3_alg».proof.Proof.RefRead
import proofs.«422284_j11982958756494_3_alg».proof.Proof.Spec

noncomputable section

namespace Cert.Names

open Idealize.ShloMosaic Idealize.ShloMosaic.ValueIdx Cert.ReferenceIdeal

/-- The source word of edge e. -/
def SW (ei : IVec S2x640000 32) (e : Fin 650000) : BitVec 32 := PRead.val_main_v3 (F := Ideal) ei (ix1 e)
/-- The destination word of edge e. -/
def DW (ei : IVec S2x640000 32) (e : Fin 650000) : BitVec 32 := PRead.val_main_v6 (F := Ideal) ei (ix1 e)
/-- The inverse square root of node i's in-degree (0 for a node of degree 0). -/
def DV (ei : IVec S2x640000 32) (i : Fin 10000) : EReal := PRead.val_main_v14 (F := Ideal) ei (ix1 i)
/-- Feature d of node i after the linear map. -/
def H (x : FVec Ideal S10000x128 .f32) (W : FVec Ideal S128x128 .f32) (i : Fin 10000) (d : Fin 128) : EReal :=
  PRead.val_main_v30 (F := Ideal) x W (ix2 i d)

end Cert.Names

end
-- ==== Proof.LibScatterGather.lean ====
/-
  Reading an accumulating scatter and a row gather at one element, at the ideal instance.

  `scatterAdd_vec_apply`: a vector of `M` updates added into a vector of length `N` at the positions a column of `M` words
  names: element `i` of the result is the operand's element plus the sum of the updates whose word, read as a signed
  integer, is `i` (a word outside `[0, N)` contributes nowhere).
  `scatterAdd_rows_apply`: the same for `M` rows of width `C` added into an `N × C` array: row `i`, column `j` collects
  column `j` of the update rows whose word is `i`.
  `gather_rows_apply`: row `e` of a gather of `M` rows out of an `N × C` array is the array's row at word `e`, read signed
  and clamped into `[0, N - 1]`.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibScatterGather

open Idealize.ShloMosaic Idealize.ShloMosaic.ValueIdx

/-! ## A vector of updates added into a vector -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The vector scatter's dimension numbers: no window axes, the operand's one axis inserted and scatter-indexed, the
    index vector on axis 1 of the column of words. -/
abbrev vecDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update `j` lands on the operand's axis at its word read signed: the start is the word at row `j` of the column, the
    window coordinate is zero (the axis is inserted). -/
theorem vec_landing {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (a : Fin 1) :
    (vecDims N M wf).start j idx a + ((vecDims N M wf).window j a : ℤ) = (idx (ix2 (j 0) (0 : Fin 1))).toInt := by
  obtain rfl : a = 0 := Subsingleton.elim _ _
  unfold ScatterDims.start ScatterDims.window
  rw [dif_pos (show (0 : Fin 1) ∈ (vecDims N M wf).scatterDimsToOperandDims from List.mem_singleton.mpr rfl),
    dif_neg (show (0 : Fin 1) ∉ (vecDims N M wf).sKept by
      show (0 : Fin 1) ∉ (List.finRange 1).filter (· ∉ [0]); decide)]
  have hsi : (vecDims N M wf).siIdx j ⟨List.idxOf (0 : Fin 1) (vecDims N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  simp

/-- The update at `j` lands on element `i` exactly when its word, read signed, is `i`. -/
theorem vec_resultIdx {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (i : Fin N) :
    (vecDims N M wf).resultIdx? j idx = some (ix1 i) ↔ (idx (ix2 (j 0) (0 : Fin 1))).toInt = (i.val : ℤ) := by
  have hl := vec_landing wf idx j
  unfold ScatterDims.resultIdx?
  constructor
  · intro h
    split at h
    · next hc =>
      have h0 := congrFun (Option.some.inj h) 0
      have h1 := congrArg Fin.val h0
      simp only at h1
      have := hc 0
      rw [← hl 0]
      change ((vecDims N M wf).start j idx 0 + ((vecDims N M wf).window j 0 : ℤ)).toNat = i.val at h1
      omega
    · exact absurd h (by simp)
  · intro h
    have hc : ∀ a, 0 ≤ (vecDims N M wf).start j idx a + ((vecDims N M wf).window j a : ℤ) ∧
        (vecDims N M wf).start j idx a + ((vecDims N M wf).window j a : ℤ) < ((⟨1, ![N]⟩ : Shape).size a : ℤ) := by
      intro a
      obtain rfl : a = 0 := Subsingleton.elim _ _
      rw [hl 0, h]
      have := i.isLt
      constructor
      · omega
      · show (i.val : ℤ) < (N : ℤ); omega
    rw [dif_pos hc]
    congr 1
    funext a
    obtain rfl : a = 0 := Subsingleton.elim _ _
    refine Fin.ext ?_
    show ((vecDims N M wf).start j idx 0 + ((vecDims N M wf).window j 0 : ℤ)).toNat = i.val
    rw [hl 0, h]; simp

/-- THE VECTOR SCATTER READ AT `i`: the operand's element plus the sum, over the `M` updates, of those whose word read
    signed is `i`. The filtered sum over update indices becomes the sum over `Fin M` with an `if` (`Finset.sum_filter`,
    then the update index set re-indexed by its one coordinate). -/
theorem scatterAdd_vec_apply {N M w : Nat} {φ : FTy} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![M, 1]⟩ w) (upd : FVec Ideal ⟨1, ![M]⟩ φ) (i : Fin N) :
    Host.scatterAdd d x idx upd (ix1 i)
      = x (ix1 i) + ∑ e : Fin M, if (idx (ix2 e (0 : Fin 1))).toInt = (i.val : ℤ) then upd (ix1 e) else 0 := by
  obtain ⟨uw, iw, sd, ivd, wf⟩ := d
  simp only at huw hiw hsd hivd
  subst huw hiw hsd hivd
  show Ideal.hostScatterAdd (vecDims N M wf) x idx upd (ix1 i) = _
  unfold Ideal.hostScatterAdd
  congr 1
  rw [Finset.sum_filter, sum_idx1]
  refine Finset.sum_congr rfl fun e _ => ?_
  exact if_congr (vec_resultIdx wf idx (ix1 e) i) rfl rfl

/-! ## Rows of updates added into an array -/

/-- The row scatter's dimension numbers: the updates' axis 1 the window axis, the operand's axis 0 inserted and
    scatter-indexed, the index vector on axis 1 of the column of words. -/
abbrev rowDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- On the operand's axis 0 update `q` lands at its word read signed: the start is the word at row `q 0` of the column,
    the window coordinate zero (the axis is inserted). -/
theorem row_landing0 {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) :
    (rowDims N M C wf).start q idx 0 + ((rowDims N M C wf).window q 0 : ℤ) = (idx (ix2 (q 0) (0 : Fin 1))).toInt := by
  unfold ScatterDims.start ScatterDims.window
  rw [dif_pos (show (0 : Fin 2) ∈ (rowDims N M C wf).scatterDimsToOperandDims from List.mem_singleton.mpr rfl),
    dif_neg (show (0 : Fin 2) ∉ (rowDims N M C wf).sKept by
      show (0 : Fin 2) ∉ (List.finRange 2).filter (· ∉ [(0 : Fin 2)]); decide)]
  have hsi : (rowDims N M C wf).siIdx q ⟨List.idxOf (0 : Fin 2) (rowDims N M C wf).scatterDimsToOperandDims,
      List.idxOf_lt_length_iff.2 (List.mem_singleton.mpr rfl)⟩ = ix2 (q 0) (0 : Fin 1) := by
    funext b; refine Fin.ext ?_
    match b with
    | ⟨0, _⟩ => rfl
    | ⟨1, _⟩ => rfl
  rw [hsi]
  simp

/-- On the operand's axis 1 update `q` lands at its own column: the start is 0 (the axis is not scatter-indexed), the
    window coordinate the update's coordinate on its one window axis. -/
theorem row_landing1 {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) :
    (rowDims N M C wf).start q idx 1 + ((rowDims N M C wf).window q 1 : ℤ) = ((q 1).val : ℤ) := by
  unfold ScatterDims.start ScatterDims.window
  rw [dif_neg (show (1 : Fin 2) ∉ (rowDims N M C wf).scatterDimsToOperandDims by
      show (1 : Fin 2) ∉ [(0 : Fin 2)]; decide),
    dif_pos (show (1 : Fin 2) ∈ (rowDims N M C wf).sKept by
      show (1 : Fin 2) ∈ (List.finRange 2).filter (· ∉ [(0 : Fin 2)]); decide), Int.zero_add]
  rfl

/-- The update at `q` lands on element `(i, k)` exactly when its word, read signed, is `i` and its column is `k`. -/
theorem row_resultIdx {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) (i : Fin N) (k : Fin C) :
    (rowDims N M C wf).resultIdx? q idx = some (ix2 i k)
      ↔ (idx (ix2 (q 0) (0 : Fin 1))).toInt = (i.val : ℤ) ∧ q 1 = k := by
  have hl0 := row_landing0 wf idx q
  have hl1 := row_landing1 wf idx q
  unfold ScatterDims.resultIdx?
  constructor
  · intro h
    split at h
    · next hc =>
      have hf := Option.some.inj h
      have h0 := congrArg Fin.val (congrFun hf 0)
      have h1 := congrArg Fin.val (congrFun hf 1)
      change ((rowDims N M C wf).start q idx 0 + ((rowDims N M C wf).window q 0 : ℤ)).toNat = i.val at h0
      change ((rowDims N M C wf).start q idx 1 + ((rowDims N M C wf).window q 1 : ℤ)).toNat = k.val at h1
      have hc0 := (hc 0).1
      rw [hl0] at h0 hc0
      rw [hl1] at h1
      refine ⟨by omega, Fin.ext ?_⟩
      simpa using h1
    · exact absurd h (by simp)
  · rintro ⟨h, hk⟩
    have hc : ∀ a, 0 ≤ (rowDims N M C wf).start q idx a + ((rowDims N M C wf).window q a : ℤ) ∧
        (rowDims N M C wf).start q idx a + ((rowDims N M C wf).window q a : ℤ) < ((⟨2, ![N, C]⟩ : Shape).size a : ℤ) := by
      intro a
      match a with
      | ⟨0, _⟩ =>
        have := i.isLt
        refine ⟨?_, ?_⟩
        · show 0 ≤ (rowDims N M C wf).start q idx 0 + ((rowDims N M C wf).window q 0 : ℤ)
          rw [hl0, h]; omega
        · show (rowDims N M C wf).start q idx 0 + ((rowDims N M C wf).window q 0 : ℤ) < (N : ℤ)
          rw [hl0, h]; omega
      | ⟨1, _⟩ =>
        have := idx2_lt1 q
        refine ⟨?_, ?_⟩
        · show 0 ≤ (rowDims N M C wf).start q idx 1 + ((rowDims N M C wf).window q 1 : ℤ)
          rw [hl1]; omega
        · show (rowDims N M C wf).start q idx 1 + ((rowDims N M C wf).window q 1 : ℤ) < (C : ℤ)
          rw [hl1]; omega
    rw [dif_pos hc]
    congr 1
    funext a
    refine Fin.ext ?_
    match a with
    | ⟨0, _⟩ =>
      show ((rowDims N M C wf).start q idx 0 + ((rowDims N M C wf).window q 0 : ℤ)).toNat = i.val
      rw [hl0, h]; simp
    | ⟨1, _⟩ =>
      show ((rowDims N M C wf).start q idx 1 + ((rowDims N M C wf).window q 1 : ℤ)).toNat = k.val
      rw [hl1, hk]; simp

/-- THE ROW SCATTER READ AT `(i, j)`: the operand's element plus the sum, over the `M` update rows, of column `j` of those
    whose word read signed is `i`. The filtered sum over update indices becomes the double sum over (row, column) with an
    `if` (`Finset.sum_filter`, `sum_idx2`); the column sum keeps the one term at `j` (`Finset.sum_ite_eq'`). -/
theorem scatterAdd_rows_apply {N M C w : Nat} {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ) (i : Fin N) (j : Fin C) :
    Host.scatterAdd d x idx upd (ix2 i j)
      = x (ix2 i j) + ∑ e : Fin M, if (idx (ix2 e (0 : Fin 1))).toInt = (i.val : ℤ) then upd (ix2 e j) else 0 := by
  obtain ⟨uw, iw, sd, ivd, wf⟩ := d
  simp only at huw hiw hsd hivd
  subst huw hiw hsd hivd
  show Ideal.hostScatterAdd (rowDims N M C wf) x idx upd (ix2 i j) = _
  unfold Ideal.hostScatterAdd
  congr 1
  rw [Finset.sum_filter, sum_idx2]
  refine Finset.sum_congr rfl fun e _ => ?_
  have hstep : ∀ b : Fin C,
      (if (rowDims N M C wf).resultIdx? (ix2 e b) idx = some (ix2 i j) then upd (ix2 e b) else 0)
        = if b = j then (if (idx (ix2 e (0 : Fin 1))).toInt = (i.val : ℤ) then upd (ix2 e b) else 0) else 0 := by
    intro b
    have hiff := row_resultIdx wf idx (ix2 e b) i j
    by_cases hb : b = j
    · rw [if_pos hb]
      exact if_congr (hiff.trans ⟨fun h => h.1, fun h => ⟨h, hb⟩⟩) rfl rfl
    · rw [if_neg hb, if_neg]
      exact fun h => hb (hiff.mp h).2
  rw [Finset.sum_congr rfl fun b _ => hstep b, Finset.sum_ite_eq' Finset.univ j, if_pos (Finset.mem_univ j)]

/-! ## Rows gathered out of an array -/

/-- The row gather's dimension numbers: the result's axis 1 the offset axis, the operand's axis 0 collapsed and
    start-indexed, no batching axes, the index vector on axis 1 of the column of words, slices one row wide. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- On the collapsed axis the operand index is the clamped start: the word at row `e` of the column read signed, cut
    into `[0, N - 1]`; no batching or offset coordinate. -/
theorem rowGather_axis0 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (j : Fin C) :
    ((rowGatherDims N M C wf).operandIdx (ix2 e j) idx 0).val = min (idx (ix2 e (0 : Fin 1))).toInt.toNat (N - 1) := by
  show (rowGatherDims N M C wf).start (ix2 e j) idx 0 + (rowGatherDims N M C wf).batchCoord (ix2 e j) 0
    + (rowGatherDims N M C wf).offCoord (ix2 e j) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowGatherDims N M C wf).startIndexMap from List.mem_singleton.mpr rfl)]
  have hsi : (rowGatherDims N M C wf).siIdx (ix2 e j) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the offset axis the operand index is the result's column: the start is 0 (the axis is not start-indexed), the
    offset coordinate the result's coordinate on its one offset axis. -/
theorem rowGather_axis1 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (j : Fin C) :
    ((rowGatherDims N M C wf).operandIdx (ix2 e j) idx 1).val = j.val := by
  show (rowGatherDims N M C wf).start (ix2 e j) idx 1 + (rowGatherDims N M C wf).batchCoord (ix2 e j) 1
    + (rowGatherDims N M C wf).offCoord (ix2 e j) 1 = _
  rw [GatherDims.batchCoord_eq_zero _ _ _ List.not_mem_nil, Nat.add_zero]
  unfold GatherDims.start
  rw [dif_neg (show (1 : Fin 2) ∉ (rowGatherDims N M C wf).startIndexMap by
    show (1 : Fin 2) ∉ [(0 : Fin 2)]; decide), Nat.zero_add]
  unfold GatherDims.offCoord
  rw [dif_pos (show (1 : Fin 2) ∈ (rowGatherDims N M C wf).sKept by
    show (1 : Fin 2) ∈ (List.finRange 2).filter (· ∉ [(0 : Fin 2)] ++ []); decide)]
  rfl

/-- THE ROW GATHER READ AT `(e, j)`: the array at row "word `e`, read signed and clamped into `[0, N - 1]`", column `j`. -/
theorem gather_rows_apply {α : Type} {N M C w : Nat} (d : GatherDims ⟨2, ![N, C]⟩ ⟨2, ![M, 1]⟩ ⟨2, ![M, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![M, 1]⟩ w) (e : Fin M) (j : Fin C) (hN : 0 < N) :
    Host.gather d x idx (ix2 e j)
      = x (ix2 (⟨min (idx (ix2 e (0 : Fin 1))).toInt.toNat (N - 1), by omega⟩ : Fin N) j) := by
  obtain ⟨od, cd, ob, sb, sm, ivd, ss, wf⟩ := d
  simp only at hoff hcoll hob hsb hsim hivd hss
  subst hoff hcoll hob hsb hsim hivd hss
  show x ((rowGatherDims N M C wf).operandIdx (ix2 e j) idx) = _
  congr 1
  funext a
  refine Fin.ext ?_
  match a with
  | ⟨0, _⟩ => exact rowGather_axis0 wf idx e j
  | ⟨1, _⟩ => exact rowGather_axis1 wf idx e j

end Cert.LibScatterGather

end
-- ==== Proof.LibIntCount.lean ====
/-
  An integer scatter whose body adds, read at one element.

  The host's scatter is a left fold over the updates in row-major order: each update whose landing index is inside the
  operand replaces the element there by the body applied to it and the update. Read at ONE element the fold only ever
  touches that element (`foldl_step_apply`), and when the body is addition in a commutative monoid the fold is the
  element plus the sum of the updates landing on it (`foldl_add_ite`). For a vector of `M` words scattered into a vector
  of length `N` by a column of `M` index words (`scatter_addi_vec_apply`) element `i` ends as the operand's element plus
  the sum of the updates whose index word, read signed, is `i`; ones scattered into zeros COUNT those words
  (`scatter_addi_ones_toInt`), exactly while the count stays below 2^31.
-/
import Idealize.ShloMosaic.PureOps.Ideal
import Idealize.ShloMosaic.Lib.ValueIdx
import Mathlib.Data.BitVec
import proofs.«422284_j11982958756494_3_alg».proof.Proof.LibScatterGather

noncomputable section

open scoped BigOperators

namespace Cert.LibIntCount

open Idealize.ShloMosaic Idealize.ShloMosaic.ValueIdx

/-- Read at element `i`, the scatter's fold is a fold on that one element: an update landing elsewhere leaves it. -/
theorem scatter_apply_fold {α : Type} {s si u : Shape} {w : Nat} (d : ScatterDims s si u) (f : α → α → α)
    (x : s.Idx → α) (idx : IVec si w) (upd : u.Idx → α) (i : s.Idx) :
    Host.scatter d f x idx upd i
      = (List.finRange u.numel).foldl (fun a n =>
          if d.resultIdx? (u.rowMajor.symm n) idx = some i then f a (upd (u.rowMajor.symm n)) else a) (x i) := by
  unfold Host.scatter
  generalize List.finRange u.numel = L
  induction L generalizing x with
  | nil => rfl
  | cons n L ih =>
    rw [List.foldl_cons, List.foldl_cons, ih]
    congr 1
    cases hg : d.resultIdx? (u.rowMajor.symm n) idx with
    | none => simp
    | some i0 =>
      by_cases h : i = i0
      · subst h; simp
      · simp [h, Ne.symm h]

/-- A fold that adds the selected terms is the start plus their sum. -/
theorem foldl_add_ite {κ A : Type} [AddCommMonoid A] (p : κ → Prop) [DecidablePred p] (u : κ → A) :
    ∀ (L : List κ) (a : A),
      L.foldl (fun a n => if p n then a + u n else a) a = a + (L.map fun n => if p n then u n else 0).sum
  | [], a => by simp
  | n :: L, a => by
    rw [List.foldl_cons, foldl_add_ite p u L, List.map_cons, List.sum_cons]
    by_cases h : p n
    · rw [if_pos h, if_pos h, add_assoc]
    · rw [if_neg h, if_neg h, zero_add]

/-- THE INTEGER VECTOR SCATTER READ AT `i`: the operand's word plus the sum, over the `M` updates, of those whose index
    word read signed is `i` (a word outside `[0, N)` lands nowhere). -/
theorem scatter_addi_vec_apply {N M w : Nat} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : IVec ⟨1, ![N]⟩ 32) (idx : IVec ⟨2, ![M, 1]⟩ w) (upd : IVec ⟨1, ![M]⟩ 32) (i : Fin N) :
    Host.scatter d IntOp.addi x idx upd (ix1 i)
      = x (ix1 i) + ∑ e : Fin M, if (idx (ix2 e (0 : Fin 1))).toInt = (i.val : ℤ) then upd (ix1 e) else 0 := by
  obtain ⟨uw, iw, sd, ivd, wf⟩ := d
  simp only at huw hiw hsd hivd
  subst huw hiw hsd hivd
  rw [scatter_apply_fold]
  refine (foldl_add_ite
    (p := fun n => (LibScatterGather.vecDims N M wf).resultIdx? ((⟨1, ![M]⟩ : Shape).rowMajor.symm n) idx = some (ix1 i))
    (u := fun n => upd ((⟨1, ![M]⟩ : Shape).rowMajor.symm n)) _ _).trans ?_
  congr 1
  rw [← Fin.sum_univ_def,
    Equiv.sum_comp (⟨1, ![M]⟩ : Shape).rowMajor.symm
      (fun j => if (LibScatterGather.vecDims N M wf).resultIdx? j idx = some (ix1 i) then upd j else 0),
    LibScatterGather.sum_idx1]
  refine Finset.sum_congr rfl fun e _ => ?_
  exact if_congr (LibScatterGather.vec_resultIdx wf idx (ix1 e) i) rfl rfl

/-- A count below 2^31, as a 32-bit word read signed, is itself. -/
theorem toInt_natCast_small (k : Nat) (hk : k < 2147483648) : ((k : BitVec 32)).toInt = (k : ℤ) := by
  have h1 : ((k : BitVec 32)).toNat = k := by
    rw [BitVec.natCast_eq_ofNat, BitVec.toNat_ofNat]
    exact Nat.mod_eq_of_lt (by omega)
  rw [BitVec.toInt_eq_toNat_of_lt (by rw [h1]; omega), h1]

/-- ONES SCATTERED INTO ZEROS COUNT: element `i`, read signed, is the number of updates whose index word read signed is
    `i`, as long as there are fewer than 2^31 updates. -/
theorem scatter_addi_ones_toInt {N M w : Nat} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1) (hM : M < 2147483648)
    (x : IVec ⟨1, ![N]⟩ 32) (hx : ∀ j, x j = 0#32) (idx : IVec ⟨2, ![M, 1]⟩ w)
    (upd : IVec ⟨1, ![M]⟩ 32) (hu : ∀ j, upd j = 1#32) (i : Fin N) :
    (Host.scatter d IntOp.addi x idx upd (ix1 i)).toInt
      = ((Finset.univ.filter fun e : Fin M => (idx (ix2 e (0 : Fin 1))).toInt = (i.val : ℤ)).card : ℤ) := by
  rw [scatter_addi_vec_apply d huw hiw hsd hivd, hx]
  have hs : (∑ e : Fin M, if (idx (ix2 e (0 : Fin 1))).toInt = (i.val : ℤ) then upd (ix1 e) else 0)
      = ((Finset.univ.filter fun e : Fin M => (idx (ix2 e (0 : Fin 1))).toInt = (i.val : ℤ)).card : BitVec 32) := by
    rw [← Finset.sum_boole]
    exact Finset.sum_congr rfl fun e _ => by rw [hu]; rfl
  rw [hs, show (0#32 : BitVec 32) = 0 from rfl, zero_add]
  refine toInt_natCast_small _ (lt_of_le_of_lt (Finset.card_le_univ _) ?_)
  rw [Fintype.card_fin]; exact hM

end Cert.LibIntCount

end
-- ==== Proof.LibIntCount2.lean ====
/-
  An integer scatter-add of scalar updates into a MATRIX through pairs of index words, read at one element: the
  operand's word plus the sum of the updates whose two index words, read signed, are the element's row and column
  (a pair with a word outside the matrix lands nowhere). Ones scattered into zeros count the pairs. Generic in the sizes.
-/
import Idealize.ShloMosaic.PureOps.Ideal
import Idealize.ShloMosaic.Lib.ValueIdx
import Mathlib.Data.BitVec
import proofs.«422284_j11982958756494_3_alg».proof.Proof.LibScatterGather
import proofs.«422284_j11982958756494_3_alg».proof.Proof.LibIntCount

noncomputable section

open scoped BigOperators

namespace Cert.LibIntCount2

open Idealize.ShloMosaic Idealize.ShloMosaic.ValueIdx

/-! ## Pairs of words naming a matrix element -/

/-- The matrix scatter's dimension numbers: no window axes, both of the operand's axes inserted and scatter-indexed in
    order, the index vector on axis 1 of the array of word pairs. -/
abbrev matDims (N K M : Nat) (wf : ScatterDims.WF ⟨2, ![N, K]⟩ ⟨2, ![M, 2]⟩ ⟨1, ![M]⟩ [] [0, 1] [0, 1] 1) :
    ScatterDims ⟨2, ![N, K]⟩ ⟨2, ![M, 2]⟩ ⟨1, ![M]⟩ where
  updateWindowDims := []
  insertedWindowDims := [0, 1]
  scatterDimsToOperandDims := [0, 1]
  indexVectorDim := 1
  wf := wf

/-- On the operand's axis 0 update q lands at its first word read signed: the start is that word, the window
    coordinate zero (the axis is inserted). -/
theorem mat_landing0 {N K M w : Nat} (wf : ScatterDims.WF ⟨2, ![N, K]⟩ ⟨2, ![M, 2]⟩ ⟨1, ![M]⟩ [] [0, 1] [0, 1] 1)
    (idx : IVec ⟨2, ![M, 2]⟩ w) (q : (⟨1, ![M]⟩ : Shape).Idx) :
    (matDims N K M wf).start q idx 0 + ((matDims N K M wf).window q 0 : ℤ) = (idx (ix2 (q 0) (0 : Fin 2))).toInt := by
  have hmem : (0 : Fin 2) ∈ (matDims N K M wf).scatterDimsToOperandDims := by
    show (0 : Fin 2) ∈ [(0 : Fin 2), 1]; decide
  unfold ScatterDims.start ScatterDims.window
  rw [dif_pos hmem,
    dif_neg (show (0 : Fin 2) ∉ (matDims N K M wf).sKept by
      show (0 : Fin 2) ∉ (List.finRange 2).filter (· ∉ [(0 : Fin 2), 1]); decide)]
  have hsi : (matDims N K M wf).siIdx q ⟨List.idxOf (0 : Fin 2) (matDims N K M wf).scatterDimsToOperandDims,
      List.idxOf_lt_length_iff.2 hmem⟩ = ix2 (q 0) (0 : Fin 2) := by
    funext b; refine Fin.ext ?_
    match b with
    | ⟨0, _⟩ => rfl
    | ⟨1, _⟩ => rfl
  rw [hsi]
  simp

/-- On the operand's axis 1 update q lands at its second word read signed. -/
theorem mat_landing1 {N K M w : Nat} (wf : ScatterDims.WF ⟨2, ![N, K]⟩ ⟨2, ![M, 2]⟩ ⟨1, ![M]⟩ [] [0, 1] [0, 1] 1)
    (idx : IVec ⟨2, ![M, 2]⟩ w) (q : (⟨1, ![M]⟩ : Shape).Idx) :
    (matDims N K M wf).start q idx 1 + ((matDims N K M wf).window q 1 : ℤ) = (idx (ix2 (q 0) (1 : Fin 2))).toInt := by
  have hmem : (1 : Fin 2) ∈ (matDims N K M wf).scatterDimsToOperandDims := by
    show (1 : Fin 2) ∈ [(0 : Fin 2), 1]; decide
  unfold ScatterDims.start ScatterDims.window
  rw [dif_pos hmem,
    dif_neg (show (1 : Fin 2) ∉ (matDims N K M wf).sKept by
      show (1 : Fin 2) ∉ (List.finRange 2).filter (· ∉ [(0 : Fin 2), 1]); decide)]
  have hsi : (matDims N K M wf).siIdx q ⟨List.idxOf (1 : Fin 2) (matDims N K M wf).scatterDimsToOperandDims,
      List.idxOf_lt_length_iff.2 hmem⟩ = ix2 (q 0) (1 : Fin 2) := by
    funext b; refine Fin.ext ?_
    match b with
    | ⟨0, _⟩ => rfl
    | ⟨1, _⟩ => rfl
  rw [hsi]
  simp

/-- The update at q lands on element (i, k) exactly when its two words, read signed, are i and k. -/
theorem mat_resultIdx {N K M w : Nat} (wf : ScatterDims.WF ⟨2, ![N, K]⟩ ⟨2, ![M, 2]⟩ ⟨1, ![M]⟩ [] [0, 1] [0, 1] 1)
    (idx : IVec ⟨2, ![M, 2]⟩ w) (q : (⟨1, ![M]⟩ : Shape).Idx) (i : Fin N) (k : Fin K) :
    (matDims N K M wf).resultIdx? q idx = some (ix2 i k)
      ↔ (idx (ix2 (q 0) (0 : Fin 2))).toInt = (i.val : ℤ) ∧ (idx (ix2 (q 0) (1 : Fin 2))).toInt = (k.val : ℤ) := by
  have hl0 := mat_landing0 wf idx q
  have hl1 := mat_landing1 wf idx q
  unfold ScatterDims.resultIdx?
  constructor
  · intro h
    split at h
    · next hc =>
      have hf := Option.some.inj h
      have h0 := congrArg Fin.val (congrFun hf 0)
      have h1 := congrArg Fin.val (congrFun hf 1)
      change ((matDims N K M wf).start q idx 0 + ((matDims N K M wf).window q 0 : ℤ)).toNat = i.val at h0
      change ((matDims N K M wf).start q idx 1 + ((matDims N K M wf).window q 1 : ℤ)).toNat = k.val at h1
      have hc0 := (hc 0).1
      have hc1 := (hc 1).1
      rw [hl0] at h0 hc0
      rw [hl1] at h1 hc1
      exact ⟨by omega, by omega⟩
    · exact absurd h (by simp)
  · rintro ⟨h, hk⟩
    have hc : ∀ a, 0 ≤ (matDims N K M wf).start q idx a + ((matDims N K M wf).window q a : ℤ) ∧
        (matDims N K M wf).start q idx a + ((matDims N K M wf).window q a : ℤ) < ((⟨2, ![N, K]⟩ : Shape).size a : ℤ) := by
      intro a
      match a with
      | ⟨0, _⟩ =>
        have := i.isLt
        refine ⟨?_, ?_⟩
        · show 0 ≤ (matDims N K M wf).start q idx 0 + ((matDims N K M wf).window q 0 : ℤ)
          rw [hl0, h]; omega
        · show (matDims N K M wf).start q idx 0 + ((matDims N K M wf).window q 0 : ℤ) < (N : ℤ)
          rw [hl0, h]; omega
      | ⟨1, _⟩ =>
        have := k.isLt
        refine ⟨?_, ?_⟩
        · show 0 ≤ (matDims N K M wf).start q idx 1 + ((matDims N K M wf).window q 1 : ℤ)
          rw [hl1, hk]; omega
        · show (matDims N K M wf).start q idx 1 + ((matDims N K M wf).window q 1 : ℤ) < (K : ℤ)
          rw [hl1, hk]; omega
    rw [dif_pos hc]
    congr 1
    funext a
    refine Fin.ext ?_
    match a with
    | ⟨0, _⟩ =>
      show ((matDims N K M wf).start q idx 0 + ((matDims N K M wf).window q 0 : ℤ)).toNat = i.val
      rw [hl0, h]; simp
    | ⟨1, _⟩ =>
      show ((matDims N K M wf).start q idx 1 + ((matDims N K M wf).window q 1 : ℤ)).toNat = k.val
      rw [hl1, hk]; simp

/-- THE INTEGER MATRIX SCATTER READ AT (i, j). -/
theorem scatter_addi_mat_apply {N K M w : Nat} (d : ScatterDims ⟨2, ![N, K]⟩ ⟨2, ![M, 2]⟩ ⟨1, ![M]⟩)
    (huw : d.updateWindowDims = []) (hiw : d.insertedWindowDims = [0, 1]) (hsd : d.scatterDimsToOperandDims = [0, 1])
    (hivd : d.indexVectorDim = 1)
    (x : IVec ⟨2, ![N, K]⟩ 32) (idx : IVec ⟨2, ![M, 2]⟩ w) (upd : IVec ⟨1, ![M]⟩ 32) (i : Fin N) (j : Fin K) :
    Host.scatter d IntOp.addi x idx upd (ix2 i j)
      = x (ix2 i j) + ∑ e : Fin M, if (idx (ix2 e (0 : Fin 2))).toInt = (i.val : ℤ) ∧ (idx (ix2 e (1 : Fin 2))).toInt = (j.val : ℤ)
          then upd (ix1 e) else 0 := by
  obtain ⟨uw, iw, sd, ivd, wf⟩ := d
  simp only at huw hiw hsd hivd
  subst huw hiw hsd hivd
  rw [LibIntCount.scatter_apply_fold]
  refine (LibIntCount.foldl_add_ite
    (p := fun n => (matDims N K M wf).resultIdx? ((⟨1, ![M]⟩ : Shape).rowMajor.symm n) idx = some (ix2 i j))
    (u := fun n => upd ((⟨1, ![M]⟩ : Shape).rowMajor.symm n)) _ _).trans ?_
  congr 1
  rw [← Fin.sum_univ_def,
    Equiv.sum_comp (⟨1, ![M]⟩ : Shape).rowMajor.symm
      (fun q => if (matDims N K M wf).resultIdx? q idx = some (ix2 i j) then upd q else 0),
    LibScatterGather.sum_idx1]
  refine Finset.sum_congr rfl fun e _ => ?_
  exact if_congr (mat_resultIdx wf idx (ix1 e) i j) rfl rfl

/-- ONES SCATTERED INTO A ZERO MATRIX COUNT: element (i, j), read signed, is the number of pairs naming it, as long as
    there are fewer than 2^31 updates. -/
theorem scatter_addi_mat_ones_toInt {N K M w : Nat} (d : ScatterDims ⟨2, ![N, K]⟩ ⟨2, ![M, 2]⟩ ⟨1, ![M]⟩)
    (huw : d.updateWindowDims = []) (hiw : d.insertedWindowDims = [0, 1]) (hsd : d.scatterDimsToOperandDims = [0, 1])
    (hivd : d.indexVectorDim = 1) (hM : M < 2147483648)
    (x : IVec ⟨2, ![N, K]⟩ 32) (hx : ∀ q, x q = 0#32) (idx : IVec ⟨2, ![M, 2]⟩ w)
    (upd : IVec ⟨1, ![M]⟩ 32) (hu : ∀ q, upd q = 1#32) (i : Fin N) (j : Fin K) :
    (Host.scatter d IntOp.addi x idx upd (ix2 i j)).toInt
      = ((Finset.univ.filter fun e : Fin M =>
          (idx (ix2 e (0 : Fin 2))).toInt = (i.val : ℤ) ∧ (idx (ix2 e (1 : Fin 2))).toInt = (j.val : ℤ)).card : ℤ) := by
  rw [scatter_addi_mat_apply d huw hiw hsd hivd, hx]
  have hs : (∑ e : Fin M, if (idx (ix2 e (0 : Fin 2))).toInt = (i.val : ℤ) ∧ (idx (ix2 e (1 : Fin 2))).toInt = (j.val : ℤ)
        then upd (ix1 e) else 0)
      = ((Finset.univ.filter fun e : Fin M =>
          (idx (ix2 e (0 : Fin 2))).toInt = (i.val : ℤ) ∧ (idx (ix2 e (1 : Fin 2))).toInt = (j.val : ℤ)).card : BitVec 32) := by
    rw [← Finset.sum_boole]
    exact Finset.sum_congr rfl fun e _ => by rw [hu]; rfl
  rw [hs, show (0#32 : BitVec 32) = 0 from rfl, zero_add]
  refine LibIntCount.toInt_natCast_small _ (lt_of_le_of_lt (Finset.card_le_univ _) ?_)
  rw [Fintype.card_fin]; exact hM

end Cert.LibIntCount2

end
-- ==== Proof.LibIdxSums.lean ====
/-
  General lemmas on finite sums over index types, generic in the sizes and in the additive commutative monoid summed in.

  `sum_fin_mul`: a sum over `Fin (m * n)` is the double sum over quotient `a : Fin m` and remainder `b : Fin n` of the
  entry `a * n + b`. `sum_idx1`, `sum_idx3u`: a sum over the indices of a rank-1 array, or of an [n, 1, 1] array, is
  the sum over `Fin n` of the entries `ix1 k`, `ix3 q 0 0`. `sum_concat3`: the sum of a rank-1 concatenation of three
  pieces (StableHLO's concatenate along axis 0) is the sum of the three pieces' sums — the entry at position c comes
  from the first piece when c < n₁, from the second at c - n₁ when n₁ ≤ c < n₁ + n₂, from the third at
  c - (n₁ + n₂) otherwise.
-/
import Idealize.ShloMosaic.Lib.ValueIdx
import Idealize.ShloMosaic.Lib.Pipeline.Value
import Mathlib.Algebra.BigOperators.Fin
import Mathlib.Logic.Equiv.Fin.Basic

noncomputable section

namespace Cert.IdxSums

open Idealize.ShloMosaic Idealize.ShloMosaic.ValueIdx

/-- A sum over `Fin (m * n)` taken quotient by quotient: the entry `a * n + b` is met once, at quotient `a` and
    remainder `b`. -/
theorem sum_fin_mul {M : Type*} [AddCommMonoid M] (m n : ℕ) (f : Fin (m * n) → M) :
    ∑ i, f i = ∑ a : Fin m, ∑ b : Fin n,
      f ⟨a.val * n + b.val, by
        have ha := a.isLt; have hb := b.isLt
        calc a.val * n + b.val < a.val * n + n := by omega
          _ = (a.val + 1) * n := by rw [Nat.add_mul, Nat.one_mul]
          _ ≤ m * n := Nat.mul_le_mul_right n ha⟩ := by
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

/-- A rank-1 index set is its coordinate's range … -/
def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The indices of an [n, 1, 1] array are the `(q, 0, 0)` … -/
def idxEquiv3u {n : Nat} : (⟨3, ![n, 1, 1]⟩ : Shape).Idx ≃ Fin n where
  toFun i := i 0
  invFun q := ix3 q (0 : Fin 1) (0 : Fin 1)
  left_inv i := by
    funext a
    match a with
    | ⟨0, _⟩ => rfl
    | ⟨1, _⟩ => exact (Subsingleton.elim (α := Fin 1) _ _)
    | ⟨2, _⟩ => exact (Subsingleton.elim (α := Fin 1) _ _)
  right_inv _ := rfl

/-- … so a sum over them is the sum over `q`. -/
theorem sum_idx3u {M : Type*} [AddCommMonoid M] {n : Nat} (f : (⟨3, ![n, 1, 1]⟩ : Shape).Idx → M) :
    ∑ i, f i = ∑ q : Fin n, f (ix3 q (0 : Fin 1) (0 : Fin 1)) := by
  rw [← Equiv.sum_comp (idxEquiv3u (n := n)).symm f]
  rfl

/-- The sum of a rank-1 concatenation of three pieces is the sum of the three pieces' sums. -/
theorem sum_concat3 {M : Type} [AddCommMonoid M] (n1 n2 n3 : Nat)
    (u : (⟨1, ![n1]⟩ : Shape).Idx → M) (v : (⟨1, ![n2]⟩ : Shape).Idx → M) (w : (⟨1, ![n3]⟩ : Shape).Idx → M)
    (h : Shape.Concatenates [(⟨1, ![n1]⟩ : Shape), ⟨1, ![n2]⟩, ⟨1, ![n3]⟩] ⟨1, ![n1 + n2 + n3]⟩ 0) :
    ∑ j : (⟨1, ![n1 + n2 + n3]⟩ : Shape).Idx,
        concatenate (⟨1, ![n1 + n2 + n3]⟩ : Shape) 0 [⟨(⟨1, ![n1]⟩ : Shape), u⟩, ⟨(⟨1, ![n2]⟩ : Shape), v⟩, ⟨(⟨1, ![n3]⟩ : Shape), w⟩] h j
      = ∑ i, u i + ∑ i, v i + ∑ i, w i := by
  rw [sum_idx1, sum_idx1 u, sum_idx1 v, sum_idx1 w, Fin.sum_univ_add, Fin.sum_univ_add]
  refine congrArg₂ (· + ·) (congrArg₂ (· + ·) ?_ ?_) ?_
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.castAdd n3 (Fin.castAdd n2 k))) 0 (by simp) (⟨1, ![n1]⟩ : Shape) u rfl rfl 0 rfl (ix1 k)
      (fun b hb => absurd (Subsingleton.elim (α := Fin 1) _ _) hb) (Nat.zero_add _)
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.castAdd n3 (Fin.natAdd n1 k))) 1 (by simp) (⟨1, ![n2]⟩ : Shape) v rfl rfl n1 (by simp) (ix1 k)
      (fun b hb => absurd (Subsingleton.elim (α := Fin 1) _ _) hb) rfl
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.natAdd (n1 + n2) k)) 2 (by simp) (⟨1, ![n3]⟩ : Shape) w rfl rfl (n1 + n2) (by simp) (ix1 k)
      (fun b hb => absurd (Subsingleton.elim (α := Fin 1) _ _) hb) rfl

end Cert.IdxSums

end
-- ==== Proof.LibPairBlocks.lean ====
/-
  General lemmas for a contraction whose index runs over interleaved pairs, taken block by block, generic in the sizes
  and in the additive commutative monoid summed in.

  `sum_pairs_blocked`: a sum over `Fin (K * T * 2)` is the sum over the blocks `s : Fin K` of the block's sum of
  EVEN entries `(s * T + c) * 2` plus its sum of ODD entries `(s * T + c) * 2 + 1`, `c : Fin T`.
  `concat_cols_left` / `concat_cols_right`: a rank-2 concatenation of two [R, T] pieces along the columns reads its
  left piece at a column `c < T` and its right piece at a column `T + c`.
  `sum_concat_cols`: so a sum over the `n = T + T` columns of a product of two such concatenations (at rows `p`, `q`)
  is the left pieces' sum of products plus the right pieces'.
-/
import Idealize.ShloMosaic.Lib.ValueIdx
import Idealize.ShloMosaic.Lib.Pipeline.Value
import Mathlib.Algebra.BigOperators.Fin
import proofs.«422284_j11982958756494_3_alg».proof.Proof.LibIdxSums

noncomputable section

namespace Cert.PairBlocks

open Idealize.ShloMosaic Idealize.ShloMosaic.ValueIdx

/-- Entry `c` of block `s` lies below `K * T`. -/
theorem block_lt {K T s c : ℕ} (hs : s < K) (hc : c < T) : s * T + c < K * T :=
  calc s * T + c < s * T + T := by omega
    _ = (s + 1) * T := by rw [Nat.add_mul, Nat.one_mul]
    _ ≤ K * T := Nat.mul_le_mul_right T hs

/-- A sum over interleaved pairs, block by block: each block's even entries, then its odd entries. -/
theorem sum_pairs_blocked {M : Type*} [AddCommMonoid M] (K T : ℕ) (f : Fin (K * T * 2) → M) :
    ∑ i, f i = ∑ s : Fin K,
      ((∑ c : Fin T, f ⟨(s.val * T + c.val) * 2, by have := block_lt s.isLt c.isLt; omega⟩)
        + ∑ c : Fin T, f ⟨(s.val * T + c.val) * 2 + 1, by have := block_lt s.isLt c.isLt; omega⟩) := by
  rw [Cert.IdxSums.sum_fin_mul (K * T) 2 f]
  simp only [Fin.sum_univ_two]
  rw [Cert.IdxSums.sum_fin_mul K T]
  refine Finset.sum_congr rfl fun s _ => ?_
  rw [← Finset.sum_add_distrib]
  rfl

variable {α : Type}

/-- A column `c < T` of a two-piece concatenation along the columns is the left piece's column `c`. -/
theorem concat_cols_left {R T n : ℕ} (u v : (⟨2, ![R, T]⟩ : Shape).Idx → α)
    (h : Shape.Concatenates [(⟨2, ![R, T]⟩ : Shape), ⟨2, ![R, T]⟩] ⟨2, ![R, n]⟩ 1)
    (p : Fin R) (c : Fin T) (c' : Fin n) (hc : c'.val = c.val) :
    concatenate (⟨2, ![R, n]⟩ : Shape) 1 [⟨(⟨2, ![R, T]⟩ : Shape), u⟩, ⟨(⟨2, ![R, T]⟩ : Shape), v⟩] h (ix2 p c')
      = u (ix2 p c) :=
  concatenate_apply_piece (t := (⟨2, ![R, n]⟩ : Shape)) (1 : Fin 2)
    [⟨(⟨2, ![R, T]⟩ : Shape), u⟩, ⟨(⟨2, ![R, T]⟩ : Shape), v⟩] h (ix2 p c') 0 (by simp)
    (⟨2, ![R, T]⟩ : Shape) u rfl rfl 0 rfl (ix2 p c)
    (fun b hb => by
      match b with
      | ⟨0, _⟩ => rfl
      | ⟨1, _⟩ => exact absurd rfl hb)
    (by show 0 + c.val = c'.val; omega)

/-- A column `T + c` of it is the right piece's column `c`. -/
theorem concat_cols_right {R T n : ℕ} (u v : (⟨2, ![R, T]⟩ : Shape).Idx → α)
    (h : Shape.Concatenates [(⟨2, ![R, T]⟩ : Shape), ⟨2, ![R, T]⟩] ⟨2, ![R, n]⟩ 1)
    (p : Fin R) (c : Fin T) (c' : Fin n) (hc : c'.val = T + c.val) :
    concatenate (⟨2, ![R, n]⟩ : Shape) 1 [⟨(⟨2, ![R, T]⟩ : Shape), u⟩, ⟨(⟨2, ![R, T]⟩ : Shape), v⟩] h (ix2 p c')
      = v (ix2 p c) :=
  concatenate_apply_piece (t := (⟨2, ![R, n]⟩ : Shape)) (1 : Fin 2)
    [⟨(⟨2, ![R, T]⟩ : Shape), u⟩, ⟨(⟨2, ![R, T]⟩ : Shape), v⟩] h (ix2 p c') 1 (by simp)
    (⟨2, ![R, T]⟩ : Shape) v rfl rfl T (by simp) (ix2 p c)
    (fun b hb => by
      match b with
      | ⟨0, _⟩ => rfl
      | ⟨1, _⟩ => exact absurd rfl hb)
    (by show T + c.val = c'.val; omega)

/-- The sum over the `n = T + T` columns of a product of two such concatenations, one read at row `p` and the other
    at row `q`, is the left pieces' sum of products plus the right pieces'. -/
theorem sum_concat_cols {M : Type} [AddCommMonoid M] [Mul M] {R R' T n : ℕ} (hn : n = T + T)
    (u v : (⟨2, ![R, T]⟩ : Shape).Idx → M) (u' v' : (⟨2, ![R', T]⟩ : Shape).Idx → M)
    (h : Shape.Concatenates [(⟨2, ![R, T]⟩ : Shape), ⟨2, ![R, T]⟩] ⟨2, ![R, n]⟩ 1)
    (h' : Shape.Concatenates [(⟨2, ![R', T]⟩ : Shape), ⟨2, ![R', T]⟩] ⟨2, ![R', n]⟩ 1)
    (p : Fin R) (q : Fin R') :
    ∑ c' : Fin n,
        concatenate (⟨2, ![R, n]⟩ : Shape) 1 [⟨(⟨2, ![R, T]⟩ : Shape), u⟩, ⟨(⟨2, ![R, T]⟩ : Shape), v⟩] h (ix2 p c')
          * concatenate (⟨2, ![R', n]⟩ : Shape) 1 [⟨(⟨2, ![R', T]⟩ : Shape), u'⟩, ⟨(⟨2, ![R', T]⟩ : Shape), v'⟩] h' (ix2 q c')
      = (∑ c : Fin T, u (ix2 p c) * u' (ix2 q c)) + ∑ c : Fin T, v (ix2 p c) * v' (ix2 q c) := by
  subst hn
  rw [Fin.sum_univ_add]
  refine congrArg₂ (· + ·) (Finset.sum_congr rfl fun c _ => ?_) (Finset.sum_congr rfl fun c _ => ?_)
  · rw [concat_cols_left u v h p c (Fin.castAdd T c) rfl, concat_cols_left u' v' h' q c (Fin.castAdd T c) rfl]
  · rw [concat_cols_right u v h p c (Fin.natAdd T c) rfl, concat_cols_right u' v' h' q c (Fin.natAdd T c) rfl]

end Cert.PairBlocks

end
-- ==== Proof.KerHost.lean ====
/-
  The arrays the host code of the kernel's program prepares for its two regions, read at an index at the ideal values.

  Before the first region: the count matrix — ones scattered into a 10000 × 10240 matrix of integer zeros at the
  (destination, source) word pairs, then converted to floats — holds at (i, j) the number of edges from j into i; the
  column of inverse square roots is the reference's own vector, reshaped. Between the regions: the first region's output,
  padded below by 240 zero rows; the bias, scale and shift vectors reshaped to rows. Nothing the later host stretches
  write is one of the earlier arrays.
-/
import proofs.«422284_j11982958756494_3_alg».proof.Proof.Gen.KernelIdeal.Regions
import proofs.«422284_j11982958756494_3_alg».proof.Proof.Names
import proofs.«422284_j11982958756494_3_alg».proof.Proof.LibIntCount2
import proofs.«422284_j11982958756494_3_alg».proof.Proof.LibPairBlocks
import proofs.«422284_j11982958756494_3_alg».proof.Proof.LibRowOps
import Idealize.ShloMosaic.Lib.Affine
import Idealize.ShloMosaic.Lib.KernelVsHost
import Idealize.ShloMosaic.Lib.StableHlo.Run
import Idealize.ShloMosaic.Lib.StableHlo.Predicate

set_option maxRecDepth 16384

noncomputable section

open scoped BigOperators

namespace Cert.KernelIdeal.KerHost

open Cert.KernelIdeal Cert.KernelIdeal.Gen
open Idealize.ShloMosaic Idealize.ShloMosaic.TcCoe Idealize.ShloMosaic.ValueIdx Idealize.SL.Sem
open Cert.Names

variable (m : (ℓ : Loc nD τ sig) → Buf (Elt Ideal) ℓ) (c : Dev nD)

/-- The edge array, the features and the weights as launched. -/
abbrev EI : IVec Cert.ReferenceIdeal.S2x640000 32 := m ((c.tc : Thread nD τ).loc main_arg1)
abbrev X : FVec Ideal Cert.ReferenceIdeal.S10000x128 .f32 := m ((c.tc : Thread nD τ).loc main_arg0)
abbrev WW : FVec Ideal Cert.ReferenceIdeal.S128x128 .f32 := m ((c.tc : Thread nD τ).loc main_arg2)

/-- The word where it is nonnegative read signed, else the word plus k: the index normalisation both scatters apply. -/
def wrap (k : BitVec 32) (w : IVec S650000 32) : IVec S650000 32 :=
  select (cmpi .slt w (broadcastInDim S650000 ![] bcast_S_S650000 (constantI S_ 32 0#32)))
    (addi w (broadcastInDim S650000 ![] bcast_S_S650000 (constantI S_ 32 k))) w

/-- A word that is nonnegative read signed is kept. -/
theorem wrap_apply (k : BitVec 32) (w : IVec S650000 32) (q : S650000.Idx) (h : 0 ≤ (w q).toInt) : wrap k w q = w q := by
  have hb : broadcastInDim S650000 ![] bcast_S_S650000 (constantI S_ 32 0#32) q = 0#32 :=
    broadcastInDim_apply _ bcast_S_S650000 (constantI S_ 32 0#32) q (fun a => a.elim0) (fun a => a.elim0)
  show Scalar.select (IntOp.cmpi .slt (w q) (broadcastInDim S650000 ![] bcast_S_S650000 (constantI S_ 32 0#32) q)) _ (w q) = w q
  rw [hb]
  unfold Scalar.select
  rw [if_neg]
  intro hc
  have h1 := IntOp.cmpi_slt.mp hc
  rw [show (0#32 : BitVec 32).toInt = 0 from rfl] at h1
  omega

/-- The array of (destination, source) word pairs the count scatter is indexed by. -/
def pairs (d s : IVec S650000 32) : IVec S650000x2 32 :=
  concatenate S650000x2 1 [⟨S650000x1, broadcastInDim S650000x1 ![0] bcast_S650000_S650000x1_0 (wrap 10000#32 d)⟩,
    ⟨S650000x1, broadcastInDim S650000x1 ![0] bcast_S650000_S650000x1_0 (wrap 10240#32 s)⟩] concatenates_S650000x1_S650000x1_S650000x2_d1

theorem pairs_left (d s : IVec S650000 32) (e : Fin 650000) : pairs d s (ix2 e (0 : Fin 2)) = wrap 10000#32 d (ix1 e) := by
  unfold pairs
  rw [Cert.PairBlocks.concat_cols_left _ _ concatenates_S650000x1_S650000x1_S650000x2_d1 e (0 : Fin 1) (0 : Fin 2) rfl]
  exact Cert.LibRowOps.broadcastInDim_col _ bcast_S650000_S650000x1_0 e 0

theorem pairs_right (d s : IVec S650000 32) (e : Fin 650000) : pairs d s (ix2 e (1 : Fin 2)) = wrap 10240#32 s (ix1 e) := by
  unfold pairs
  rw [Cert.PairBlocks.concat_cols_right _ _ concatenates_S650000x1_S650000x1_S650000x2_d1 e (0 : Fin 1) (1 : Fin 2) rfl]
  exact Cert.LibRowOps.broadcastInDim_col _ bcast_S650000_S650000x1_0 e 0

/-- The source words, the destination words and the inverse square roots the first two host stretches leave are the
    reference's own stages: the same operations on the same edge array. -/
theorem v3_eq {F : FTy → Type} [FloatOps F] (mF : (ℓ : Loc nD τ sig) → Buf (Elt F) ℓ) (c : Dev nD) :
    (V1 mF c main_v3 : S650000.Idx → BitVec 32)
      = Cert.ReferenceIdeal.PRead.val_main_v3 (F := F) (mF ((c.tc : Thread nD τ).loc main_arg1)) := by
  show StableHlo.after hostOps0 (V0 mF c) (Proc.devRef .tc main_v3) = _
  after_results
  rfl
theorem v6_eq {F : FTy → Type} [FloatOps F] (mF : (ℓ : Loc nD τ sig) → Buf (Elt F) ℓ) (c : Dev nD) :
    (V1 mF c main_v6 : S650000.Idx → BitVec 32)
      = Cert.ReferenceIdeal.PRead.val_main_v6 (F := F) (mF ((c.tc : Thread nD τ).loc main_arg1)) := by
  show StableHlo.after hostOps0 (V0 mF c) (Proc.devRef .tc main_v6) = _
  after_results
  rfl
theorem v14_eq {F : FTy → Type} [FloatOps F] (mF : (ℓ : Loc nD τ sig) → Buf (Elt F) ℓ) (c : Dev nD) :
    (V2 mF c main_v14 : S10000.Idx → F .f32)
      = Cert.ReferenceIdeal.PRead.val_main_v14 (F := F) (mF ((c.tc : Thread nD τ).loc main_arg1)) := by
  show StableHlo.after hostOps0_1 (StableHlo.after hostOps0 (V0 mF c)) (Proc.devRef .tc main_v14) = _
  after_results
  rfl

/-- The count matrix at (i, j): the number of edges from j into i. -/
theorem v32_apply (hs : Cert.Spec.InRange (SW (EI m c))) (hd : Cert.Spec.InRange (DW (EI m c))) (i : Fin 10000) (j : Fin 10240) :
    (V3 m c main_v32 (ix2 i j) : EReal) = Cert.Spec.cnt (SW (EI m c)) (DW (EI m c)) i j := by
  have e : ∀ W : Valuation τ sig (Elt Ideal),
      (StableHlo.after hostOps0_2 W (Proc.devRef .tc main_v32) : S10000x10240.Idx → EReal)
        = sitofp (F := Ideal) .bf16 (Host.scatter scatter_S10000x10240_S650000x2_S650000_n_01_01_1 IntOp.addi
            (broadcastInDim S10000x10240 ![] bcast_S_S10000x10240 (constantI S_ 32 0#32))
            (pairs (W main_v6) (W main_v3))
            (broadcastInDim S650000 ![] bcast_S_S650000 (constantI S_ 32 1#32))) := by
    intro W; after_results_simp <;> rfl
  have e6 : (V2 m c main_v6 : S650000.Idx → BitVec 32) = Cert.ReferenceIdeal.PRead.val_main_v6 (F := Ideal) (EI m c) :=
    (V2_of m c main_v6 (by decide)).trans (v6_eq m c)
  have e3 : (V2 m c main_v3 : S650000.Idx → BitVec 32) = Cert.ReferenceIdeal.PRead.val_main_v3 (F := Ideal) (EI m c) :=
    (V2_of m c main_v3 (by decide)).trans (v3_eq m c)
  rw [show V3 m c main_v32 = _ from e (V2 m c), e6, e3]
  show ((((Host.scatter scatter_S10000x10240_S650000x2_S650000_n_01_01_1 IntOp.addi _ _ _ (ix2 i j)).toInt : ℤ) : ℝ) : EReal) = _
  rw [Cert.LibIntCount2.scatter_addi_mat_ones_toInt scatter_S10000x10240_S650000x2_S650000_n_01_01_1 rfl rfl rfl rfl (by norm_num)
    _ (fun q => broadcastInDim_apply _ bcast_S_S10000x10240 (constantI S_ 32 0#32) q (fun a => a.elim0) (fun a => a.elim0))
    _ _ (fun q => broadcastInDim_apply _ bcast_S_S650000 (constantI S_ 32 1#32) q (fun a => a.elim0) (fun a => a.elim0)) i j]
  have h0 : ∀ e : Fin 650000, pairs (Cert.ReferenceIdeal.PRead.val_main_v6 (F := Ideal) (EI m c))
      (Cert.ReferenceIdeal.PRead.val_main_v3 (F := Ideal) (EI m c)) (ix2 e (0 : Fin 2)) = DW (EI m c) e := fun e => by
    rw [pairs_left]; exact wrap_apply _ _ _ (hd e).1
  have h1 : ∀ e : Fin 650000, pairs (Cert.ReferenceIdeal.PRead.val_main_v6 (F := Ideal) (EI m c))
      (Cert.ReferenceIdeal.PRead.val_main_v3 (F := Ideal) (EI m c)) (ix2 e (1 : Fin 2)) = SW (EI m c) e := fun e => by
    rw [pairs_right]; exact wrap_apply _ _ _ (hs e).1
  simp only [h0, h1]
  unfold Cert.Spec.cnt
  rw [Int.cast_natCast]

/-- The column of inverse square roots. -/
theorem v15_apply (i : Fin 10000) : (V3 m c main_v15 (ix2 i (0 : Fin 1)) : EReal) = DV (EI m c) i := by
  have e : ∀ W : Valuation τ sig (Elt Ideal), (StableHlo.after hostOps0_2 W (Proc.devRef .tc main_v15) : S10000x1.Idx → EReal)
      = shapeCast S10000x1 (W main_v14 : S10000.Idx → EReal) shapeCasts_S10000_S10000x1 := by
    intro W; after_results <;> rfl
  rw [show V3 m c main_v15 = _ from e (V2 m c), v14_eq m c]
  exact shapeCast_apply _ shapeCasts_S10000_S10000x1 _ (ix1 i) (by
    rw [Shape.rowMajor_val_two, Shape.rowMajor_val_one]
    show i.val = i.val * 1 + 0
    omega)

/-- The arguments the first region reads are as launched. -/
theorem v3_arg0 : V3 m c main_arg0 = m ((c.tc : Thread nD τ).loc main_arg0) := by
  exact (V3_of m c main_arg0 (by decide)).trans <| (V2_of m c main_arg0 (by decide)).trans <| (V1_of m c main_arg0 (by decide)).trans rfl
theorem v3_arg2 : V3 m c main_arg2 = m ((c.tc : Thread nD τ).loc main_arg2) := by
  exact (V3_of m c main_arg2 (by decide)).trans <| (V2_of m c main_arg2 (by decide)).trans <| (V1_of m c main_arg2 (by decide)).trans rfl

variable (outs : Outs (F := Ideal))

/-- The padded feature rows: the first region's output above, zero rows below. -/
theorem v34_apply (j : Fin 10240) (q : Fin 128) :
    (V7 m outs c main_v34 (ix2 j q) : EReal)
      = ((if hj : j.val < 10000 then (outs 4 main_v33 c (ix2 (⟨j.val, hj⟩ : Fin 10000) q) : EReal) else (0 : EReal)) : EReal) := by
  have e7 : V7 m outs c main_v34 = V6 m outs c main_v34 := V7_of m outs c main_v34 (by decide)
  have e : ∀ W : Valuation τ sig (Elt Ideal), (StableHlo.after hostOps1_1 W (Proc.devRef .tc main_v34) : S10240x128.Idx → EReal)
      = pad S10240x128 ![0, 0] ![240, 0] ![0, 0] (W main_v33 : S10000x128.Idx → EReal)
          (sitofp (F := Ideal) .bf16 (W main_c_8 : S_.Idx → BitVec 32)) pads_S10000x128_S10240x128_02400_000 h_S_ := by
    intro W; after_results <;> rfl
  have e5 : V5 m outs c main_v33 = outs 4 main_v33 c :=
    (V5_of m outs c main_v33 (by decide)).trans (Function.update_self _ _ _)
  have ec : ∀ W : Valuation τ sig (Elt Ideal), (StableHlo.after hostOps1 W (Proc.devRef .tc main_c_8) : S_.Idx → BitVec 32) = constantI S_ 32 0#32 := by
    intro W; after_results <;> rfl
  rw [e7, show V6 m outs c main_v34 = _ from e (V5 m outs c), e5, show V5 m outs c main_c_8 = _ from ec (V4 m outs c)]
  by_cases hj : j.val < 10000
  · rw [dif_pos hj]
    refine pad_apply_of_inside _ _ _ _ _ pads_S10000x128_S10240x128_02400_000 h_S_ (ix2 j q) (ix2 (⟨j.val, hj⟩ : Fin 10000) q) fun a => ?_
    match a with
    | ⟨0, _⟩ => show j.val = 0 + j.val * (0 + 1); omega
    | ⟨1, _⟩ => show q.val = 0 + q.val * (0 + 1); omega
  · rw [dif_neg hj]
    rw [pad_apply_of_not_inside _ _ _ _ _ pads_S10000x128_S10240x128_02400_000 h_S_ (ix2 j q) (0 : Fin 2) (by
      show ¬ (0 ≤ j.val ∧ (j.val - 0) % (0 + 1) = 0 ∧ (j.val - 0) / (0 + 1) < 10000)
      omega)]
    show (((0#32 : BitVec 32).toInt : ℝ) : EReal) = 0
    simp

/-- The bias, scale and shift as rows. -/
theorem v35_apply (k : Fin 128) :
    (V7 m outs c main_v35 (ix2 (0 : Fin 1) k) : EReal) = m ((c.tc : Thread nD τ).loc main_arg3) (ix1 k) := by
  have e : (V7 m outs c main_v35 : S1x128.Idx → EReal) = shapeCast S1x128 (V6 m outs c main_arg3 : S128.Idx → EReal) shapeCasts_S128_S1x128 := by
    after_results; rfl
  have e6 : V6 m outs c main_arg3 = m ((c.tc : Thread nD τ).loc main_arg3) :=
    (V6_of m outs c main_arg3 (by decide)).trans <| (V5_of m outs c main_arg3 (by decide)).trans <| (V4_of m outs c main_arg3 (by decide)).trans <| (V3_of m c main_arg3 (by decide)).trans <| (V2_of m c main_arg3 (by decide)).trans <| (V1_of m c main_arg3 (by decide)).trans rfl
  rw [e, e6]
  exact shapeCast_apply _ shapeCasts_S128_S1x128 _ (ix1 k) (by
    rw [Shape.rowMajor_val_two, Shape.rowMajor_val_one]
    show k.val = 0 * 128 + k.val
    omega)
theorem v36_apply (k : Fin 128) :
    (V7 m outs c main_v36 (ix2 (0 : Fin 1) k) : EReal) = m ((c.tc : Thread nD τ).loc main_arg4) (ix1 k) := by
  have e : (V7 m outs c main_v36 : S1x128.Idx → EReal) = shapeCast S1x128 (V6 m outs c main_arg4 : S128.Idx → EReal) shapeCasts_S128_S1x128 := by
    after_results; rfl
  have e6 : V6 m outs c main_arg4 = m ((c.tc : Thread nD τ).loc main_arg4) :=
    (V6_of m outs c main_arg4 (by decide)).trans <| (V5_of m outs c main_arg4 (by decide)).trans <| (V4_of m outs c main_arg4 (by decide)).trans <| (V3_of m c main_arg4 (by decide)).trans <| (V2_of m c main_arg4 (by decide)).trans <| (V1_of m c main_arg4 (by decide)).trans rfl
  rw [e, e6]
  exact shapeCast_apply _ shapeCasts_S128_S1x128 _ (ix1 k) (by
    rw [Shape.rowMajor_val_two, Shape.rowMajor_val_one]
    show k.val = 0 * 128 + k.val
    omega)
theorem v37_apply (k : Fin 128) :
    (V7 m outs c main_v37 (ix2 (0 : Fin 1) k) : EReal) = m ((c.tc : Thread nD τ).loc main_arg5) (ix1 k) := by
  have e : (V7 m outs c main_v37 : S1x128.Idx → EReal) = shapeCast S1x128 (V6 m outs c main_arg5 : S128.Idx → EReal) shapeCasts_S128_S1x128 := by
    after_results; rfl
  have e6 : V6 m outs c main_arg5 = m ((c.tc : Thread nD τ).loc main_arg5) :=
    (V6_of m outs c main_arg5 (by decide)).trans <| (V5_of m outs c main_arg5 (by decide)).trans <| (V4_of m outs c main_arg5 (by decide)).trans <| (V3_of m c main_arg5 (by decide)).trans <| (V2_of m c main_arg5 (by decide)).trans <| (V1_of m c main_arg5 (by decide)).trans rfl
  rw [e, e6]
  exact shapeCast_apply _ shapeCasts_S128_S1x128 _ (ix1 k) (by
    rw [Shape.rowMajor_val_two, Shape.rowMajor_val_one]
    show k.val = 0 * 128 + k.val
    omega)

/-- The later host stretches and the first region leave the count matrix and the column as they were. -/
theorem v7_v32 : V7 m outs c main_v32 = V3 m c main_v32 := by
  exact (V7_of m outs c main_v32 (by decide)).trans <| (V6_of m outs c main_v32 (by decide)).trans <| (V5_of m outs c main_v32 (by decide)).trans <| (V4_of m outs c main_v32 (by decide))
theorem v7_v15 : V7 m outs c main_v15 = V3 m c main_v15 := by
  exact (V7_of m outs c main_v15 (by decide)).trans <| (V6_of m outs c main_v15 (by decide)).trans <| (V5_of m outs c main_v15 (by decide)).trans <| (V4_of m outs c main_v15 (by decide))

end Cert.KernelIdeal.KerHost

end
-- ==== Proof.KerValue.lean ====
/-
  The kernel's result, read at an index at the ideal values, in the terms the reference is read in.

  The second region leaves in the result array, at row i, the layer normalisation of the row
  "((0 + Σ_{j<5120} A[i, j]·h[j, ·]) + Σ_{j<5120} A[i, 5120+j]·h[5120+j, ·]) · s[i] + bias" of the arrays it found. Those
  arrays are what the host code prepared: A[i, j] is the number of edges from j into i; h is the first region's output
  — (x·W)[j, ·] · s[j] — above 240 zero rows; s is the column of inverse square roots of the degrees; the bias, scale and
  shift are the arguments. So the row is the count-matrix spelling of the aggregation, term for term.
-/
import proofs.«422284_j11982958756494_3_alg».proof.Proof.Run
import proofs.«422284_j11982958756494_3_alg».proof.Proof.R0Value
import proofs.«422284_j11982958756494_3_alg».proof.Proof.R1Value
import proofs.«422284_j11982958756494_3_alg».proof.Proof.KerHost
import proofs.«422284_j11982958756494_3_alg».proof.Proof.LibPlainDot

set_option maxRecDepth 16384

noncomputable section

open scoped BigOperators

namespace Cert.KernelIdeal.KerValue

open Cert.KernelIdeal Cert.KernelIdeal.Gen
open Idealize.ShloMosaic Idealize.ShloMosaic.TcCoe Idealize.ShloMosaic.ValueIdx Idealize.SL.Sem
open Cert.Names Cert.KernelIdeal.KerHost

variable (m : (ℓ : Loc nD τ sig) → Buf (Elt Ideal) ℓ) (c : Dev nD)

/-- The transformed features as the plain sum of products. -/
theorem H_eq (x : FVec Ideal Cert.ReferenceIdeal.S10000x128 .f32) (W : FVec Ideal Cert.ReferenceIdeal.S128x128 .f32)
    (j : Fin 10000) (k : Fin 128) :
    H x W j k = ∑ kk : Fin 128, (x (ix2 j kk) : EReal) * (W (ix2 kk k) : EReal) := by
  unfold H Cert.ReferenceIdeal.PRead.val_main_v30
  exact (congrFun (Cert.LibPlainDot.dotGeneral_eq_matProd (D := Cert.ReferenceIdeal.dot_S10000x128_S128x128_S10000x128_1_0_0_1_n_n)
    rfl rfl rfl rfl rfl rfl none HostSchedule.single x W) (ix2 j k)).trans (Cert.LibPlainDot.matProd_ix2 _ _ j k)

/-- The first region's output, at (j, k): the transformed features scaled by the row's inverse square root. -/
theorem o33_apply (j : Fin 10000) (k : Fin 128) :
    (Run.O33 (F := Ideal) m c (ix2 j k) : EReal) = H (X m c) (WW m c) j k * DV (EI m c) j := by
  have h := R0V.arr0 (Run.VR3 (F := Ideal) m) c j k
  refine h.trans ?_
  rw [H_eq]
  have e0 : R0V.xarr (Run.VR3 (F := Ideal) m) c = X m c := v3_arg0 m c
  have e2 : R0V.warr (Run.VR3 (F := Ideal) m) c = WW m c := v3_arg2 m c
  have es : (R0V.sarr (Run.VR3 (F := Ideal) m) c (ix2 j (0 : Fin 1)) : EReal) = DV (EI m c) j := v15_apply m c j
  rw [e0, e2, es]

/-- The kernel's result at (i, q). -/
theorem result_apply (hs : Cert.Spec.InRange (SW (EI m c))) (hd : Cert.Spec.InRange (DW (EI m c))) (i : Fin 10000) (q : Fin 128) :
    (Run.O38 (F := Ideal) m c (ix2 i q) : EReal)
      = Cert.LibLayerNorm.layerNorm (Ideal.ofBits .f32 0x43000000#32) (Ideal.ofBits .f32 0x3727C5AC#32)
          (fun k => Cert.Spec.aggKer (SW (EI m c)) (DW (EI m c)) (DV (EI m c)) (H (X m c) (WW m c))
            (fun k => (m ((c.tc : Thread nD τ).loc main_arg3) (ix1 k) : EReal)) i k)
          (fun k => (m ((c.tc : Thread nD τ).loc main_arg4) (ix1 k) : EReal))
          (fun k => (m ((c.tc : Thread nD τ).loc main_arg5) (ix1 k) : EReal)) q := by
  have h := R1V.arr1 (Run.VR7 (F := Ideal) m) c i q
  refine h.trans ?_
  -- the arrays the second region found, one by one
  have ea : ∀ j : Fin 10240, (R1V.aarr (Run.VR7 (F := Ideal) m) c (ix2 i j) : EReal)
      = Cert.Spec.cnt (SW (EI m c)) (DW (EI m c)) i j := fun j =>
    (congrFun (v7_v32 m c (Run.outsA m)) (ix2 i j)).trans (v32_apply m c hs hd i j)
  have eh : ∀ (j : Fin 10240) (k : Fin 128), (R1V.harr (Run.VR7 (F := Ideal) m) c (ix2 j k) : EReal)
      = Cert.Spec.hpad (DV (EI m c)) (H (X m c) (WW m c)) j k := fun j k => by
    refine (v34_apply m c (Run.outsA m) j k).trans ?_
    unfold Cert.Spec.hpad
    by_cases hj : j.val < 10000
    · rw [dif_pos hj, dif_pos hj]
      have e := congrFun (Run.outsA_33 (F := Ideal) m c) (ix2 (⟨j.val, hj⟩ : Fin 10000) k)
      exact e.trans (o33_apply m c ⟨j.val, hj⟩ k)
    · rw [dif_neg hj, dif_neg hj]
  have es : (R1V.sarr (Run.VR7 (F := Ideal) m) c (ix2 i (0 : Fin 1)) : EReal) = DV (EI m c) i :=
    (congrFun (v7_v15 m c (Run.outsA m)) (ix2 i (0 : Fin 1))).trans (v15_apply m c i)
  have eb : ∀ k : Fin 128, (R1V.barr (Run.VR7 (F := Ideal) m) c (ix2 (0 : Fin 1) k) : EReal)
      = m ((c.tc : Thread nD τ).loc main_arg3) (ix1 k) := fun k => v35_apply m c (Run.outsA m) k
  have eg : ∀ k : Fin 128, (R1V.garr (Run.VR7 (F := Ideal) m) c (ix2 (0 : Fin 1) k) : EReal)
      = m ((c.tc : Thread nD τ).loc main_arg4) (ix1 k) := fun k => v36_apply m c (Run.outsA m) k
  have ee : ∀ k : Fin 128, (R1V.earr (Run.VR7 (F := Ideal) m) c (ix2 (0 : Fin 1) k) : EReal)
      = m ((c.tc : Thread nD τ).loc main_arg5) (ix1 k) := fun k => v37_apply m c (Run.outsA m) k
  simp only [ea, eh, es, eb, eg, ee]
  rfl

end Cert.KernelIdeal.KerValue

end
-- ==== Proof.LibGatherVec.lean ====
/-
  Reading a gather of single elements out of a vector at one element.

  `gather_vec_apply`: element `e` of a gather of `M` elements out of a vector of length `N`, the positions named by a
  column of `M` words, is the vector's element at word `e`, read signed and clamped into `[0, N - 1]`.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibGatherVec

open Idealize.ShloMosaic Idealize.ShloMosaic.ValueIdx

/-- The element gather's dimension numbers: no offset axes, the operand's one axis collapsed and start-indexed, no
    batching axes, the index vector on axis 1 of the column of words, slices one element wide. -/
abbrev vecGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- On the operand's one axis the index read is the clamped start: the word at row `e` of the column read signed, cut
    into `[0, N - 1]`; the axis is collapsed, so there is no batching and no offset coordinate. -/
theorem vecGather_axis0 {N M w : Nat}
    (wf : GatherDims.WF ⟨1, ![N]⟩ ⟨2, ![M, 1]⟩ ⟨1, ![M]⟩ [] [0] [] [0] [] 1 ![1])
    (idx : IVec ⟨2, ![M, 1]⟩ w) (e : Fin M) :
    ((vecGatherDims N M wf).operandIdx (ix1 e) idx 0).val = min (idx (ix2 e (0 : Fin 1))).toInt.toNat (N - 1) := by
  show (vecGatherDims N M wf).start (ix1 e) idx 0 + (vecGatherDims N M wf).batchCoord (ix1 e) 0
    + (vecGatherDims N M wf).offCoord (ix1 e) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 1) ∈ (vecGatherDims N M wf).startIndexMap from List.mem_singleton.mpr rfl)]
  have hsi : (vecGatherDims N M wf).siIdx (ix1 e) ⟨List.idxOf (0 : Fin 1) (vecGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE ELEMENT GATHER READ AT `e`: the vector at "word `e`, read signed and clamped into `[0, N - 1]`". -/
theorem gather_vec_apply {α : Type} {N M w : Nat} (d : GatherDims ⟨1, ![N]⟩ ⟨2, ![M, 1]⟩ ⟨1, ![M]⟩)
    (hoff : d.offsetDims = []) (hcoll : d.collapsedSliceDims = [0]) (hob : d.operandBatchingDims = [])
    (hsb : d.startIndicesBatchingDims = []) (hsim : d.startIndexMap = [0]) (hivd : d.indexVectorDim = 1)
    (hss : d.sliceSizes = ![1])
    (x : (⟨1, ![N]⟩ : Shape).Idx → α) (idx : IVec ⟨2, ![M, 1]⟩ w) (e : Fin M) (hN : 0 < N) :
    Host.gather d x idx (ix1 e)
      = x (ix1 (⟨min (idx (ix2 e (0 : Fin 1))).toInt.toNat (N - 1), by omega⟩ : Fin N)) := by
  obtain ⟨od, cd, ob, sb, sm, ivd, ss, wf⟩ := d
  simp only at hoff hcoll hob hsb hsim hivd hss
  subst hoff hcoll hob hsb hsim hivd hss
  show x ((vecGatherDims N M wf).operandIdx (ix1 e) idx) = _
  congr 1
  funext a
  obtain rfl : a = 0 := Subsingleton.elim _ _
  exact Fin.ext (vecGather_axis0 wf idx e)

end Cert.LibGatherVec

end
-- ==== Proof.RefValue.lean ====
/-
  The reference, read at an index: before the normalisation its row i, feature d, is the aggregation with one term per
  edge (the scatter-add of the gathered, weighted feature rows, plus the bias); its result is the layer normalisation of
  that row.
-/
import proofs.«422284_j11982958756494_3_alg».proof.Proof.Names
import proofs.«422284_j11982958756494_3_alg».proof.Proof.LibScatterGather
import proofs.«422284_j11982958756494_3_alg».proof.Proof.LibGatherVec
import proofs.«422284_j11982958756494_3_alg».proof.Proof.LibLayerNorm

noncomputable section

open scoped BigOperators

namespace Cert.RefValue

open Idealize.ShloMosaic Idealize.ShloMosaic.ValueIdx Cert.ReferenceIdeal Cert.Names

/-- A word that, read signed, is not negative is not below the zero word, so the wrap-around select leaves it. -/
theorem norm_word (w c : BitVec 32) (h : 0 ≤ w.toInt) :
    Scalar.select (IntOp.cmpi .slt w 0#32) (IntOp.addi w c) w = w := by
  have hlt : w.slt 0#32 = false := by
    show decide (w.toInt < (0#32 : BitVec 32).toInt) = false
    apply decide_eq_false
    rw [BitVec.toInt_zero]
    omega
  have hc : IntOp.cmpi .slt w 0#32 = 0#1 := by
    show BitVec.ofBool (w.slt 0#32) = 0#1
    rw [hlt]; rfl
  unfold Scalar.select
  rw [hc, if_neg (by decide)]

/-! ## The normalised words are the words -/

theorem v19_at (ei : IVec S2x640000 32) (hs : Cert.Spec.InRange (SW ei)) (e : Fin 650000) :
    PRead.val_main_v19 (F := Ideal) ei (ix1 e) = SW ei e := by
  rw [PRead.val_main_v19_apply, PRead.val_main_v16_apply, PRead.val_main_v15_apply, PRead.val_main_c_apply]
  exact norm_word _ _ (hs e).1

theorem v35_at (ei : IVec S2x640000 32) (hs : Cert.Spec.InRange (SW ei)) (e : Fin 650000) :
    PRead.val_main_v35 (F := Ideal) ei (ix1 e) = SW ei e := by
  rw [PRead.val_main_v35_apply, PRead.val_main_v32_apply, PRead.val_main_v31_apply, PRead.val_main_c_6_apply]
  exact norm_word _ _ (hs e).1

theorem v26_at (ei : IVec S2x640000 32) (hd : Cert.Spec.InRange (DW ei)) (e : Fin 650000) :
    PRead.val_main_v26 (F := Ideal) ei (ix1 e) = DW ei e := by
  rw [PRead.val_main_v26_apply, PRead.val_main_v23_apply, PRead.val_main_v22_apply, PRead.val_main_c_4_apply]
  exact norm_word _ _ (hd e).1

theorem v20_at (ei : IVec S2x640000 32) (hs : Cert.Spec.InRange (SW ei)) (e : Fin 650000) :
    PRead.val_main_v20 (F := Ideal) ei (ix2 e (0 : Fin 1)) = SW ei e := by
  rw [PRead.val_main_v20_apply]
  have hi : PRead.idx_main_v20 (ix2 e (0 : Fin 1)) = ix1 e := by
    funext a
    match a with
    | ⟨0, _⟩ => rfl
  rw [hi, v19_at ei hs e]

theorem v36_at (ei : IVec S2x640000 32) (hs : Cert.Spec.InRange (SW ei)) (e : Fin 650000) :
    PRead.val_main_v36 (F := Ideal) ei (ix2 e (0 : Fin 1)) = SW ei e := by
  rw [PRead.val_main_v36_apply]
  have hi : PRead.idx_main_v36 (ix2 e (0 : Fin 1)) = ix1 e := by
    funext a
    match a with
    | ⟨0, _⟩ => rfl
  rw [hi, v35_at ei hs e]

theorem v27_at (ei : IVec S2x640000 32) (hd : Cert.Spec.InRange (DW ei)) (e : Fin 650000) :
    PRead.val_main_v27 (F := Ideal) ei (ix2 e (0 : Fin 1)) = DW ei e := by
  rw [PRead.val_main_v27_apply]
  have hi : PRead.idx_main_v27 (ix2 e (0 : Fin 1)) = ix1 e := by
    funext a
    match a with
    | ⟨0, _⟩ => rfl
  rw [hi, v26_at ei hd e]

theorem v42_at (ei : IVec S2x640000 32) (e : Fin 650000) :
    PRead.val_main_v42 (F := Ideal) ei (ix2 e (0 : Fin 1)) = DW ei e := by
  rw [PRead.val_main_v42_apply]
  have hi : PRead.idx_main_v42 (ix2 e (0 : Fin 1)) = ix1 e := by
    funext a
    match a with
    | ⟨0, _⟩ => rfl
  rw [hi]
  rfl

/-! ## The gathers -/

theorem v21_at (ei : IVec S2x640000 32) (hs : Cert.Spec.InRange (SW ei)) (e : Fin 650000) :
    PRead.val_main_v21 (F := Ideal) ei (ix1 e) = DV ei (Cert.Spec.node (SW ei) e) := by
  unfold PRead.val_main_v21
  have hg := Cert.LibGatherVec.gather_vec_apply gather_S10000_S650000x1_S650000_n_0_n_n_0_1_1 rfl rfl rfl rfl rfl rfl rfl
    (PRead.val_main_v14 (F := Ideal) ei) (PRead.val_main_v20 (F := Ideal) ei) e (by decide)
  refine hg.trans (congrArg (fun n => PRead.val_main_v14 (F := Ideal) ei (ix1 n)) (Fin.ext ?_))
  show min (PRead.val_main_v20 (F := Ideal) ei (ix2 e (0 : Fin 1))).toInt.toNat (10000 - 1) = min (SW ei e).toInt.toNat 9999
  rw [v20_at ei hs e]

theorem v28_at (ei : IVec S2x640000 32) (hd : Cert.Spec.InRange (DW ei)) (e : Fin 650000) :
    PRead.val_main_v28 (F := Ideal) ei (ix1 e) = DV ei (Cert.Spec.node (DW ei) e) := by
  unfold PRead.val_main_v28
  have hg := Cert.LibGatherVec.gather_vec_apply gather_S10000_S650000x1_S650000_n_0_n_n_0_1_1 rfl rfl rfl rfl rfl rfl rfl
    (PRead.val_main_v14 (F := Ideal) ei) (PRead.val_main_v27 (F := Ideal) ei) e (by decide)
  refine hg.trans (congrArg (fun n => PRead.val_main_v14 (F := Ideal) ei (ix1 n)) (Fin.ext ?_))
  show min (PRead.val_main_v27 (F := Ideal) ei (ix2 e (0 : Fin 1))).toInt.toNat (10000 - 1) = min (DW ei e).toInt.toNat 9999
  rw [v27_at ei hd e]

theorem v37_at (x : FVec Ideal S10000x128 .f32) (ei : IVec S2x640000 32) (W : FVec Ideal S128x128 .f32)
    (hs : Cert.Spec.InRange (SW ei)) (e : Fin 650000) (d : Fin 128) :
    PRead.val_main_v37 (F := Ideal) x ei W (ix2 e d) = H x W (Cert.Spec.node (SW ei) e) d := by
  unfold PRead.val_main_v37
  have hg := Cert.LibScatterGather.gather_rows_apply gather_S10000x128_S650000x1_S650000x128_1_0_n_n_0_1_1128
    rfl rfl rfl rfl rfl rfl rfl
    (PRead.val_main_v30 (F := Ideal) x W) (PRead.val_main_v36 (F := Ideal) ei) e d (by decide)
  refine hg.trans (congrArg (fun n => PRead.val_main_v30 (F := Ideal) x W (ix2 n d)) (Fin.ext ?_))
  show min (PRead.val_main_v36 (F := Ideal) ei (ix2 e (0 : Fin 1))).toInt.toNat (10000 - 1) = min (SW ei e).toInt.toNat 9999
  rw [v36_at ei hs e]

/-! ## The weighted rows and the bias -/

theorem v39_at (ei : IVec S2x640000 32) (hs : Cert.Spec.InRange (SW ei)) (hd : Cert.Spec.InRange (DW ei))
    (e : Fin 650000) (d : Fin 128) :
    PRead.val_main_v39 (F := Ideal) ei (ix2 e d)
      = DV ei (Cert.Spec.node (SW ei) e) * DV ei (Cert.Spec.node (DW ei) e) := by
  rw [PRead.val_main_v39_apply, PRead.val_main_v38_apply]
  have hi : PRead.idx_main_v38 (PRead.idx_main_v39 (ix2 e d)) = ix1 e := by
    funext a
    match a with
    | ⟨0, _⟩ => rfl
  rw [hi, PRead.val_main_v29_apply, Ideal.mulf_def, v21_at ei hs e, v28_at ei hd e]

theorem v45_at (b : FVec Ideal S128 .f32) (i : Fin 10000) (d : Fin 128) :
    PRead.val_main_v45 (F := Ideal) b (ix2 i d) = b (ix1 d) := by
  rw [PRead.val_main_v45_apply, PRead.val_main_v44_apply]
  congr 1
  funext a
  match a with
  | ⟨0, _⟩ => rfl

/-- Before the normalisation: the aggregation, one term per edge. -/
theorem ref_pre (x : FVec Ideal S10000x128 .f32) (ei : IVec S2x640000 32) (W : FVec Ideal S128x128 .f32) (b : FVec Ideal S128 .f32)
    (hs : Cert.Spec.InRange (SW ei)) (hd : Cert.Spec.InRange (DW ei)) (i : Fin 10000) (d : Fin 128) :
    PRead.val_main_v46 (F := Ideal) x ei W b (ix2 i d)
      = Cert.Spec.aggRef (SW ei) (DW ei) (DV ei) (H x W) (fun k => b (ix1 k)) i d := by
  have hsc := Cert.LibScatterGather.scatterAdd_rows_apply (φ := .f32)
    scatter_S10000x128_S650000x1_S650000x128_1_0_0_1 rfl rfl rfl rfl
    (PRead.val_main_v41 (F := Ideal)) (PRead.val_main_v42 (F := Ideal) ei) (PRead.val_main_v40 (F := Ideal) x ei W) i d
  have h0 : PRead.val_main_v41 (F := Ideal) (ix2 i d) = 0 := by
    rw [PRead.val_main_v41_apply, PRead.val_main_cst_8_apply]
    exact Ideal.ofBits_zero_f32
  have h43 : PRead.val_main_v43 (F := Ideal) x ei W (ix2 i d)
      = 0 + ∑ e : Fin 650000, if (DW ei e).toInt = (i.val : ℤ)
          then H x W (Cert.Spec.node (SW ei) e) d * (DV ei (Cert.Spec.node (SW ei) e) * DV ei (Cert.Spec.node (DW ei) e)) else 0 := by
    refine hsc.trans ?_
    rw [h0]
    refine congrArg (_ + ·) (Finset.sum_congr rfl fun e _ => ?_)
    rw [v42_at ei e, PRead.val_main_v40_apply, Ideal.mulf_def, v37_at x ei W hs e d, v39_at ei hs hd e d]
  rw [PRead.val_main_v46_apply, Ideal.addf_def, h43, v45_at]
  rfl

/-- The result: the layer normalisation of the aggregated row. -/
theorem ref_out (x : FVec Ideal S10000x128 .f32) (ei : IVec S2x640000 32) (W : FVec Ideal S128x128 .f32) (b g be : FVec Ideal S128 .f32)
    (i : Fin 10000) (d : Fin 128) :
    PRead.val_main_v70 (F := Ideal) x ei W b g be (ix2 i d)
      = Cert.LibLayerNorm.layerNorm (Ideal.ofBits .f32 0x43000000#32) (Ideal.ofBits .f32 0x3727C5AC#32)
          (fun k => PRead.val_main_v46 (F := Ideal) x ei W b (ix2 i k)) (fun k => g (ix1 k)) (fun k => be (ix1 k)) d := by
  have hred : (⟨2, ![10000, 128]⟩ : Shape).Reduces [1] ⟨1, ![10000]⟩ := by decide
  have hshape : PRead.val_main_v70 (F := Ideal) x ei W b g be
      = Cert.LibLayerNorm.hNorm (R := 10000) (C := 128) Gen.reducesTo_S10000x128_S10000_d1 Gen.h_S_ Gen.bcast_S10000_S10000x1_0
          Gen.bcast_S_S10000x1 Gen.bcast_S10000x1_S10000x128_0_1 Gen.bcast_S128_S1x128_1 Gen.bcast_S1x128_S10000x128_0_1
          0x43000000#32 0x3727C5AC#32 (PRead.val_main_v46 (F := Ideal) x ei W b)
          (Cert.LibLayerNorm.hMean (R := 10000) (C := 128) Gen.reducesTo_S10000x128_S10000_d1 Gen.h_S_ Gen.bcast_S10000_S10000x1_0
            Gen.bcast_S_S10000x1 0x43000000#32 (PRead.val_main_v46 (F := Ideal) x ei W b)) g be := rfl
  rw [hshape]
  exact Cert.LibLayerNorm.hNorm_apply Gen.reducesTo_S10000x128_S10000_d1 Gen.h_S_ hred Gen.bcast_S10000_S10000x1_0
    Gen.bcast_S_S10000x1 Gen.bcast_S10000x1_S10000x128_0_1 Gen.bcast_S128_S1x128_1 Gen.bcast_S1x128_S10000x128_0_1
    0x43000000#32 0x3727C5AC#32 _ _ g be
    (fun p => Cert.LibLayerNorm.hMean_apply Gen.reducesTo_S10000x128_S10000_d1 Gen.h_S_ hred Gen.bcast_S10000_S10000x1_0
      Gen.bcast_S_S10000x1 0x43000000#32 _ p 0) i d

end Cert.RefValue

end
-- ==== Proof.Facts.lean ====
/-
  Facts about the shared quantities: when every word of the edge array is a node, so is every source and destination word
  (a given word, or a self loop's node number); the inverse square roots of the degrees are real numbers whatever the
  edges (a degree is a count: zero gives 0, a positive count its inverse square root); and x · W is real when x and W are.
-/
import proofs.«422284_j11982958756494_3_alg».proof.Proof.Names
import proofs.«422284_j11982958756494_3_alg».proof.Proof.LibScatterGather
import Idealize.ShloMosaic.PureOps.Ideal.Laws
import Idealize.ShloMosaic.Lib.Pipeline.Value
import Idealize.ShloMosaic.Lib.StableHlo.Predicate

noncomputable section

open scoped BigOperators

namespace Cert.Facts

open Idealize.ShloMosaic Idealize.ShloMosaic.ValueIdx Cert.ReferenceIdeal Cert.Names

/-- A finite sum of nonnegative reals, taken in the extended reals, is a nonnegative real. -/
theorem sum_real_nonneg {ι : Type*} (s : Finset ι) (f : ι → EReal)
    (hf : ∀ e ∈ s, ∃ r : ℝ, 0 ≤ r ∧ f e = (r : EReal)) : ∃ r : ℝ, 0 ≤ r ∧ ∑ e ∈ s, f e = (r : EReal) := by
  classical
  induction s using Finset.induction_on with
  | empty => exact ⟨0, le_refl _, by simp⟩
  | insert a s ha ih =>
    obtain ⟨r1, h1, e1⟩ := hf a (Finset.mem_insert_self _ _)
    obtain ⟨r2, h2, e2⟩ := ih (fun e he => hf e (Finset.mem_insert_of_mem he))
    exact ⟨r1 + r2, add_nonneg h1 h2, by rw [Finset.sum_insert ha, e1, e2, EReal.coe_add]⟩

/-- A finite sum of reals, taken in the extended reals, is a real. -/
theorem sum_real {ι : Type*} (s : Finset ι) (f : ι → EReal)
    (hf : ∀ e ∈ s, ∃ r : ℝ, f e = (r : EReal)) : ∃ r : ℝ, ∑ e ∈ s, f e = (r : EReal) := by
  classical
  induction s using Finset.induction_on with
  | empty => exact ⟨0, by simp⟩
  | insert a s ha ih =>
    obtain ⟨r1, e1⟩ := hf a (Finset.mem_insert_self _ _)
    obtain ⟨r2, e2⟩ := ih (fun e he => hf e (Finset.mem_insert_of_mem he))
    exact ⟨r1 + r2, by rw [Finset.sum_insert ha, e1, e2, EReal.coe_add]⟩

/-- The first 640000 source words are row 0 of the edge array. -/
theorem v3_left (ei : IVec S2x640000 32) (e : Fin 650000) (he : e.val < 640000) :
    PRead.val_main_v3 (F := Ideal) ei (ix1 e) = ei (ix2 (0 : Fin 2) (⟨e.val, he⟩ : Fin 640000)) := by
  have h1 : PRead.val_main_v3 (F := Ideal) ei (ix1 e) = PRead.val_main_v2 (F := Ideal) ei (ix1 (⟨e.val, he⟩ : Fin 640000)) := by
    unfold PRead.val_main_v3
    exact concatenate_pair_apply_left (t := S650000) (s₁ := S640000) (s₂ := S10000) 0 _ _ _ (ix1 e) rfl (ix1 (⟨e.val, he⟩ : Fin 640000))
      (fun b => by match b with | ⟨0, _⟩ => rfl)
  rw [h1, PRead.val_main_v2_apply, PRead.val_main_v1_apply]
  congr 1
  funext a
  match a with
  | ⟨0, _⟩ => rfl
  | ⟨1, _⟩ => exact Fin.ext (Nat.mod_eq_of_lt he)

/-- The last 10000 source words are the node numbers. -/
theorem v3_right (ei : IVec S2x640000 32) (e : Fin 650000) (he : 640000 ≤ e.val) :
    PRead.val_main_v3 (F := Ideal) ei (ix1 e) = BitVec.ofNat 32 (e.val - 640000) := by
  have he' : e.val - 640000 < 10000 := by have := e.isLt; omega
  have h1 : PRead.val_main_v3 (F := Ideal) ei (ix1 e) = PRead.val_main_v0 (F := Ideal) (ix1 (⟨e.val - 640000, he'⟩ : Fin 10000)) := by
    unfold PRead.val_main_v3
    exact concatenate_pair_apply_right (t := S650000) (s₁ := S640000) (s₂ := S10000) 0 _ _ _ (ix1 e) rfl rfl (ix1 (⟨e.val - 640000, he'⟩ : Fin 10000))
      (fun b hb => absurd (Subsingleton.elim _ _) hb)
      (by show e.val - 640000 + 640000 = e.val; omega)
  rw [h1, PRead.val_main_v0_apply]

/-- Source words are nodes. -/
theorem sw_range (ei : IVec S2x640000 32) (hr : ∀ j, 0 ≤ (ei j).toInt ∧ (ei j).toInt < 10000) : Cert.Spec.InRange (SW ei) := by
  intro e
  show 0 ≤ (PRead.val_main_v3 (F := Ideal) ei (ix1 e)).toInt ∧ (PRead.val_main_v3 (F := Ideal) ei (ix1 e)).toInt < 10000
  by_cases he : e.val < 640000
  · rw [v3_left ei e he]; exact hr _
  · have he' : e.val - 640000 < 10000 := by have := e.isLt; omega
    rw [v3_right ei e (by omega), StableHlo.Predicate.toInt_ofNat_small _ (by omega)]
    omega

/-- The first 640000 destination words are row 1 of the edge array. -/
theorem v6_left (ei : IVec S2x640000 32) (e : Fin 650000) (he : e.val < 640000) :
    PRead.val_main_v6 (F := Ideal) ei (ix1 e) = ei (ix2 (1 : Fin 2) (⟨e.val, he⟩ : Fin 640000)) := by
  have h1 : PRead.val_main_v6 (F := Ideal) ei (ix1 e) = PRead.val_main_v5 (F := Ideal) ei (ix1 (⟨e.val, he⟩ : Fin 640000)) := by
    unfold PRead.val_main_v6
    exact concatenate_pair_apply_left (t := S650000) (s₁ := S640000) (s₂ := S10000) 0 _ _ _ (ix1 e) rfl (ix1 (⟨e.val, he⟩ : Fin 640000))
      (fun b => by match b with | ⟨0, _⟩ => rfl)
  rw [h1, PRead.val_main_v5_apply, PRead.val_main_v4_apply]
  congr 1
  funext a
  match a with
  | ⟨0, _⟩ => rfl
  | ⟨1, _⟩ => exact Fin.ext (Nat.mod_eq_of_lt he)

/-- The last 10000 destination words are the node numbers. -/
theorem v6_right (ei : IVec S2x640000 32) (e : Fin 650000) (he : 640000 ≤ e.val) :
    PRead.val_main_v6 (F := Ideal) ei (ix1 e) = BitVec.ofNat 32 (e.val - 640000) := by
  have he' : e.val - 640000 < 10000 := by have := e.isLt; omega
  have h1 : PRead.val_main_v6 (F := Ideal) ei (ix1 e) = PRead.val_main_v0 (F := Ideal) (ix1 (⟨e.val - 640000, he'⟩ : Fin 10000)) := by
    unfold PRead.val_main_v6
    exact concatenate_pair_apply_right (t := S650000) (s₁ := S640000) (s₂ := S10000) 0 _ _ _ (ix1 e) rfl rfl (ix1 (⟨e.val - 640000, he'⟩ : Fin 10000))
      (fun b hb => absurd (Subsingleton.elim _ _) hb)
      (by show e.val - 640000 + 640000 = e.val; omega)
  rw [h1, PRead.val_main_v0_apply]

/-- Destination words are nodes. -/
theorem dw_range (ei : IVec S2x640000 32) (hr : ∀ j, 0 ≤ (ei j).toInt ∧ (ei j).toInt < 10000) : Cert.Spec.InRange (DW ei) := by
  intro e
  show 0 ≤ (PRead.val_main_v6 (F := Ideal) ei (ix1 e)).toInt ∧ (PRead.val_main_v6 (F := Ideal) ei (ix1 e)).toInt < 10000
  by_cases he : e.val < 640000
  · rw [v6_left ei e he]; exact hr _
  · have he' : e.val - 640000 < 10000 := by have := e.isLt; omega
    rw [v6_right ei e (by omega), StableHlo.Predicate.toInt_ofNat_small _ (by omega)]
    omega

/-- The f32 pattern of one is the real one. -/
theorem one_f32 : Ideal.ofBits .f32 0x3F800000#32 = ((1 : ℝ) : EReal) := by
  simp [Ideal.ofBits, Ideal.ieee, -EReal.coe_mul]; norm_num

/-- A degree is a nonnegative real: zero plus one term, 1 or 0, per edge. -/
theorem deg_real (ei : IVec S2x640000 32) (i : Fin 10000) :
    ∃ r : ℝ, 0 ≤ r ∧ PRead.val_main_v10 (F := Ideal) ei (ix1 i) = (r : EReal) := by
  unfold PRead.val_main_v10
  rw [Cert.LibScatterGather.scatterAdd_vec_apply _ rfl rfl rfl rfl]
  obtain ⟨r, hr, e⟩ := sum_real_nonneg Finset.univ
    (fun e : Fin 650000 => if (PRead.val_main_v9 (F := Ideal) ei (ix2 e (0 : Fin 1))).toInt = (i.val : ℤ)
        then PRead.val_main_v7 (F := Ideal) (ix1 e) else 0)
    (fun e _ => by
      by_cases hc : (PRead.val_main_v9 (F := Ideal) ei (ix2 e (0 : Fin 1))).toInt = (i.val : ℤ)
      · rw [if_pos hc]
        refine ⟨1, zero_le_one, ?_⟩
        rw [PRead.val_main_v7_apply, PRead.val_main_cst_apply]
        exact one_f32
      · rw [if_neg hc]; exact ⟨0, le_refl _, EReal.coe_zero.symm⟩)
  refine ⟨r, hr, ?_⟩
  rw [e, PRead.val_main_v8_apply, PRead.val_main_cst_0_apply]
  show Ideal.ofBits .f32 0x00000000#32 + (r : EReal) = r
  rw [Ideal.ofBits_zero_f32, zero_add]

/-- The inverse square roots of the degrees are real. -/
theorem dv_real (ei : IVec S2x640000 32) : ∀ i, ∃ r : ℝ, DV ei i = (r : EReal) := by
  intro i
  obtain ⟨r, hr, e⟩ := deg_real ei i
  show ∃ r' : ℝ, PRead.val_main_v14 (F := Ideal) ei (ix1 i) = (r' : EReal)
  rw [PRead.val_main_v14_apply, PRead.val_main_v12_apply, PRead.val_main_v13_apply, e, PRead.val_main_v11_apply,
    PRead.val_main_cst_1_apply, PRead.val_main_call0_v1_apply, PRead.val_main_call0_v0_apply, PRead.val_main_cst_2_apply]
  show ∃ r' : ℝ, Scalar.select (Ideal.cmp .ogt (r : EReal) (Ideal.ofBits .f32 0x00000000#32)) (Ideal.rsqrt (r : EReal))
      (Ideal.ofBits .f32 0x00000000#32) = (r' : EReal)
  rw [Ideal.ofBits_zero_f32]
  by_cases hpos : 0 < r
  · have hlt : (0 : EReal) < (r : EReal) := by exact_mod_cast hpos
    have hc : Ideal.cmp .ogt (r : EReal) 0 = 1#1 := by
      show BitVec.ofBool (decide ((0 : EReal) < (r : EReal))) = 1#1
      rw [decide_eq_true hlt]; rfl
    rw [hc, select_one, Ideal.rsqrt_coe, if_neg (not_lt.2 hr), if_neg (ne_of_gt hpos)]
    exact ⟨_, rfl⟩
  · have hlt : ¬ (0 : EReal) < (r : EReal) := by intro h; exact hpos (by exact_mod_cast h)
    have hc : Ideal.cmp .ogt (r : EReal) 0 = 0#1 := by
      show BitVec.ofBool (decide ((0 : EReal) < (r : EReal))) = 0#1
      rw [decide_eq_false hlt]; rfl
    rw [hc, select_zero]
    exact ⟨0, EReal.coe_zero.symm⟩

/-- The transformed features are real when the features and the weights are. -/
theorem h_real (x : FVec Ideal S10000x128 .f32) (W : FVec Ideal S128x128 .f32)
    (hx : ∀ j, ∃ r : ℝ, x j = (r : EReal)) (hW : ∀ j, ∃ r : ℝ, W j = (r : EReal)) :
    ∀ i d, ∃ r : ℝ, H x W i d = (r : EReal) := by
  intro i d
  show ∃ r : ℝ, PRead.val_main_v30 (F := Ideal) x W (ix2 i d) = (r : EReal)
  rw [PRead.val_main_v30_apply]
  refine sum_real _ _ (fun k _ => ?_)
  obtain ⟨a, ha⟩ := hx (PRead.lidx_main_v30 (ix2 i d) k)
  obtain ⟨b, hb⟩ := hW (PRead.ridx_main_v30 (ix2 i d) k)
  exact ⟨a * b, by rw [ha, hb, EReal.coe_mul]⟩

end Cert.Facts

end
-- ==== Proof.PreFacts.lean ====
/-
  What the precondition says, read off its printed predicate: when the predicate is all ones, every entry of the feature
  matrix and of the weight matrix is a real number (its absolute value is below +∞), and every word of the edge array,
  read signed, lies in [0, 10000).
-/
import proofs.«422284_j11982958756494_3_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreFacts

open Idealize.ShloMosaic Cert.Pre_finite_inputs

variable [Cert.Pre_finite_inputs.Facts]

/-- The rank-0 shape has one index. -/
instance : Subsingleton S_.Idx := ⟨fun a b => funext fun d => d.elim0⟩

/-- One entry: an extended real whose absolute value max v (−v) is below +∞ is neither +∞ nor −∞, so it is a real. -/
theorem real_of_abs_lt_inf (v : Ideal .f32)
    (h : FloatOps.cmpf .olt (FloatOps.hostAbsf v) (FloatOps.ofBits (F := Ideal) .f32 0x7F800000#32) = 1#1) :
    ∃ r : ℝ, v = (r : EReal) := by
  have htop : Ideal.ofBits .f32 0x7F800000#32 = ⊤ := by simp [Ideal.ofBits, Ideal.ieee]
  have h' : Ideal.cmp .olt (max (v : EReal) (-(v : EReal))) (Ideal.ofBits .f32 0x7F800000#32) = 1#1 := h
  rw [htop] at h'
  unfold Ideal.cmp at h'
  have hlt : max (v : EReal) (-v) < ⊤ := by
    simpa [StableHlo.Predicate.ofBool_eq_one_iff] using h'
  rw [max_lt_iff] at hlt
  induction v using EReal.rec with
  | bot => simp at hlt
  | coe r => exact ⟨r, rfl⟩
  | top => simp at hlt

/-- One word: at or above the word 0 and below the word 10000, both compared signed, it reads signed in [0, 10000). -/
theorem node_of_cmp (w : BitVec 32)
    (h : IntOp.andi (IntOp.cmpi .sge w 0#32) (IntOp.cmpi .slt w 10000#32) = 1#1) :
    0 ≤ w.toInt ∧ w.toInt < 10000 := by
  obtain ⟨h1, h2⟩ := IntOp.andi_eq_one.1 h
  have a := IntOp.cmpi_sge.1 h1
  have b := IntOp.cmpi_slt.1 h2
  have e0 : (0#32 : BitVec 32).toInt = 0 := by decide
  have e1 : (10000#32 : BitVec 32).toInt = 10000 := by decide
  rw [e0] at a; rw [e1] at b
  exact ⟨a, b⟩

/-- The precondition all ones: the features and the weights are real, the edge words are nodes. -/
theorem of_pre (x : FVec Ideal S10000x128 .f32) (ei : IVec S2x640000 32) (W : FVec Ideal S128x128 .f32)
    (b g be : FVec Ideal S128 .f32)
    (h : Cert.Pre_finite_inputs.fn (F := Ideal) x ei W b g be = fun _ => 1#1) :
    (∀ j, ∃ r : ℝ, x j = (r : EReal)) ∧ (∀ j, ∃ r : ℝ, W j = (r : EReal))
      ∧ (∀ j, 0 ≤ (ei j).toInt ∧ (ei j).toInt < 10000) := by
  -- the predicate at its one index is a conjunction of six "all" clauses, nested to the left
  have h0 := congrFun h ValueIdx.ix0
  dsimp only [fn, fn_part1] at h0
  obtain ⟨h1, hei⟩ := IntOp.andi_eq_one.1 h0
  obtain ⟨h2, _⟩ := IntOp.andi_eq_one.1 h1
  obtain ⟨h3, _⟩ := IntOp.andi_eq_one.1 h2
  obtain ⟨h4, _⟩ := IntOp.andi_eq_one.1 h3
  obtain ⟨hx, hW⟩ := IntOp.andi_eq_one.1 h4
  -- an "all" clause that is 1 has a 1 at every element; each element is the one-entry fact above
  refine ⟨fun j => real_of_abs_lt_inf (x j) ?_, fun j => real_of_abs_lt_inf (W j) ?_, fun j => node_of_cmp (ei j) ?_⟩
  · exact Host.reduce_andi_all _ _ _ _ _ hx j
  · exact Host.reduce_andi_all _ _ _ _ _ hW j
  · exact Host.reduce_andi_all _ _ _ _ _ hei j

end Cert.PreFacts

end
-- ==== Proof.Bridge.lean ====
/-
  The two results are one array.

  At row i, column q the kernel's result is the layer normalisation of the count-matrix spelling of the aggregated row,
  the reference's that of the edge-by-edge spelling, with the same scale and shift. Under the precondition every edge
  word is a node, the inverse square roots of the degrees are real and so is x · W, so the two spellings of the row agree
  entry by entry; the normalisation is one function of the row.
-/
import proofs.«422284_j11982958756494_3_alg».proof.Proof.KerValue
import proofs.«422284_j11982958756494_3_alg».proof.Proof.RefValue
import proofs.«422284_j11982958756494_3_alg».proof.Proof.Facts
import proofs.«422284_j11982958756494_3_alg».proof.Proof.PreFacts
import proofs.«422284_j11982958756494_3_alg».proof.Proof.Gen.Pre_finite_inputs

set_option maxRecDepth 16384

noncomputable section

namespace Cert.Bridge

open Cert.KernelIdeal Cert.KernelIdeal.Gen
open Idealize.ShloMosaic Idealize.ShloMosaic.TcCoe Idealize.ShloMosaic.ValueIdx Idealize.SL.Sem
open Cert.Names Cert.KernelIdeal.KerHost

variable (m : (ℓ : Loc nD τ sig) → Buf (Elt Ideal) ℓ) (c : Dev nD)

/-- Under the precondition the kernel's result array is the reference's result stage of the same arguments. -/
theorem result_eq
    (hp : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1) :
    Cert.KernelIdeal.Run.O38 (F := Ideal) m c
      = Cert.ReferenceIdeal.PRead.val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  obtain ⟨hx, hW, hr⟩ := Cert.PreFacts.of_pre _ _ _ _ _ _ hp
  have hs : Cert.Spec.InRange (SW (EI m c)) := Cert.Facts.sw_range _ hr
  have hd : Cert.Spec.InRange (DW (EI m c)) := Cert.Facts.dw_range _ hr
  funext j
  obtain ⟨i, q, rfl⟩ : ∃ (i : Fin 10000) (q : Fin 128), j = ix2 i q := ⟨j 0, j 1, eq_ix2 j⟩
  refine (Cert.KernelIdeal.KerValue.result_apply m c hs hd i q).trans ?_
  refine .trans ?_ (Cert.RefValue.ref_out (X m c) (EI m c) (WW m c) (m ((c.tc : Thread nD τ).loc main_arg3)) (m ((c.tc : Thread nD τ).loc main_arg4)) (m ((c.tc : Thread nD τ).loc main_arg5)) i q).symm
  refine congrArg (fun row => Cert.LibLayerNorm.layerNorm (Ideal.ofBits .f32 0x43000000#32) (Ideal.ofBits .f32 0x3727C5AC#32) row
    (fun k => (m ((c.tc : Thread nD τ).loc main_arg4) (ix1 k) : EReal)) (fun k => (m ((c.tc : Thread nD τ).loc main_arg5) (ix1 k) : EReal)) q) ?_
  funext k
  rw [Cert.RefValue.ref_pre (X m c) (EI m c) (WW m c) (m ((c.tc : Thread nD τ).loc main_arg3)) hs hd i k]
  exact Cert.Spec.agg_eq _ _ _ _ _ hs hd (Cert.Facts.dv_real _) (Cert.Facts.h_real _ _ hx hW) i k

end Cert.Bridge

end
-- ==== Proof.lean ====
/-
  A graph convolution with symmetric normalisation, then a layer normalisation, on 10000 nodes, 650000 edges (640000
  given ones and a self loop per node) and 128 features: out[i, ·] = LayerNorm(Σ_{e : dst e = i} (x·W)[src e, ·] · s[src e] · s[dst e] + b),
  s the inverse square roots of the in-degrees.

  The reference computes the sum edge by edge (gathers, a scatter-add). The kernel's program scatters ones into a
  10000 × 10240 matrix of edge counts, computes h = (x·W)·s in a first kernel region, pads h with zero rows, and in a second
  region multiplies the count matrix by h in two halves of 5120 columns, scales row i by s[i], adds the bias and normalises.
  At the ideal values both are the same array when every edge word names a node — the precondition: the features, the
  weights and the three vectors finite, the edge words in [0, 10000) —: the count matrix regroups the edges by their source,
  and s[i] comes out of the sum because every factor is a real number.

  The three programs run to the end, fault nowhere and leave their arguments unchanged: for the two kernel programs by
  the launch theorem for a list of host stretches and kernel regions, each region's record proved from its kernel's own
  run; for the reference by its run read back. The idealisation rewrote nothing, so it is the program's own text read at
  the ideal values.
-/
import proofs.«422284_j11982958756494_3_alg».proof.Defs
import proofs.«422284_j11982958756494_3_alg».proof.Proof.Gen.Kernel
import proofs.«422284_j11982958756494_3_alg».proof.Proof.Gen.KernelIdeal
import proofs.«422284_j11982958756494_3_alg».proof.Proof.Gen.ReferenceIdeal
import proofs.«422284_j11982958756494_3_alg».proof.Proof.Gen.Pre_finite_inputs
import proofs.«422284_j11982958756494_3_alg».proof.Proof.RunK
import proofs.«422284_j11982958756494_3_alg».proof.Proof.Bridge
import Idealize.ShloMosaic.Adequacy
import Idealize.ShloMosaic.Init

set_option maxRecDepth 16384

noncomputable section

namespace Cert.Proof

open Idealize.ShloMosaic Idealize.SL.Sem

/-- The word-level kernel program runs and keeps its arguments. -/
theorem frame_k : Cert.frame_Kernel := fun m ρ _ =>
  (θ_run Cert.Kernel.defs _ _).mono (fun _ h c => (h c).2) (Cert.Kernel.Run.run_main (F := Bits) m ρ)

/-- So does the idealized kernel program. -/
theorem frame_ki : Cert.frame_KernelIdeal := fun m ρ _ =>
  (θ_run Cert.KernelIdeal.defs _ _).mono (fun _ h c => (h c).2) (Cert.KernelIdeal.Run.run_main (F := Ideal) m ρ)

/-- And the reference: its run, the result dropped. -/
theorem frame_ri : Cert.frame_ReferenceIdeal := fun m ρ _ =>
  (θ_run Cert.ReferenceIdeal.defs _ _).mono (fun _ h c => (h c).2) (Cert.ReferenceIdeal.PValue.run (F := Ideal) m ρ)

/-- The idealisation rewrote no operation. -/
theorem preserves : Cert.preserves_Kernel_KernelIdeal := trivial

/-- From memories agreeing on the arguments both idealized programs end with the same result array: the kernel's is what
    its second region leaves, the reference's its last stage, and under the precondition these are one array. -/
theorem algebraic : Cert.algebraic_KernelIdeal_ReferenceIdeal := by
  intro m ρ m' ρ' hpre hagree
  refine ⟨fun c => Cert.KernelIdeal.Run.O38 (F := Ideal) m c, Cert.KernelIdeal.Run.run_main (F := Ideal) m ρ, ?_⟩
  refine (θ_run Cert.ReferenceIdeal.defs _ _).mono (fun _ h c => ⟨(h c).1.trans ?_, (h c).2⟩)
    (Cert.ReferenceIdeal.PValue.run (F := Ideal) m' ρ')
  rw [Cert.ReferenceIdeal.PRead.val_main_v70_eq, (hagree c).1, (hagree c).2.1, (hagree c).2.2.1, (hagree c).2.2.2.1,
    (hagree c).2.2.2.2.1, (hagree c).2.2.2.2.2]
  exact (Cert.Bridge.result_eq m c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
